-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x10 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x10 .f32) (main_arg16 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128x10 .f32) (main_arg16 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S160x128 : Shape := ⟨2, ![160, 128]⟩
abbrev S5000x128 : Shape := ⟨2, ![5000, 128]⟩
abbrev S8x128 : Shape := ⟨2, ![8, 128]⟩
abbrev S10240x128 : Shape := ⟨2, ![10240, 128]⟩
abbrev S5000x1 : Shape := ⟨2, ![5000, 1]⟩
abbrev S512x128 : Shape := ⟨2, ![512, 128]⟩
abbrev S5000x512 : Shape := ⟨2, ![5000, 512]⟩
abbrev S20x512x128 : Shape := ⟨3, ![20, 512, 128]⟩
abbrev S512x10 : Shape := ⟨2, ![512, 10]⟩
abbrev S1x10 : Shape := ⟨2, ![1, 10]⟩

abbrev nBuf : Space → Nat
  | .hbm => 105
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S100000x1, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S160x128, .f32⟩
  | .hbm, ⟨38, _⟩ => ⟨S160x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S160x128, .f32⟩
  | .hbm, ⟨76, _⟩ => ⟨S160x128, .f32⟩
  | .hbm, ⟨77, _⟩ => ⟨S_, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S10240x128, .f32⟩
  | .hbm, ⟨98, _⟩ => ⟨S20x512x128, .f32⟩
  | .hbm, ⟨99, _⟩ => ⟨S_, .f32⟩
  | .hbm, ⟨100, _⟩ => ⟨S512x128, .f32⟩
  | .hbm, ⟨101, _⟩ => ⟨S512x10, .f32⟩
  | .hbm, ⟨102, _⟩ => ⟨S1x10, .f32⟩
  | .hbm, ⟨103, _⟩ => ⟨S512x10, .f32⟩
  | .hbm, ⟨104, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S8x128, .f32⟩
  | .local _ .vmem, ⟨31, _⟩ => ⟨S8x128, .f32⟩
  | .local _ .vmem, ⟨32, _⟩ => ⟨S8x128, .f32⟩
  | .local _ .vmem, ⟨33, _⟩ => ⟨S8x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S5000x1, .i32⟩
  | .local _ .vmem, ⟨43, _⟩ => ⟨S5000x1, .i32⟩
  | .local _ .vmem, ⟨44, _⟩ => ⟨S512x128, .f32⟩
  | .local _ .vmem, ⟨45, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_cst_1 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_cst_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44_0 : Ref sig .tc := ⟨.hbm, 74, rfl⟩
abbrev main_v44_1 : Ref sig .tc := ⟨.hbm, 75, rfl⟩
abbrev main_v44_2 : Ref sig .tc := ⟨.hbm, 76, rfl⟩
abbrev main_cst_9 : Ref sig .tc := ⟨.hbm, 77, rfl⟩
abbrev main_v45 : Ref sig .tc := ⟨.hbm, 78, rfl⟩
abbrev main_cst_10 : Ref sig .tc := ⟨.hbm, 79, rfl⟩
abbrev main_v46 : Ref sig .tc := ⟨.hbm, 80, rfl⟩
abbrev main_v47 : Ref sig .tc := ⟨.hbm, 81, rfl⟩
abbrev main_cst_11 : Ref sig .tc := ⟨.hbm, 82, rfl⟩
abbrev main_v48 : Ref sig .tc := ⟨.hbm, 83, rfl⟩
abbrev main_cst_12 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg8_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc3_sem8_0 : DmaSem sig := 44
abbrev cc3_sem8_1 : DmaSem sig := 45

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S160x128_S128_d0 : S160x128.ReducesTo [0] S128
  h_S_ : 0 < S_.numel
  bcast_S_S128 : S_.BroadcastsInDim S128 (![] : Fin 0 → Fin S128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S512x128_S512x128_0_0 : ∀ a, (![0, 0] : Fin 2 → Nat) a + S512x128.size a ≤ S512x128.size a
  h_S512x128 : 0 < S512x128.numel
  shapeCasts_S10240x128_S20x512x128 : S10240x128.ShapeCasts S20x512x128
  reducesTo_S20x512x128_S512x128_d0 : S20x512x128.ReducesTo [0] S512x128
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x512_S5000x128_S512x128_0_0_1_1_n_n_wf : DotDims.WF S5000x512 S5000x128 S512x128 [0] [0] [1] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S160x128.size a
  hwx0_5 : ∀ i : grid0.Coords, EltTy.bits .f32 = 32 ∨ (Rect.block (s := S160x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S160x128.size a
  hwx0_6 : ∀ i : grid0.Coords, EltTy.bits .f32 = 32 ∨ (Rect.block (s := S160x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S160x128.size a
  hwx2_5 : ∀ i : grid2.Coords, EltTy.bits .f32 = 32 ∨ (Rect.block (s := S160x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S160x128.size a
  hwx2_6 : ∀ i : grid2.Coords, EltTy.bits .f32 = 32 ∨ (Rect.block (s := S160x128) S8x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S100000x1.size a
  hwx3_7 : ∀ i : grid3.Coords, EltTy.bits .i32 = 32 ∨ (Rect.block (s := S100000x1) S5000x1.size (cc3_transform_7 i) (hinb3_7 i)).WholeWords (EltTy.packing .i32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S512x128.size a ≤ S10240x128.size a
  hwx3_8 : ∀ i : grid3.Coords, EltTy.bits .f32 = 32 ∨ (Rect.block (s := S10240x128) S512x128.size (cc3_transform_8 i) (hinb3_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v44_1) S8x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v44_2) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v44_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v4) S5000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v60) S512x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512x10 : Shape := ⟨2, ![512, 10]⟩
abbrev S1x10 : Shape := ⟨2, ![1, 10]⟩

abbrev nBuf : Space → Nat
  | .hbm => 149
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128x10, .f32⟩
  | 16 => ⟨S10, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x1600000, .i32⟩
  | 80 => ⟨S1600000, .i32⟩
  | 81 => ⟨S1x1600000, .i32⟩
  | 82 => ⟨S1600000, .i32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S_, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S1x128, .f32⟩
  | 8 => ⟨S100000x128, .f32⟩
  | 9 => ⟨S100000x128, .f32⟩
  | 10 => ⟨S_, .f32⟩
  | 11 => ⟨S100000x128, .f32⟩
  | 12 => ⟨S100000x128, .f32⟩
  | 13 => ⟨S_, .f32⟩
  | 14 => ⟨S512x128, .f32⟩
  | 15 => ⟨S100000x1, .i32⟩
  | 16 => ⟨S512x128, .f32⟩
  | 17 => ⟨S512x10, .f32⟩
  | 18 => ⟨S1x10, .f32⟩
  | 19 => ⟨S512x10, .f32⟩
  | 20 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_6 : Ref sig .tc := ⟨.hbm, 83, rfl⟩
abbrev main_v54 : Ref sig .tc := ⟨.hbm, 84, rfl⟩
abbrev main_v55 : Ref sig .tc := ⟨.hbm, 85, rfl⟩
abbrev main_c_7 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_cst_10 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_11 : Ref sig .tc := ⟨.hbm, 110, rfl⟩
abbrev main_v76 : Ref sig .tc := ⟨.hbm, 111, rfl⟩
abbrev main_cst_12 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_13 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_call2_cst : Ref sig .tc := ⟨.hbm, 131, rfl⟩
abbrev main_call2_v0 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_call3_cst : Ref sig .tc := ⟨.hbm, 138, rfl⟩
abbrev main_call3_v0 : Ref sig .tc := ⟨.hbm, 139, rfl⟩
abbrev main_v99 : Ref sig .tc := ⟨.hbm, 140, rfl⟩
abbrev main_cst_14 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
/-
  The mathematics of the certificate, stated once over literal shapes at the ideal values (extended reals):
  a two-layer graph isomorphism network. Each layer adds to every node the sum of its in-neighbours' features,
  applies a linear map, normalises each feature by its mean and (biased) variance over all 100000 nodes, applies
  a scale, a shift, a rectifier, a second linear map and a rectifier; the node features are then summed per graph
  and a final linear map gives ten numbers per graph.

  The only place where the two programs differ as functions is the variance: one computes the mean of the squares
  minus the square of the mean (clamped below by zero), the other the mean of the squared deviations. They agree on
  finite values (`varK` against `varR`). Everything else differs only in the grouping of sums: a column sum over all
  nodes against twenty partial sums over tiles of 5000 nodes, and a per-graph sum written as a product with a
  zero-one membership matrix against a scatter-add.
-/
import Idealize.ShloMosaic.PureOps.Ideal
import Idealize.ShloMosaic.PureOps.Ideal.Laws
import Idealize.ShloMosaic.Lib.ValueIdx

noncomputable section

namespace GIN

open Idealize.ShloMosaic Idealize.ShloMosaic.ValueIdx

/-- Node features: 100000 nodes, 128 features. -/
abbrev TNF : Shape := ⟨2, ![100000, 128]⟩
/-- A weight matrix. -/
abbrev TFF : Shape := ⟨2, ![128, 128]⟩
/-- A per-feature vector. -/
abbrev TF : Shape := ⟨1, ![128]⟩
/-- A per-feature vector kept as a one-row matrix. -/
abbrev TRow : Shape := ⟨2, ![1, 128]⟩
/-- Twenty tiles' partial column sums, eight rows per tile of which only the first is used. -/
abbrev TPart : Shape := ⟨2, ![160, 128]⟩
/-- The graph index of every node, as a column. -/
abbrev TCol : Shape := ⟨2, ![100000, 1]⟩
/-- Per-graph sums: 512 graphs. -/
abbrev TGF : Shape := ⟨2, ![512, 128]⟩
/-- Twenty tiles' partial per-graph sums. -/
abbrev TPool : Shape := ⟨2, ![10240, 128]⟩

/-- The number of nodes as the programs write it: the single-precision word of 100000. -/
abbrev cN : EReal := Ideal.ofBits .f32 0x47C35000#32
/-- The normalisation's epsilon as the programs write it: the single-precision word nearest 1e-5. -/
abbrev cEps : EReal := Ideal.ofBits .f32 0x3727C5AC#32

/-- The sum of two node-feature arrays, entry by entry. -/
def add2 (x a : TNF.Idx → EReal) : TNF.Idx → EReal := fun i => x i + a i

/-- The square of a node-feature array, entry by entry. -/
def sq (h : TNF.Idx → EReal) : TNF.Idx → EReal := fun i => h i * h i

/-- A per-feature vector as a one-row matrix. -/
def row (b : TF.Idx → EReal) : TRow.Idx → EReal := fun i => b (ix1 (i 1))

/-- The linear map of a layer: `z · W + b`, the bias a one-row matrix. -/
def lin (z : TNF.Idx → EReal) (W : TFF.Idx → EReal) (b : TRow.Idx → EReal) : TNF.Idx → EReal :=
  fun i => (∑ k : Fin 128, z (ix2 (i 0) k) * W (ix2 k (i 1))) + b (ix2 0 (i 1))

/-- Node `q` of tile `t`: tiles of 5000 consecutive nodes. -/
def node (t : Fin 20) (q : Fin 5000) : Fin 100000 := ⟨5000 * t.val + q.val, by have := t.isLt; have := q.isLt; omega⟩

/-- Node `q` of the tile that row `r` of a partial-result array belongs to, `k` rows per tile. -/
def nodeAt (k : Nat) (hk : 0 < k) (r : Fin (20 * k)) (q : Fin 5000) : Fin 100000 :=
  ⟨5000 * (r.val / k) + q.val, by
    have h1 : r.val / k < 20 := Nat.div_lt_of_lt_mul (Nat.mul_comm 20 k ▸ r.isLt)
    have := q.isLt; omega⟩

/-- The partial column sums the first pass leaves: row `8 t` holds the column sums of `h` over tile `t`, the seven
    rows after it zero. -/
def psum (h : TNF.Idx → EReal) : TPart.Idx → EReal :=
  fun i => if (i 0).val % 8 = 0 then ∑ q : Fin 5000, h (ix2 (nodeAt 8 (by decide) ⟨(i 0).val, idx2_lt0 i⟩ q) (i 1)) else 0

/-- The column sums over all nodes. -/
def colsum (h : TNF.Idx → EReal) : TF.Idx → EReal := fun j => ∑ n : Fin 100000, h (ix2 n (j 0))

/-- The column means. -/
def mean (h : TNF.Idx → EReal) : TF.Idx → EReal := fun j => Ideal.div (colsum h j) cN

/-- The variance as the kernel's wrapper computes it: the mean of the squares minus the square of the mean, clamped
    below by zero. -/
def varK (h : TNF.Idx → EReal) : TF.Idx → EReal :=
  fun j => max (Ideal.div (colsum (sq h) j) cN - mean h j * mean h j) 0

/-- The variance as the reference computes it: the mean of the squared deviations from the mean. -/
def varR (h : TNF.Idx → EReal) : TF.Idx → EReal :=
  fun j => Ideal.div (∑ n : Fin 100000, (h (ix2 n (j 0)) - mean h j) * (h (ix2 n (j 0)) - mean h j)) cN

/-- The second half of a layer: normalise by mean and variance, scale, shift, rectify, a linear map, rectify.
    All per-feature vectors are one-row matrices. -/
def act (h : TNF.Idx → EReal) (mu var g bt : TRow.Idx → EReal) (W : TFF.Idx → EReal) (b : TRow.Idx → EReal) :
    TNF.Idx → EReal :=
  fun i => max ((∑ k : Fin 128,
      max ((h (ix2 (i 0) k) - mu (ix2 0 k)) * Ideal.rsqrt (var (ix2 0 k) + cEps) * g (ix2 0 k) + bt (ix2 0 k)) 0
        * W (ix2 k (i 1))) + b (ix2 0 (i 1))) 0

/-- Membership of a node in a graph: one if the node's graph index is `g`, else zero. -/
def member (b : BitVec 32) (g : Nat) : EReal := if b = BitVec.ofNat 32 g then 1 else 0

/-- The partial per-graph sums the pooling pass leaves: row `512 t + g` holds the sum of `h` over the nodes of tile
    `t` that belong to graph `g`. -/
def ppool (h : TNF.Idx → EReal) (b : TCol.Idx → BitVec 32) : TPool.Idx → EReal :=
  fun i => ∑ q : Fin 5000,
    member (b (ix2 (nodeAt 512 (by decide) ⟨(i 0).val, idx2_lt0 i⟩ q) 0)) ((i 0).val % 512)
      * h (ix2 (nodeAt 512 (by decide) ⟨(i 0).val, idx2_lt0 i⟩ q) (i 1))

/-- The per-graph sums: over all nodes, membership times the node's features. -/
def pool (h : TNF.Idx → EReal) (b : TCol.Idx → BitVec 32) : TGF.Idx → EReal :=
  fun i => ∑ n : Fin 100000, member (b (ix2 n 0)) (i 0).val * h (ix2 n (i 1))

/-- A layer with the kernel's variance. -/
def layerK (x agg : TNF.Idx → EReal) (Wa : TFF.Idx → EReal) (ba g bt : TF.Idx → EReal) (Wb : TFF.Idx → EReal)
    (bb : TF.Idx → EReal) : TNF.Idx → EReal :=
  act (lin (add2 x agg) Wa (row ba)) (row (mean (lin (add2 x agg) Wa (row ba))))
    (row (varK (lin (add2 x agg) Wa (row ba)))) (row g) (row bt) Wb (row bb)

/-- A layer with the reference's variance. -/
def layerR (x agg : TNF.Idx → EReal) (Wa : TFF.Idx → EReal) (ba g bt : TF.Idx → EReal) (Wb : TFF.Idx → EReal)
    (bb : TF.Idx → EReal) : TNF.Idx → EReal :=
  act (lin (add2 x agg) Wa (row ba)) (row (mean (lin (add2 x agg) Wa (row ba))))
    (row (varR (lin (add2 x agg) Wa (row ba)))) (row g) (row bt) Wb (row bb)

/-- An extended real that is a real number. -/
def IsR (x : EReal) : Prop := ∃ r : ℝ, x = (r : EReal)

end GIN

end
-- ==== Proof.KShared.lean ====
/-
  The host operations that both programs apply in the same way, named once so that no proof ever opens them:
  the neighbour aggregation (a gather of the source nodes' rows, negative indices wrapped as array indexing does,
  then a scatter-add into the destination nodes' rows) and the final linear head.
-/
import proofs.«403490_j83820581749192_2_alg».proof.Proof.Gen.KernelIdeal
import proofs.«403490_j83820581749192_2_alg».proof.Proof.Spec

set_option maxRecDepth 16384

noncomputable section

namespace Cert.KernelIdeal.Val

open Cert.KernelIdeal Cert.KernelIdeal.Facts₀ Cert.KernelIdeal.Facts Idealize.ShloMosaic Idealize.ShloMosaic.ValueIdx

/-- The source node of every edge: row 0 of the edge list. -/
def srcOf (e : IVec S2x1600000 32) : IVec S1600000 32 :=
  shapeCast _ (extractStridedSlice S1x1600000 ![0, 0] e slices_S2x1600000_S1x1600000_0_0) shapeCasts_S1x1600000_S1600000

/-- The destination node of every edge: row 1 of the edge list. -/
def dstOf (e : IVec S2x1600000 32) : IVec S1600000 32 :=
  shapeCast _ (extractStridedSlice S1x1600000 ![1, 0] e slices_S2x1600000_S1x1600000_1_0) shapeCasts_S1x1600000_S1600000

/-- The neighbour aggregation: every node's row is the sum of the rows `h[src e]` over the edges `e` whose destination
    it is (a negative source index counts from the end; an edge whose destination is out of range adds nothing). -/
def agg (h : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The final linear head: per-graph sums times a 128 × 10 matrix plus a bias. -/
def head (p : FVec Ideal S512x128 .f32) (Wl : FVec Ideal S128x10 .f32) (bl : FVec Ideal S10 .f32) : FVec Ideal S512x10 .f32 :=
  addf (Host.dotGeneral dot_S512x128_S128x10_S512x10_1_0_0_1_n_n none p Wl)
    (broadcastInDim S512x10 ![0, 1] bcast_S1x10_S512x10_0_1 (broadcastInDim S1x10 ![1] bcast_S10_S1x10_1 bl))

/-- The graph index of every node as a column. -/
def col (b : IVec S100000 32) : GIN.TCol.Idx → BitVec 32 := fun i => b (ix1 (i 0))

/-- The whole network with the kernel's variance, as one function of the seventeen arguments. -/
def netK (x : FVec Ideal S100000x128 .f32) (e : IVec S2x1600000 32) (b : IVec S100000 32)
    (W1a : FVec Ideal S128x128 .f32) (b1a g1 bt1 : FVec Ideal S128 .f32) (W1b : FVec Ideal S128x128 .f32) (b1b : FVec Ideal S128 .f32)
    (W2a : FVec Ideal S128x128 .f32) (b2a g2 bt2 : FVec Ideal S128 .f32) (W2b : FVec Ideal S128x128 .f32) (b2b : FVec Ideal S128 .f32)
    (Wl : FVec Ideal S128x10 .f32) (bl : FVec Ideal S10 .f32) : FVec Ideal S512x10 .f32 :=
  head (GIN.pool (GIN.layerK (GIN.layerK x (agg x (srcOf e) (dstOf e)) W1a b1a g1 bt1 W1b b1b)
      (agg (GIN.layerK x (agg x (srcOf e) (dstOf e)) W1a b1a g1 bt1 W1b b1b) (srcOf e) (dstOf e)) W2a b2a g2 bt2 W2b b2b) (col b)) Wl bl

/-- The whole network with the reference's variance. -/
def netR (x : FVec Ideal S100000x128 .f32) (e : IVec S2x1600000 32) (b : IVec S100000 32)
    (W1a : FVec Ideal S128x128 .f32) (b1a g1 bt1 : FVec Ideal S128 .f32) (W1b : FVec Ideal S128x128 .f32) (b1b : FVec Ideal S128 .f32)
    (W2a : FVec Ideal S128x128 .f32) (b2a g2 bt2 : FVec Ideal S128 .f32) (W2b : FVec Ideal S128x128 .f32) (b2b : FVec Ideal S128 .f32)
    (Wl : FVec Ideal S128x10 .f32) (bl : FVec Ideal S10 .f32) : FVec Ideal S512x10 .f32 :=
  head (GIN.pool (GIN.layerR (GIN.layerR x (agg x (srcOf e) (dstOf e)) W1a b1a g1 bt1 W1b b1b)
      (agg (GIN.layerR x (agg x (srcOf e) (dstOf e)) W1a b1a g1 bt1 W1b b1b) (srcOf e) (dstOf e)) W2a b2a g2 bt2 W2b b2b) (col b)) Wl bl

end Cert.KernelIdeal.Val

end
-- ==== Proof.KNames.lean ====
/-
  Names for the kernel program's arguments as launched and for the arrays its run passes through: the first layer's
  aggregation, pre-normalisation activations and output, and the second layer's.
-/
import proofs.«403490_j83820581749192_2_alg».proof.Proof.Gen.KernelIdeal.Frame
import proofs.«403490_j83820581749192_2_alg».proof.Proof.KShared

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- Argument 0 as launched. -/
abbrev A0 := m ((c : Thread nD τ).loc main_arg0)
/-- Argument 1 as launched. -/
abbrev A1 := m ((c : Thread nD τ).loc main_arg1)
/-- Argument 2 as launched. -/
abbrev A2 := m ((c : Thread nD τ).loc main_arg2)
/-- Argument 3 as launched. -/
abbrev A3 := m ((c : Thread nD τ).loc main_arg3)
/-- Argument 4 as launched. -/
abbrev A4 := m ((c : Thread nD τ).loc main_arg4)
/-- Argument 5 as launched. -/
abbrev A5 := m ((c : Thread nD τ).loc main_arg5)
/-- Argument 6 as launched. -/
abbrev A6 := m ((c : Thread nD τ).loc main_arg6)
/-- Argument 7 as launched. -/
abbrev A7 := m ((c : Thread nD τ).loc main_arg7)
/-- Argument 8 as launched. -/
abbrev A8 := m ((c : Thread nD τ).loc main_arg8)
/-- Argument 9 as launched. -/
abbrev A9 := m ((c : Thread nD τ).loc main_arg9)
/-- Argument 10 as launched. -/
abbrev A10 := m ((c : Thread nD τ).loc main_arg10)
/-- Argument 11 as launched. -/
abbrev A11 := m ((c : Thread nD τ).loc main_arg11)
/-- Argument 12 as launched. -/
abbrev A12 := m ((c : Thread nD τ).loc main_arg12)
/-- Argument 13 as launched. -/
abbrev A13 := m ((c : Thread nD τ).loc main_arg13)
/-- Argument 14 as launched. -/
abbrev A14 := m ((c : Thread nD τ).loc main_arg14)
/-- Argument 15 as launched. -/
abbrev A15 := m ((c : Thread nD τ).loc main_arg15)
/-- Argument 16 as launched. -/
abbrev A16 := m ((c : Thread nD τ).loc main_arg16)

/-- The first layer's neighbour aggregation. -/
def agg1 : FVec Ideal S100000x128 .f32 := agg (A0 m c) (srcOf (A1 m c)) (dstOf (A1 m c))
/-- The first layer before normalisation. -/
def hp1 : FVec Ideal S100000x128 .f32 := GIN.lin (GIN.add2 (A0 m c) (agg1 m c)) (A3 m c) (GIN.row (A4 m c))
/-- The first layer's output. -/
def h1 : FVec Ideal S100000x128 .f32 := GIN.layerK (A0 m c) (agg1 m c) (A3 m c) (A4 m c) (A5 m c) (A6 m c) (A7 m c) (A8 m c)
/-- The second layer's neighbour aggregation. -/
def agg2 : FVec Ideal S100000x128 .f32 := agg (h1 m c) (srcOf (A1 m c)) (dstOf (A1 m c))
/-- The second layer before normalisation. -/
def hp2 : FVec Ideal S100000x128 .f32 := GIN.lin (GIN.add2 (h1 m c) (agg2 m c)) (A9 m c) (GIN.row (A10 m c))
/-- The second layer's output. -/
def h2 : FVec Ideal S100000x128 .f32 := GIN.layerK (h1 m c) (agg2 m c) (A9 m c) (A10 m c) (A11 m c) (A12 m c) (A13 m c) (A14 m c)

theorem h1_eq : h1 m c = GIN.act (hp1 m c) (GIN.row (GIN.mean (hp1 m c))) (GIN.row (GIN.varK (hp1 m c))) (GIN.row (A5 m c)) (GIN.row (A6 m c)) (A7 m c) (GIN.row (A8 m c)) := rfl

theorem h2_eq : h2 m c = GIN.act (hp2 m c) (GIN.row (GIN.mean (hp2 m c))) (GIN.row (GIN.varK (hp2 m c))) (GIN.row (A11 m c)) (GIN.row (A12 m c)) (A13 m c) (GIN.row (A14 m c)) := rfl

theorem netK_eq : netK (A0 m c) (A1 m c) (A2 m c) (A3 m c) (A4 m c) (A5 m c) (A6 m c) (A7 m c) (A8 m c) (A9 m c) (A10 m c) (A11 m c) (A12 m c) (A13 m c) (A14 m c) (A15 m c) (A16 m c)
    = head (GIN.pool (h2 m c) (col (A2 m c))) (A15 m c) (A16 m c) := rfl

end Cert.KernelIdeal.Val

end
-- ==== Proof.KCarry.lean ====
/-
  Buffers that a stretch of the kernel program does not write keep their contents across it: a host stretch writes only
  its operations' result buffers, a kernel region only its output arrays (its input arrays are read through windows and
  left as they were). So an argument, or an intermediate array, read at a later boundary is what it was when last written.
-/
import proofs.«403490_j83820581749192_2_alg».proof.Proof.Gen.KernelIdeal.Frame
import Idealize.ShloMosaic.Lib.StableHlo.Run
import Idealize.ShloMosaic.Lib.ValueIdx

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- A host stretch writes only its operations' result buffers: a buffer that is none of them is left as it was. -/
macro "host_keeps " ops:ident b:ident : term => `(StableHlo.after_of_forall_not_mem (b := Proc.devRef .tc $b) _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

theorem W1_arg0 : W1 m ρ c (Proc.devRef .tc main_arg0) = m ((c : Thread nD τ).loc main_arg0) :=
  calc W1 m ρ c (Proc.devRef .tc main_arg0)
    _ = W0 m ρ c (Proc.devRef .tc main_arg0) := host_keeps hostOps0 main_arg0
    _ = m ((c : Thread nD τ).loc main_arg0) := rfl

theorem W1_arg3 : W1 m ρ c (Proc.devRef .tc main_arg3) = m ((c : Thread nD τ).loc main_arg3) :=
  calc W1 m ρ c (Proc.devRef .tc main_arg3)
    _ = W0 m ρ c (Proc.devRef .tc main_arg3) := host_keeps hostOps0 main_arg3
    _ = m ((c : Thread nD τ).loc main_arg3) := rfl

theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := host_keeps hostOps0 main_arg5
    _ = m ((c : Thread nD τ).loc main_arg5) := rfl

theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := host_keeps hostOps0 main_arg6
    _ = m ((c : Thread nD τ).loc main_arg6) := rfl

theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := host_keeps hostOps0 main_arg8
    _ = m ((c : Thread nD τ).loc main_arg8) := rfl

theorem W3_v16_0 : W3 m ρ c (Proc.devRef .tc main_v16_0) = W2 m ρ c (Proc.devRef .tc main_v16_0) :=
  calc W3 m ρ c (Proc.devRef .tc main_v16_0)
    _ = W2 m ρ c (Proc.devRef .tc main_v16_0) := host_keeps hostOps1 main_v16_0

theorem W3_arg7 : W3 m ρ c (Proc.devRef .tc main_arg7) = m ((c : Thread nD τ).loc main_arg7) :=
  calc W3 m ρ c (Proc.devRef .tc main_arg7)
    _ = W2 m ρ c (Proc.devRef .tc main_arg7) := host_keeps hostOps1 main_arg7
    _ = W1 m ρ c (Proc.devRef .tc main_arg7) := W2_of_ne m ρ c main_arg7 (by decide)
    _ = W0 m ρ c (Proc.devRef .tc main_arg7) := host_keeps hostOps0 main_arg7
    _ = m ((c : Thread nD τ).loc main_arg7) := rfl

theorem W4_v1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := host_keeps hostOps1 main_v1
    _ = W1 m ρ c (Proc.devRef .tc main_v1) := W2_of_ne m ρ c main_v1 (by decide)

theorem W4_v3 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := host_keeps hostOps1 main_v3
    _ = W1 m ρ c (Proc.devRef .tc main_v3) := W2_of_ne m ρ c main_v3 (by decide)

theorem W4_arg10 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := host_keeps hostOps1 main_arg10
    _ = W1 m ρ c (Proc.devRef .tc main_arg10) := W2_of_ne m ρ c main_arg10 (by decide)
    _ = W0 m ρ c (Proc.devRef .tc main_arg10) := host_keeps hostOps0 main_arg10
    _ = m ((c : Thread nD τ).loc main_arg10) := rfl

theorem W5_v32 : W5 m ρ c (Proc.devRef .tc main_v32) = W4 m ρ c (Proc.devRef .tc main_v32) :=
  calc W5 m ρ c (Proc.devRef .tc main_v32)
    _ = W4 m ρ c (Proc.devRef .tc main_v32) := host_keeps hostOps2 main_v32

theorem W5_arg9 : W5 m ρ c (Proc.devRef .tc main_arg9) = m ((c : Thread nD τ).loc main_arg9) :=
  calc W5 m ρ c (Proc.devRef .tc main_arg9)
    _ = W4 m ρ c (Proc.devRef .tc main_arg9) := host_keeps hostOps2 main_arg9
    _ = W3 m ρ c (Proc.devRef .tc main_arg9) := W4_of_ne m ρ c main_arg9 (by decide)
    _ = W2 m ρ c (Proc.devRef .tc main_arg9) := host_keeps hostOps1 main_arg9
    _ = W1 m ρ c (Proc.devRef .tc main_arg9) := W2_of_ne m ρ c main_arg9 (by decide)
    _ = W0 m ρ c (Proc.devRef .tc main_arg9) := host_keeps hostOps0 main_arg9
    _ = m ((c : Thread nD τ).loc main_arg9) := rfl

theorem W6_arg11 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := host_keeps hostOps2 main_arg11
    _ = W3 m ρ c (Proc.devRef .tc main_arg11) := W4_of_ne m ρ c main_arg11 (by decide)
    _ = W2 m ρ c (Proc.devRef .tc main_arg11) := host_keeps hostOps1 main_arg11
    _ = W1 m ρ c (Proc.devRef .tc main_arg11) := W2_of_ne m ρ c main_arg11 (by decide)
    _ = W0 m ρ c (Proc.devRef .tc main_arg11) := host_keeps hostOps0 main_arg11
    _ = m ((c : Thread nD τ).loc main_arg11) := rfl

theorem W6_arg12 : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := host_keeps hostOps2 main_arg12
    _ = W3 m ρ c (Proc.devRef .tc main_arg12) := W4_of_ne m ρ c main_arg12 (by decide)
    _ = W2 m ρ c (Proc.devRef .tc main_arg12) := host_keeps hostOps1 main_arg12
    _ = W1 m ρ c (Proc.devRef .tc main_arg12) := W2_of_ne m ρ c main_arg12 (by decide)
    _ = W0 m ρ c (Proc.devRef .tc main_arg12) := host_keeps hostOps0 main_arg12
    _ = m ((c : Thread nD τ).loc main_arg12) := rfl

theorem W6_arg14 : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := host_keeps hostOps2 main_arg14
    _ = W3 m ρ c (Proc.devRef .tc main_arg14) := W4_of_ne m ρ c main_arg14 (by decide)
    _ = W2 m ρ c (Proc.devRef .tc main_arg14) := host_keeps hostOps1 main_arg14
    _ = W1 m ρ c (Proc.devRef .tc main_arg14) := W2_of_ne m ρ c main_arg14 (by decide)
    _ = W0 m ρ c (Proc.devRef .tc main_arg14) := host_keeps hostOps0 main_arg14
    _ = m ((c : Thread nD τ).loc main_arg14) := rfl

theorem W7_v44_0 : W7 m ρ c (Proc.devRef .tc main_v44_0) = W6 m ρ c (Proc.devRef .tc main_v44_0) :=
  calc W7 m ρ c (Proc.devRef .tc main_v44_0)
    _ = W6 m ρ c (Proc.devRef .tc main_v44_0) := host_keeps hostOps3 main_v44_0

theorem W7_arg13 : W7 m ρ c (Proc.devRef .tc main_arg13) = m ((c : Thread nD τ).loc main_arg13) :=
  calc W7 m ρ c (Proc.devRef .tc main_arg13)
    _ = W6 m ρ c (Proc.devRef .tc main_arg13) := host_keeps hostOps3 main_arg13
    _ = W5 m ρ c (Proc.devRef .tc main_arg13) := W6_of_ne m ρ c main_arg13 (by decide)
    _ = W4 m ρ c (Proc.devRef .tc main_arg13) := host_keeps hostOps2 main_arg13
    _ = W3 m ρ c (Proc.devRef .tc main_arg13) := W4_of_ne m ρ c main_arg13 (by decide)
    _ = W2 m ρ c (Proc.devRef .tc main_arg13) := host_keeps hostOps1 main_arg13
    _ = W1 m ρ c (Proc.devRef .tc main_arg13) := W2_of_ne m ρ c main_arg13 (by decide)
    _ = W0 m ρ c (Proc.devRef .tc main_arg13) := host_keeps hostOps0 main_arg13
    _ = m ((c : Thread nD τ).loc main_arg13) := rfl

theorem W7_v4 : W7 m ρ c (Proc.devRef .tc main_v4) = W1 m ρ c (Proc.devRef .tc main_v4) :=
  calc W7 m ρ c (Proc.devRef .tc main_v4)
    _ = W6 m ρ c (Proc.devRef .tc main_v4) := host_keeps hostOps3 main_v4
    _ = W5 m ρ c (Proc.devRef .tc main_v4) := W6_of_ne m ρ c main_v4 (by decide)
    _ = W4 m ρ c (Proc.devRef .tc main_v4) := host_keeps hostOps2 main_v4
    _ = W3 m ρ c (Proc.devRef .tc main_v4) := W4_of_ne m ρ c main_v4 (by decide)
    _ = W2 m ρ c (Proc.devRef .tc main_v4) := host_keeps hostOps1 main_v4
    _ = W1 m ρ c (Proc.devRef .tc main_v4) := W2_of_ne m ρ c main_v4 (by decide)

theorem W8_arg15 : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := host_keeps hostOps3 main_arg15
    _ = W5 m ρ c (Proc.devRef .tc main_arg15) := W6_of_ne m ρ c main_arg15 (by decide)
    _ = W4 m ρ c (Proc.devRef .tc main_arg15) := host_keeps hostOps2 main_arg15
    _ = W3 m ρ c (Proc.devRef .tc main_arg15) := W4_of_ne m ρ c main_arg15 (by decide)
    _ = W2 m ρ c (Proc.devRef .tc main_arg15) := host_keeps hostOps1 main_arg15
    _ = W1 m ρ c (Proc.devRef .tc main_arg15) := W2_of_ne m ρ c main_arg15 (by decide)
    _ = W0 m ρ c (Proc.devRef .tc main_arg15) := host_keeps hostOps0 main_arg15
    _ = m ((c : Thread nD τ).loc main_arg15) := rfl

theorem W8_arg16 : W8 m ρ c (Proc.devRef .tc main_arg16) = m ((c : Thread nD τ).loc main_arg16) :=
  calc W8 m ρ c (Proc.devRef .tc main_arg16)
    _ = W7 m ρ c (Proc.devRef .tc main_arg16) := W8_of_ne m ρ c main_arg16 (by decide)
    _ = W6 m ρ c (Proc.devRef .tc main_arg16) := host_keeps hostOps3 main_arg16
    _ = W5 m ρ c (Proc.devRef .tc main_arg16) := W6_of_ne m ρ c main_arg16 (by decide)
    _ = W4 m ρ c (Proc.devRef .tc main_arg16) := host_keeps hostOps2 main_arg16
    _ = W3 m ρ c (Proc.devRef .tc main_arg16) := W4_of_ne m ρ c main_arg16 (by decide)
    _ = W2 m ρ c (Proc.devRef .tc main_arg16) := host_keeps hostOps1 main_arg16
    _ = W1 m ρ c (Proc.devRef .tc main_arg16) := W2_of_ne m ρ c main_arg16 (by decide)
    _ = W0 m ρ c (Proc.devRef .tc main_arg16) := host_keeps hostOps0 main_arg16
    _ = m ((c : Thread nD τ).loc main_arg16) := rfl

end Cert.KernelIdeal.Val

end
-- ==== Proof.KHost.lean ====
/-
  The host arithmetic between the kernel's passes, as functions. The twenty tiles' partial column sums, summed over the
  160 rows of the partial array (only every eighth row is not zero), are the column sums over all 100000 nodes; dividing
  by the node count gives the mean, and the mean of the squares minus the squared mean, clamped at zero, the variance.
  The twenty tiles' partial per-graph sums, summed over the tiles, are the per-graph sums over all nodes. A vector
  reshaped to one row, or to one column, is read back by its only free coordinate.
-/
import proofs.«403490_j83820581749192_2_alg».proof.Proof.Gen.KernelIdeal
import proofs.«403490_j83820581749192_2_alg».proof.Proof.KShared
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Mathlib.Algebra.BigOperators.Fin
import Mathlib.Data.Fintype.BigOperators
import Mathlib.Logic.Equiv.Fin.Basic

set_option maxRecDepth 16384

noncomputable section

namespace Cert.KernelIdeal.Val

open Cert.KernelIdeal Cert.KernelIdeal.Facts₀ Cert.KernelIdeal.Facts Idealize.ShloMosaic Idealize.ShloMosaic.ValueIdx

/-! ## Regrouping the sums

  The 100000 nodes are twenty tiles of 5000: node n = 5000 t + q. Addition of extended reals is commutative and
  associative, so a sum over all nodes may be taken tile by tile with no finiteness assumption. -/

section Regroup
variable {M : Type*} [AddCommMonoid M]

/-- A sum over all 100000 nodes is the sum over the twenty tiles of the sums over each tile's 5000 nodes:
    (t, q) ↦ 5000 t + q is a bijection from pairs onto the nodes. -/
theorem sum_nodes (f : Fin 100000 → M) :
    ∑ n : Fin 100000, f n = ∑ t : Fin 20, ∑ q : Fin 5000, f (GIN.node t q) := by
  rw [← Fintype.sum_prod_type (f := fun p : Fin 20 × Fin 5000 => f (GIN.node p.1 p.2))]
  symm
  refine Fintype.sum_equiv (finProdFinEquiv.trans (finCongr (by norm_num))) _ _ (fun p => congrArg f (Fin.ext ?_))
  show 5000 * p.1.val + p.2.val = p.2.val + 5000 * p.1.val
  omega

/-- A sum over 160 rows of which only every eighth is not zero is the sum over the twenty rows 8 t:
    row r = 8 t + s, and for s ≠ 0 the term vanishes. -/
theorem sum_rows8 (g : Fin 160 → M) (hz : ∀ r : Fin 160, r.val % 8 ≠ 0 → g r = 0) :
    ∑ r : Fin 160, g r = ∑ t : Fin 20, g ⟨8 * t.val, by have := t.isLt; omega⟩ := by
  have e : ∑ r : Fin 160, g r = ∑ t : Fin 20, ∑ s : Fin 8, g ⟨8 * t.val + s.val, by have := t.isLt; have := s.isLt; omega⟩ := by
    rw [← Fintype.sum_prod_type (f := fun p : Fin 20 × Fin 8 => g ⟨8 * p.1.val + p.2.val, by have := p.1.isLt; have := p.2.isLt; omega⟩)]
    symm
    refine Fintype.sum_equiv (finProdFinEquiv.trans (finCongr (by norm_num))) _ _ (fun p => congrArg g (Fin.ext ?_))
    show 8 * p.1.val + p.2.val = p.2.val + 8 * p.1.val
    omega
  rw [e]
  refine Finset.sum_congr rfl fun t _ => ?_
  rw [Finset.sum_eq_single (0 : Fin 8)]
  · rfl
  · intro s _ hs
    refine hz _ ?_
    have h1 : s.val ≠ 0 := fun h => hs (Fin.ext h)
    have := s.isLt
    show (8 * t.val + s.val) % 8 ≠ 0
    omega
  · intro h; exact absurd (Finset.mem_univ _) h

end Regroup

/-- The 160 rows of the partial column sums add up, column by column, to the column sums over all nodes:
    row 8 t holds tile t's column sums, (8 t) / 8 = t, and the other rows are zero. -/
theorem sum_psum (h : GIN.TNF.Idx → EReal) (c : Fin 128) :
    ∑ r : Fin 160, GIN.psum h (ix2 r c) = ∑ n : Fin 100000, h (ix2 n c) := by
  rw [sum_rows8 (fun r => GIN.psum h (ix2 r c)) (fun r hr => if_neg hr), sum_nodes (fun n => h (ix2 n c))]
  refine Finset.sum_congr rfl fun t _ => ?_
  have ht := t.isLt
  refine (if_pos (show (8 * t.val) % 8 = 0 by omega)).trans ?_
  refine Finset.sum_congr rfl fun q _ => congrArg (fun n => h (ix2 n c)) (Fin.ext ?_)
  show 5000 * (8 * t.val / 8) + q.val = 5000 * t.val + q.val
  rw [Nat.mul_div_cancel_left _ (by decide : 0 < 8)]

/-! ## The reshapes -/

/-- A per-feature vector reshaped to a one-row matrix. -/
theorem row_of_reshape (b : FVec Ideal S128 .f32) : shapeCast S1x128 b shapeCasts_S128_S1x128 = GIN.row b := by
  funext i
  obtain ⟨u, c, rfl⟩ : ∃ (u : Fin 1) (c : Fin 128), i = ix2 u c := ⟨i 0, i 1, eq_ix2 i⟩
  exact shapeCast_a_1a_apply b shapeCasts_S128_S1x128 u c

/-- The graph indices reshaped to a column. -/
theorem col_of_reshape (b : IVec S100000 32) : shapeCast S100000x1 b shapeCasts_S100000_S100000x1 = col b := by
  funext i
  obtain ⟨n, u, rfl⟩ : ∃ (n : Fin 100000) (u : Fin 1), i = ix2 n u := ⟨i 0, i 1, eq_ix2 i⟩
  refine shapeCast_apply b shapeCasts_S100000_S100000x1 _ (ix1 n) ?_
  have hu : u.val = 0 := by omega
  rw [Shape.rowMajor_val_two, Shape.rowMajor_val_one]
  show n.val = n.val * 1 + u.val
  rw [hu, Nat.mul_one, Nat.add_zero]

/-! ## Mean and variance -/

/-- The host's sum over the rows of a 160 × 128 array from a zero initial value, read at a column. -/
theorem reduce_rows_apply (x : FVec Ideal S160x128 .f32) (c : Fin 128) :
    Host.reduceAdd (F := Ideal) (φ := .f32) x (constant (F := Ideal) S_ .f32 0x00000000#32) reducesTo_S160x128_S128_d0 h_S_ (ix1 c)
      = ∑ r : Fin 160, x (ix2 r c) := by
  rw [hostReduceAdd_apply, Ideal.hostReduceAdd_single reducesTo_S160x128_S128_d0 (by decide), constant_apply,
    Ideal.ofBits_zero_f32, zero_add]
  refine Finset.sum_congr rfl fun k _ => congrArg x (funext fun a => Fin.ext ?_)
  match a with
  | ⟨0, _⟩ => rfl
  | ⟨1, _⟩ => rfl

/-- The quotient by the node count of the summed partial column sums, read at a column: the column sum over all
    nodes divided by the node count. -/
theorem div_psum_apply (h : GIN.TNF.Idx → EReal) (c : Fin 128) :
    Host.divf (Host.reduceAdd (F := Ideal) (φ := .f32) (GIN.psum h) (constant (F := Ideal) S_ .f32 0x00000000#32) reducesTo_S160x128_S128_d0 h_S_)
      (broadcastInDim S128 ![] bcast_S_S128 (constant (F := Ideal) S_ .f32 0x47C35000#32)) (ix1 c)
      = Ideal.div (∑ n : Fin 100000, h (ix2 n c)) GIN.cN := by
  rw [hostDivf_apply, reduce_rows_apply, sum_psum, broadcastInDim_scalar_apply, constant_apply]

/-- The mean from the partial column sums. -/
theorem mean_of_psum (h : GIN.TNF.Idx → EReal) :
    Host.divf (Host.reduceAdd (F := Ideal) (φ := .f32) (GIN.psum h) (constant (F := Ideal) S_ .f32 0x00000000#32) reducesTo_S160x128_S128_d0 h_S_)
      (broadcastInDim S128 ![] bcast_S_S128 (constant (F := Ideal) S_ .f32 0x47C35000#32)) = GIN.mean h := by
  funext j
  obtain ⟨c, rfl⟩ : ∃ c : Fin 128, j = ix1 c := ⟨j 0, eq_ix1 j⟩
  exact div_psum_apply h c

/-- The variance from the partial column sums of the squares and the mean. -/
theorem var_of_psum (h : GIN.TNF.Idx → EReal) :
    maximumf (F := Ideal) (φ := .f32) (subf (F := Ideal) (φ := .f32)
        (Host.divf (Host.reduceAdd (F := Ideal) (φ := .f32) (GIN.psum (GIN.sq h)) (constant (F := Ideal) S_ .f32 0x00000000#32) reducesTo_S160x128_S128_d0 h_S_)
          (broadcastInDim S128 ![] bcast_S_S128 (constant (F := Ideal) S_ .f32 0x47C35000#32)))
        (mulf (F := Ideal) (φ := .f32) (GIN.mean h) (GIN.mean h)))
      (broadcastInDim S128 ![] bcast_S_S128 (constant (F := Ideal) S_ .f32 0x00000000#32)) = GIN.varK h := by
  funext j
  obtain ⟨c, rfl⟩ : ∃ c : Fin 128, j = ix1 c := ⟨j 0, eq_ix1 j⟩
  rw [maximumf_apply, subf_apply, mulf_apply, div_psum_apply, broadcastInDim_scalar_apply, constant_apply,
    Ideal.ofBits_zero_f32]
  rfl

/-! ## The per-graph sums -/

/-- The host's sum over the tiles of a 20 × 512 × 128 array from a zero initial value, read at an entry. -/
theorem reduce_tiles_apply (x : FVec Ideal S20x512x128 .f32) (g : Fin 512) (f : Fin 128) :
    Host.reduceAdd (F := Ideal) (φ := .f32) x (constant (F := Ideal) S_ .f32 0x00000000#32) reducesTo_S20x512x128_S512x128_d0 h_S_ (ix2 g f)
      = ∑ t : Fin 20, x (ix3 t g f) := by
  rw [hostReduceAdd_apply, Ideal.hostReduceAdd_single reducesTo_S20x512x128_S512x128_d0 (by decide), constant_apply,
    Ideal.ofBits_zero_f32, zero_add]
  refine Finset.sum_congr rfl fun k _ => congrArg x (funext fun a => Fin.ext ?_)
  match a with
  | ⟨0, _⟩ => rfl
  | ⟨1, _⟩ => rfl
  | ⟨2, _⟩ => rfl

/-- The partial per-graph sums cut into twenty tiles of 512 rows: tile t, graph g is row 512 t + g. -/
theorem reshape_tiles_apply (x : S10240x128.Idx → EReal) (t : Fin 20) (g : Fin 512) (f : Fin 128) :
    shapeCast S20x512x128 x shapeCasts_S10240x128_S20x512x128 (ix3 t g f)
      = x (ix2 ⟨512 * t.val + g.val, by have := t.isLt; have := g.isLt; omega⟩ f) := by
  refine shapeCast_apply x shapeCasts_S10240x128_S20x512x128 _ _ ?_
  rw [Shape.rowMajor_val_two, Shape.rowMajor_val_three]
  show (512 * t.val + g.val) * 128 + f.val = (t.val * 512 + g.val) * 128 + f.val
  rw [Nat.mul_comm 512 t.val]

/-- The per-graph sums from the tiles' partial per-graph sums. -/
theorem pool_of_ppool (h : GIN.TNF.Idx → EReal) (b : GIN.TCol.Idx → BitVec 32) :
    Host.reduceAdd (F := Ideal) (φ := .f32) (shapeCast S20x512x128 (GIN.ppool h b) shapeCasts_S10240x128_S20x512x128)
      (constant (F := Ideal) S_ .f32 0x00000000#32) reducesTo_S20x512x128_S512x128_d0 h_S_ = GIN.pool h b := by
  funext i
  obtain ⟨g, f, rfl⟩ : ∃ (g : Fin 512) (f : Fin 128), i = ix2 g f := ⟨i 0, i 1, eq_ix2 i⟩
  rw [reduce_tiles_apply]
  refine Eq.trans ?_ (sum_nodes (fun n => GIN.member (b (ix2 n 0)) g.val * h (ix2 n f))).symm
  refine Finset.sum_congr rfl fun t _ => ?_
  rw [reshape_tiles_apply]
  have ht := t.isLt
  have hg := g.isLt
  have hdiv : (512 * t.val + g.val) / 512 = t.val := by omega
  have hmod : (512 * t.val + g.val) % 512 = g.val := by omega
  refine Finset.sum_congr rfl fun q _ => ?_
  have hn : GIN.nodeAt 512 (by decide) ⟨512 * t.val + g.val, by omega⟩ q = GIN.node t q := Fin.ext (by
    show 5000 * ((512 * t.val + g.val) / 512) + q.val = 5000 * t.val + q.val
    rw [hdiv])
  show GIN.member (b (ix2 (GIN.nodeAt 512 (by decide) ⟨512 * t.val + g.val, _⟩ q) 0)) ((512 * t.val + g.val) % 512)
      * h (ix2 (GIN.nodeAt 512 (by decide) ⟨512 * t.val + g.val, _⟩ q) f) = _
  rw [hn, hmod]

end Cert.KernelIdeal.Val

end
-- ==== Proof.KReg1.lean ====
/-
  What the second pass of the first layer leaves in its output array, whatever the buffers hold when it is entered:
  normalise, scale, shift, rectify, a linear map, rectify — tile by tile of 5000 nodes.
-/
import proofs.«403490_j83820581749192_2_alg».proof.Proof.Gen.KernelIdeal.Frame
import proofs.«403490_j83820581749192_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Act1

/-! ## The tile's product read at an entry -/

theorem tileDot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem tileDot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem tileDot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem tileDot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile times the weight matrix, accumulated into zero: entry `(p, q)` is the sum over the 128 features `k` of
    the tile's `(p, k)` times the matrix's `(k, q)`. -/
theorem tileDot_apply (z : FVec Ideal S5000x128 .bf16) (w : FVec Ideal S128x128 .bf16) (p : Fin 5000) (q : Fin 128) :
    matmul dot_S5000x128_S128x128_S5000x128_1_0_0_1_n_n none z w (constant (F := Ideal) S5000x128 .f32 0x00000000#32) (ix2 p q)
      = ∑ k : Fin 128, z (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact tileDot_lhs_0 _ _
    | ⟨1, _⟩ => exact (tileDot_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (tileDot_rhs_0 _ _).trans hk
    | ⟨1, _⟩ => exact tileDot_rhs_1 _ _)
  rw [el, er]

/-- The reciprocal square root of a vector, entry by entry. -/
theorem rsqrt_at {s : Shape} (a : FVec Ideal s .f32) (i : s.Idx) : rsqrt a i = Ideal.rsqrt (a i) := rfl

/-- The body's arithmetic at entry `(p, q)` of a tile: subtract the mean, multiply by the reciprocal square root of the
    variance plus epsilon and by the scale, add the shift, rectify; the row times the weight matrix plus the bias,
    rectified. The one-row operands are read at their only row. -/
theorem tileAct_apply (x0 : Vec Ideal S5000x128 .f32) (xv xm xg xb : Vec Ideal S1x128 .f32) (xW : Vec Ideal S128x128 .f32)
    (xc : Vec Ideal S1x128 .f32) (p : Fin 5000) (q : Fin 128) :
    k1_pay1 x0 xv xm xg xb xW xc (ix2 p q)
      = max ((∑ k : Fin 128, max ((x0 (ix2 p k) - xm (ix2 0 k)) * Ideal.rsqrt (xv (ix2 0 k) + GIN.cEps) * xg (ix2 0 k) + xb (ix2 0 k)) 0
          * xW (ix2 k q)) + xc (ix2 0 q)) 0 := by
  unfold k1_pay1
  simp only [shapeCast_self]
  rw [maximumf_apply, addf_apply, broadcast_apply, tileDot_apply, broadcastTo_1b_ab_apply]
  simp only [truncf_apply, maximumf_apply, addf_apply, mulf_apply, subf_apply, broadcast_apply, broadcastTo_1b_ab_apply, rsqrt_at,
    Ideal.ofBits_def, Ideal.ofBits_zero_f32]

/-! ## A tile's entry against the whole arrays -/

/-- If a tile holds rows `5000 n … 5000 n + 4999` of the node features, the body's result at the tile's entry `y` is the
    layer's second half at the array's entry `i` in row `5000 n + y 0`, column `y 1`. -/
theorem tile_eq (h : Vec Ideal S100000x128 .f32) (mu var g bt : Vec Ideal S1x128 .f32) (W : Vec Ideal S128x128 .f32)
    (b : Vec Ideal S1x128 .f32) (x0 : Vec Ideal S5000x128 .f32) (n : Nat)
    (h0 : ∀ (p : Fin 5000) (k : Fin 128) (a : Fin 100000), a.val = 5000 * n + p.val → x0 (ix2 p k) = h (ix2 a k))
    (y : S5000x128.Idx) (i : S100000x128.Idx) (hi0 : (i 0).val = 5000 * n + (y 0).val) (hi1 : (i 1).val = (y 1).val) :
    k1_pay1 x0 var mu g bt W b y = GIN.act h mu var g bt W b i := by
  obtain ⟨p, q, rfl⟩ : ∃ (p : Fin 5000) (q : Fin 128), y = ix2 p q := ⟨y 0, y 1, eq_ix2 y⟩
  obtain ⟨a, q', rfl⟩ : ∃ (a : Fin 100000) (q' : Fin 128), i = ix2 a q' := ⟨i 0, i 1, eq_ix2 i⟩
  obtain rfl : q' = q := Fin.ext hi1
  rw [tileAct_apply]
  unfold GIN.act
  simp only [h0 p _ a hi0]

/-! ## The windows' blocks as parts of the arrays -/

theorem zeroOff : (![0, 0] : Fin 2 → Nat) = fun _ => 0 := funext fun a => by fin_cases a <;> rfl

/-- The index maps over the twenty points: the node-feature tile and the output tile are block `(t, 0)`, every other
    window is block `(0, 0)` of an array it spans. -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The node-feature tile at point `t`. -/
abbrev hTile (c : Dev nD) (t : Fin cfg1.N) : Vec Ideal S5000x128 .f32 := iblk1 V c 0 t
abbrev muBlk (c : Dev nD) (t : Fin cfg1.N) : Vec Ideal S1x128 .f32 := iblk1 V c 1 t
abbrev varBlk (c : Dev nD) (t : Fin cfg1.N) : Vec Ideal S1x128 .f32 := iblk1 V c 2 t
abbrev gBlk (c : Dev nD) (t : Fin cfg1.N) : Vec Ideal S1x128 .f32 := iblk1 V c 3 t
abbrev btBlk (c : Dev nD) (t : Fin cfg1.N) : Vec Ideal S1x128 .f32 := iblk1 V c 4 t
abbrev wBlk (c : Dev nD) (t : Fin cfg1.N) : Vec Ideal S128x128 .f32 := iblk1 V c 5 t
abbrev bBlk (c : Dev nD) (t : Fin cfg1.N) : Vec Ideal S1x128 .f32 := iblk1 V c 6 t
/-- The arrays as the region finds them. -/
abbrev hArr (c : Dev nD) : Vec Ideal S100000x128 .f32 := V c main_v16_0
abbrev muArr (c : Dev nD) : Vec Ideal S1x128 .f32 := V c main_v27
abbrev varArr (c : Dev nD) : Vec Ideal S1x128 .f32 := V c main_v28
abbrev gArr (c : Dev nD) : Vec Ideal S1x128 .f32 := V c main_v29
abbrev btArr (c : Dev nD) : Vec Ideal S1x128 .f32 := V c main_v30
abbrev wArr (c : Dev nD) : Vec Ideal S128x128 .f32 := V c main_arg7
abbrev bArr (c : Dev nD) : Vec Ideal S1x128 .f32 := V c main_v31

/-- Tile `t` holds rows `5000 t … 5000 t + 4999` of the node features. -/
theorem hTile_apply (c : Dev nD) (t : Fin cfg1.N) (p : Fin 5000) (k : Fin 128) (a : Fin 100000) (ha : a.val = 5000 * t.val + p.val) :
    hTile V c t (ix2 p k) = hArr V c (ix2 a k) := by
  obtain ⟨e0, e1, -⟩ := blockIndex t
  show V c main_v16_0 (((cfg1.win 0).blk t).view.emb (ix2 p k)) = V c main_v16_0 (ix2 a k)
  refine congrArg (V c main_v16_0) (funext fun d => Fin.ext ?_)
  match d with
  | ⟨0, _⟩ => show win1_0.index t (0 : Fin 2) * 5000 + 1 * p.val = a.val; omega
  | ⟨1, _⟩ => show win1_0.index t (1 : Fin 2) * 128 + 1 * k.val = k.val; omega

/-- The mean row's block is the whole row, at every point. -/
theorem muBlk_eq (c : Dev nD) (t : Fin cfg1.N) : muBlk V c t = muArr V c := by
  obtain ⟨-, -, e0, e1, -⟩ := blockIndex t
  funext y
  show V c main_v27 (((cfg1.win 1).blk t).view.emb y) = V c main_v27 y
  refine congrArg (V c main_v27) (funext fun d => Fin.ext ?_)
  match d with
  | ⟨0, _⟩ => show win1_1.index t (0 : Fin 2) * 1 + 1 * (y 0).val = (y 0).val; omega
  | ⟨1, _⟩ => show win1_1.index t (1 : Fin 2) * 128 + 1 * (y 1).val = (y 1).val; omega

/-- The variance row's block is the whole row. -/
theorem varBlk_eq (c : Dev nD) (t : Fin cfg1.N) : varBlk V c t = varArr V c := by
  obtain ⟨-, -, -, -, e0, e1, -⟩ := blockIndex t
  funext y
  show V c main_v28 (((cfg1.win 2).blk t).view.emb y) = V c main_v28 y
  refine congrArg (V c main_v28) (funext fun d => Fin.ext ?_)
  match d with
  | ⟨0, _⟩ => show win1_2.index t (0 : Fin 2) * 1 + 1 * (y 0).val = (y 0).val; omega
  | ⟨1, _⟩ => show win1_2.index t (1 : Fin 2) * 128 + 1 * (y 1).val = (y 1).val; omega

/-- The scale row's block is the whole row. -/
theorem gBlk_eq (c : Dev nD) (t : Fin cfg1.N) : gBlk V c t = gArr V c := by
  obtain ⟨-, -, -, -, -, -, e0, e1, -⟩ := blockIndex t
  funext y
  show V c main_v29 (((cfg1.win 3).blk t).view.emb y) = V c main_v29 y
  refine congrArg (V c main_v29) (funext fun d => Fin.ext ?_)
  match d with
  | ⟨0, _⟩ => show win1_3.index t (0 : Fin 2) * 1 + 1 * (y 0).val = (y 0).val; omega
  | ⟨1, _⟩ => show win1_3.index t (1 : Fin 2) * 128 + 1 * (y 1).val = (y 1).val; omega

/-- The shift row's block is the whole row. -/
theorem btBlk_eq (c : Dev nD) (t : Fin cfg1.N) : btBlk V c t = btArr V c := by
  obtain ⟨-, -, -, -, -, -, -, -, e0, e1, -⟩ := blockIndex t
  funext y
  show V c main_v30 (((cfg1.win 4).blk t).view.emb y) = V c main_v30 y
  refine congrArg (V c main_v30) (funext fun d => Fin.ext ?_)
  match d with
  | ⟨0, _⟩ => show win1_4.index t (0 : Fin 2) * 1 + 1 * (y 0).val = (y 0).val; omega
  | ⟨1, _⟩ => show win1_4.index t (1 : Fin 2) * 128 + 1 * (y 1).val = (y 1).val; omega

/-- The weight matrix's block is the whole matrix. -/
theorem wBlk_eq (c : Dev nD) (t : Fin cfg1.N) : wBlk V c t = wArr V c := by
  obtain ⟨-, -, -, -, -, -, -, -, -, -, e0, e1, -⟩ := blockIndex t
  funext y
  show V c main_arg7 (((cfg1.win 5).blk t).view.emb y) = V c main_arg7 y
  refine congrArg (V c main_arg7) (funext fun d => Fin.ext ?_)
  match d with
  | ⟨0, _⟩ => show win1_5.index t (0 : Fin 2) * 128 + 1 * (y 0).val = (y 0).val; omega
  | ⟨1, _⟩ => show win1_5.index t (1 : Fin 2) * 128 + 1 * (y 1).val = (y 1).val; omega

/-- The bias row's block is the whole row. -/
theorem bBlk_eq (c : Dev nD) (t : Fin cfg1.N) : bBlk V c t = bArr V c := by
  obtain ⟨-, -, -, -, -, -, -, -, -, -, -, -, e0, e1, -⟩ := blockIndex t
  funext y
  show V c main_v31 (((cfg1.win 6).blk t).view.emb y) = V c main_v31 y
  refine congrArg (V c main_v31) (funext fun d => Fin.ext ?_)
  match d with
  | ⟨0, _⟩ => show win1_6.index t (0 : Fin 2) * 1 + 1 * (y 0).val = (y 0).val; omega
  | ⟨1, _⟩ => show win1_6.index t (1 : Fin 2) * 128 + 1 * (y 1).val = (y 1).val; omega

/-! ## What a point writes back, and the whole array -/

/-- Point `t` writes back tile `t` of the layer's second half of the whole arrays. -/
theorem flushed_act (c : Dev nD) (t : Fin cfg1.N) :
    (dat1 V c).flushed 7 t = ((cfg1.win 7).blk t).view.read (Elt Ideal)
      (GIN.act (V c main_v16_0) (V c main_v27) (V c main_v28) (V c main_v29) (V c main_v30) (V c main_arg7) (V c main_v31)) := by
  show (cfg1.win 7).cut (grid1.coords t) ((dat1 V c).after 7 t) = _
  rw [after1_7]
  unfold out1_7
  rw [View.canon_unit_zero zeroOff]
  simp only [View.ld_unit_zero (S := S5000x128) zeroOff, View.ld_unit_zero (S := S1x128) zeroOff, View.ld_unit_zero (S := S128x128) zeroOff]
  obtain ⟨-, -, -, -, -, -, -, -, -, -, -, -, -, -, e0, e1⟩ := blockIndex t
  funext j
  show k1_pay1 (hTile V c t) (varBlk V c t) (muBlk V c t) (gBlk V c t) (btBlk V c t) (wBlk V c t) (bBlk V c t) j
    = GIN.act (hArr V c) (muArr V c) (varArr V c) (gArr V c) (btArr V c) (wArr V c) (bArr V c) (((cfg1.win 7).blk t).view.emb j)
  rw [varBlk_eq V c t, muBlk_eq V c t, gBlk_eq V c t, btBlk_eq V c t, wBlk_eq V c t, bBlk_eq V c t]
  refine tile_eq (hArr V c) (muArr V c) (varArr V c) (gArr V c) (btArr V c) (wArr V c) (bArr V c) (hTile V c t) t.val
    (hTile_apply V c t) j (((cfg1.win 7).blk t).view.emb j) ?_ ?_
  · show win1_7.index t (0 : Fin 2) * 5000 + 1 * (j 0).val = 5000 * t.val + (j 0).val
    omega
  · show win1_7.index t (1 : Fin 2) * 128 + 1 * (j 1).val = (j 1).val
    omega

/-- An entry of the output array is in point `t`'s tile iff each coordinate is in the tile's range on its axis. -/
theorem mem_outTile (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v32).slice (win1_7.rect t)).set ↔ _
  rw [View.set_slice_whole, Rect.mem_set_unit]
  exact Iff.rfl

/-- Row `r` of the output lies in the tile of point `r / 5000`: the twenty tiles cover the array. -/
theorem outTiles_cover (i : S100000x128.Idx) :
    ∃ t : Fin cfg1.N, (cfg1.win 7).flush t = true ∧ i ∈ ((cfg1.win 7).blk t).view.set := by
  have hi0 : (i 0).val < 100000 := idx2_lt0 i
  have hi1 : (i 1).val < 128 := idx2_lt1 i
  have hN : grid1.N = 20 := N_1
  have ht : (i 0).val / 5000 < cfg1.N := by show (i 0).val / 5000 < grid1.N; omega
  obtain ⟨-, -, -, -, -, -, -, -, -, -, -, -, -, -, e0, e1⟩ := blockIndex ⟨(i 0).val / 5000, ht⟩
  refine ⟨⟨(i 0).val / 5000, ht⟩, flush1_7 _, ?_⟩
  rw [mem_outTile]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    rw [e1]; omega

end Act1

/-- The layer's output: every tile's block is the same function of the whole arrays. -/
theorem final1_7 (c : Dev nD) : (dat1 V c).arrAt 7 cfg1.N
    = GIN.act (V c main_v16_0) (V c main_v27) (V c main_v28) (V c main_v29) (V c main_v30) (V c main_arg7) (V c main_v31) :=
  (dat1 V c).arrAt_eq_of_cover 7
    (GIN.act (V c main_v16_0) (V c main_v27) (V c main_v28) (V c main_v29) (V c main_v30) (V c main_arg7) (V c main_v31))
    (fun t _ => Act1.flushed_act V c t) Act1.outTiles_cover

end Cert.KernelIdeal.Val

end
-- ==== Proof.KReg0c.lean ====
/-
  What the first pass of a layer leaves in its main output array, whatever the buffers hold when it is entered: the
  linear map of the sum of the node features and their neighbour aggregation, tile by tile of 5000 nodes.
-/
import proofs.«403490_j83820581749192_2_alg».proof.Proof.Gen.KernelIdeal.Frame
import proofs.«403490_j83820581749192_2_alg».proof.Proof.Spec
import proofs.«403490_j83820581749192_2_alg».proof.Proof.KReg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Tile0

/-! ## The body's arithmetic, read at an entry -/

set_option maxHeartbeats 400000 in
/-- The tile's result at (p, f): the sum of the two input tiles, times the weight matrix, plus the bias row. The
    narrowing format changes are the identity on the extended reals and the product's accumulator is zero. -/
theorem linTile_apply (x a : Vec Ideal S5000x128 .f32) (W : Vec Ideal S128x128 .f32) (b : Vec Ideal S1x128 .f32) (p : Fin 5000) (f : Fin 128) :
    k0_pay1 (F := Ideal) x a W b (ix2 p f) = (∑ k : Fin 128, (x (ix2 p k) + a (ix2 p k)) * W (ix2 k f)) + b (ix2 0 f) := by
  unfold k0_pay1
  simp only [shapeCast_self]
  rw [addf_apply, Act1.tileDot_apply, broadcastTo_1b_ab_apply]
  rfl

set_option maxHeartbeats 400000 in
/-- One tile's block. If the two input tiles hold rows 5000 t … 5000 t + 4999 of the features `x` and of the aggregation
    `a`, the body's result at `j` = (p, f) is the linear map of their sum at `i` = (5000 t + p, f). -/
theorem block_eq (t : Fin 20) (x0 x1 : Vec Ideal S5000x128 .f32) (W : Vec Ideal S128x128 .f32) (b : Vec Ideal S1x128 .f32)
    (x a : GIN.TNF.Idx → EReal)
    (h0 : ∀ (q : Fin 5000) (k : Fin 128), x0 (ix2 q k) = x (ix2 (GIN.node t q) k))
    (h1 : ∀ (q : Fin 5000) (k : Fin 128), x1 (ix2 q k) = a (ix2 (GIN.node t q) k))
    (j : S5000x128.Idx) (i : GIN.TNF.Idx) (hi0 : (i 0).val = 5000 * t.val + (j 0).val) (hi1 : (i 1).val = (j 1).val) :
    k0_pay1 (F := Ideal) x0 x1 W b j = GIN.lin (GIN.add2 x a) W b i := by
  obtain ⟨p, f, rfl⟩ : ∃ (p : Fin 5000) (f : Fin 128), j = ix2 p f := ⟨j 0, j 1, eq_ix2 j⟩
  obtain ⟨n, f', rfl⟩ : ∃ (n : Fin 100000) (f' : Fin 128), i = ix2 n f' := ⟨i 0, i 1, eq_ix2 i⟩
  obtain rfl : f' = f := Fin.ext hi1
  obtain rfl : n = GIN.node t p := Fin.ext hi0
  rw [linTile_apply]
  unfold GIN.lin GIN.add2
  simp only [h0, h1]

/-! ## The blocks, read off the arrays -/

/-- The zero offsets, however they are spelt. -/
theorem zeroOff : (![0, 0] : Fin 2 → Nat) = fun _ => 0 := funext fun a => by fin_cases a <;> rfl

/-- The windows' block indices at each of the twenty points: the two input tiles and the output tile are at block (t, 0);
    the weight matrix and the bias row are at block (0, 0). -/
theorem blockIdx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

/-- A point of the grid as a tile number. -/
def tileOf (t : Fin cfg0.N) : Fin 20 := ⟨t.val, t.isLt.trans_eq N_0⟩

set_option maxHeartbeats 400000 in
/-- The feature block at point `t` is rows 5000 t … 5000 t + 4999 of its array. -/
theorem tile_0_apply (c : Dev nD) (t : Fin cfg0.N) (q : Fin 5000) (k : Fin 128) :
    (iblk0 V c 0 t : Vec Ideal S5000x128 .f32) (ix2 q k) = (V c main_arg0 : GIN.TNF.Idx → EReal) (ix2 (GIN.node (tileOf t) q) k) := by
  obtain ⟨⟨e0, e1⟩, -⟩ := blockIdx t
  unfold iblk0
  rw [View.read_apply]
  show V c main_arg0 _ = V c main_arg0 _
  congr 1
  funext a
  apply Fin.ext
  match a with
  | ⟨0, _⟩ => show win0_0.index t (0 : Fin 2) * 5000 + 1 * q.val = 5000 * t.val + q.val; rw [e0]; omega
  | ⟨1, _⟩ => show win0_0.index t (1 : Fin 2) * 128 + 1 * k.val = k.val; rw [e1]; omega

set_option maxHeartbeats 400000 in
/-- The aggregation block at point `t` is rows 5000 t … 5000 t + 4999 of its array. -/
theorem tile_1_apply (c : Dev nD) (t : Fin cfg0.N) (q : Fin 5000) (k : Fin 128) :
    (iblk0 V c 1 t : Vec Ideal S5000x128 .f32) (ix2 q k) = (V c main_v14 : GIN.TNF.Idx → EReal) (ix2 (GIN.node (tileOf t) q) k) := by
  obtain ⟨-, ⟨e0, e1⟩, -⟩ := blockIdx t
  unfold iblk0
  rw [View.read_apply]
  show V c main_v14 _ = V c main_v14 _
  congr 1
  funext a
  apply Fin.ext
  match a with
  | ⟨0, _⟩ => show win0_1.index t (0 : Fin 2) * 5000 + 1 * q.val = 5000 * t.val + q.val; rw [e0]; omega
  | ⟨1, _⟩ => show win0_1.index t (1 : Fin 2) * 128 + 1 * k.val = k.val; rw [e1]; omega

/-! The weight matrix and the bias row are their whole arrays at every point. -/

set_option maxHeartbeats 400000 in
theorem whole_2 (c : Dev nD) (t : Fin cfg0.N) : (iblk0 V c 2 t : Vec Ideal S128x128 .f32) = (V c main_arg3 : GIN.TFF.Idx → EReal) := by
  obtain ⟨-, -, ⟨e0, e1⟩, -⟩ := blockIdx t
  funext y
  unfold iblk0
  rw [View.read_apply]
  show V c main_arg3 _ = V c main_arg3 y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

set_option maxHeartbeats 400000 in
theorem whole_3 (c : Dev nD) (t : Fin cfg0.N) : (iblk0 V c 3 t : Vec Ideal S1x128 .f32) = (V c main_v15 : GIN.TRow.Idx → EReal) := by
  obtain ⟨-, -, -, ⟨e0, e1⟩, -⟩ := blockIdx t
  funext y
  unfold iblk0
  rw [View.read_apply]
  show V c main_v15 _ = V c main_v15 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

set_option maxHeartbeats 400000 in
/-- What point `t` writes back is block `t` of the linear map of the summed arrays: rows 5000 t … 5000 t + 4999. -/
theorem flushed_eq (c : Dev nD) (t : Fin cfg0.N) :
    (dat0 V c).flushed 4 t = ((cfg0.win 4).blk t).view.read (Elt Ideal) (GIN.lin (GIN.add2 (V c main_arg0) (V c main_v14)) (V c main_arg3) (V c main_v15)) := by
  show (cfg0.win 4).cut (grid0.coords t) ((dat0 V c).after 4 t) = _
  rw [after0_4]
  unfold out0_4
  rw [View.canon_unit_zero zeroOff]
  simp only [View.ld_unit_zero (S := S5000x128) zeroOff, View.ld_unit_zero (S := S128x128) zeroOff, View.ld_unit_zero (S := S1x128) zeroOff]
  rw [whole_2, whole_3]
  obtain ⟨-, -, -, -, e0, e1⟩ := blockIdx t
  funext j
  show k0_pay1 (F := Ideal) (iblk0 V c 0 t) (iblk0 V c 1 t) (V c main_arg3) (V c main_v15) j
    = GIN.lin (GIN.add2 (V c main_arg0) (V c main_v14)) (V c main_arg3) (V c main_v15) (((cfg0.win 4).blk t).view.emb j)
  refine block_eq (tileOf t) (iblk0 V c 0 t) (iblk0 V c 1 t) (V c main_arg3) (V c main_v15) (V c main_arg0) (V c main_v14)
    (tile_0_apply V c t) (tile_1_apply V c t) j (((cfg0.win 4).blk t).view.emb j) ?_ ?_
  · show win0_4.index t (0 : Fin 2) * 5000 + 1 * (j 0).val = 5000 * t.val + (j 0).val; rw [e0]; omega
  · show win0_4.index t (1 : Fin 2) * 128 + 1 * (j 1).val = (j 1).val; rw [e1]; omega

/-! ## From the blocks to the array -/

/-- An index of the output array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v16_0).slice (win0_4.rect t)).set ↔ _
  rw [View.set_slice_whole, Rect.mem_set_unit]
  exact Iff.rfl

/-- Every row of the output array is written back: row `r` by the point `r / 5000`. -/
theorem covered (i : S100000x128.Idx) : ∃ t : Fin cfg0.N, (cfg0.win 4).flush t = true ∧ i ∈ ((cfg0.win 4).blk t).view.set := by
  have hi0 : (i 0).val < 100000 := idx2_lt0 i
  have hi1 : (i 1).val < 128 := idx2_lt1 i
  obtain ⟨t, ht⟩ : ∃ t : Fin cfg0.N, t.val = (i 0).val / 5000 := ⟨⟨(i 0).val / 5000, by rw [show cfg0.N = 20 from N_0]; omega⟩, rfl⟩
  obtain ⟨-, -, -, -, e0, e1⟩ := blockIdx t
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 128 ≤ (i 1).val ∧ (i 1).val < win0_4.index t (1 : Fin 2) * 128 + 128; rw [e1]; omega

/-- The pre-normalisation activations: every tile's block of the output is the same function of the whole arrays. -/
theorem final0_4 (c : Dev nD) : (dat0 V c).arrAt 4 cfg0.N
    = GIN.lin (GIN.add2 (V c main_arg0) (V c main_v14)) (V c main_arg3) (V c main_v15) :=
  (dat0 V c).arrAt_eq_of_cover 4 (GIN.lin (GIN.add2 (V c main_arg0) (V c main_v14)) (V c main_arg3) (V c main_v15))
    (fun t _ => flushed_eq V c t) covered

end Tile0

end Cert.KernelIdeal.Val

end
-- ==== Proof.KReg0b.lean ====
/-
  The per-tile column sums the first pass of a layer leaves, whatever the buffers hold when it is entered: per tile of
  5000 nodes, the column sums of the pre-normalisation activations, and of their squares, in the first of eight rows.
-/
import proofs.«403490_j83820581749192_2_alg».proof.Proof.Gen.KernelIdeal.Frame
import proofs.«403490_j83820581749192_2_alg».proof.Proof.Spec
import proofs.«403490_j83820581749192_2_alg».proof.Proof.KReg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Sums0

/-! ## The body's arithmetic at an entry -/

/-- The pre-normalisation activations at entry `(p, q)` of a tile: the sum of the two input tiles' rows `p` times the
    weight matrix's column `q`, plus the bias row. -/
theorem tileLin_apply (x0 x1 : Vec Ideal S5000x128 .f32) (xW : Vec Ideal S128x128 .f32) (xb : Vec Ideal S1x128 .f32)
    (p : Fin 5000) (q : Fin 128) :
    k0_pay1 x0 x1 xW xb (ix2 p q) = (∑ k : Fin 128, (x0 (ix2 p k) + x1 (ix2 p k)) * xW (ix2 k q)) + xb (ix2 0 q) := by
  unfold k0_pay1
  simp only [shapeCast_self]
  rw [addf_apply, Act1.tileDot_apply, broadcastTo_1b_ab_apply]
  simp only [truncf_apply, addf_apply]

/-- The mask of an 8 × 128 block: one on the first row, zero on the seven others. -/
theorem firstRow_apply (r : Fin 8) (f : Fin 128) : k0_pay2 (ix2 r f) = if r.val = 0 then 1#1 else 0#1 := by
  unfold k0_pay2
  show IntOp.cmpi .eq (iota .tc S8x128 32 [0] Gen.iota_S8x128_d0_w32 (ix2 r f)) 0#32 = _
  rw [iota_single_apply]
  show IntOp.cmpi .eq (BitVec.ofNat 32 r.val) 0#32 = _
  have hall : ∀ r : Fin 8, IntOp.cmpi .eq (BitVec.ofNat 32 r.val) 0#32 = if r.val = 0 then 1#1 else 0#1 := by decide
  exact hall r

/-- A tile's column sum: the sum over the tile's 5000 rows. -/
theorem colSum_apply (src : FVec Ideal S5000x128 .f32) (h : S5000x128.Reduces [0] S128) (hφ : FKind.Formats .f32)
    (hacc : (0x00000000#32 : BitVec 32) = FKind.add.neutral .f32 hφ) (f : Fin 128) :
    multiReduction .add [0] S128 src 0x00000000#32 h hφ hacc (ix1 f) = ∑ p : Fin 5000, src (ix2 p f) := by
  refine (Ideal.multiReduction_add_single src 0x00000000#32 h hφ hacc (ix1 f)).trans ?_
  refine Finset.sum_congr rfl fun p _ => congrArg src (funext fun a => Fin.ext ?_)
  match a with
  | ⟨0, _⟩ => rfl
  | ⟨1, _⟩ => rfl

/-- What the body leaves in a block of partial sums: on the first row the column sums of the tile's activations, zero on
    the seven others. -/
theorem tileSum_apply (x0 x1 : Vec Ideal S5000x128 .f32) (xW : Vec Ideal S128x128 .f32) (xb : Vec Ideal S1x128 .f32)
    (r : Fin 8) (f : Fin 128) :
    k0_pay3 x0 x1 xW xb (ix2 r f) = if r.val = 0 then ∑ p : Fin 5000, k0_pay1 x0 x1 xW xb (ix2 p f) else 0 := by
  unfold k0_pay3
  simp only [shapeCast_self]
  rw [select_apply, broadcast_apply, broadcastTo_1b_ab_apply, shapeCast_a_1a_apply, firstRow_apply]
  by_cases hr : r.val = 0
  · rw [if_pos hr, if_pos hr, select_one]
    exact colSum_apply _ _ _ _ f
  · rw [if_neg hr, if_neg hr, select_zero]
    exact Ideal.ofBits_zero_f32

/-- The same of the squares: on the first row the column sums of the squared activations. -/
theorem tileSqSum_apply (x0 x1 : Vec Ideal S5000x128 .f32) (xW : Vec Ideal S128x128 .f32) (xb : Vec Ideal S1x128 .f32)
    (r : Fin 8) (f : Fin 128) :
    k0_pay4 x0 x1 xW xb (ix2 r f)
      = if r.val = 0 then ∑ p : Fin 5000, k0_pay1 x0 x1 xW xb (ix2 p f) * k0_pay1 x0 x1 xW xb (ix2 p f) else 0 := by
  unfold k0_pay4
  simp only [shapeCast_self]
  rw [select_apply, broadcast_apply, broadcastTo_1b_ab_apply, shapeCast_a_1a_apply, firstRow_apply]
  by_cases hr : r.val = 0
  · rw [if_pos hr, if_pos hr, select_one]
    exact colSum_apply _ _ _ _ f
  · rw [if_neg hr, if_neg hr, select_zero]
    exact Ideal.ofBits_zero_f32

/-! ## A block's entry against the whole arrays -/

/-- If the two tiles hold rows `5000 n … 5000 n + 4999` of the two node-feature arrays, the tile's activations at `(p, f)`
    are the linear map of the arrays' sum at `(5000 n + p, f)`. -/
theorem tileLin_eq (X A : Vec Ideal S100000x128 .f32) (W : Vec Ideal S128x128 .f32) (B : Vec Ideal S1x128 .f32)
    (x0 x1 : Vec Ideal S5000x128 .f32) (n : Nat)
    (h0 : ∀ (p : Fin 5000) (k : Fin 128) (a : Fin 100000), a.val = 5000 * n + p.val → x0 (ix2 p k) = X (ix2 a k))
    (h1 : ∀ (p : Fin 5000) (k : Fin 128) (a : Fin 100000), a.val = 5000 * n + p.val → x1 (ix2 p k) = A (ix2 a k))
    (p : Fin 5000) (f : Fin 128) (a : Fin 100000) (ha : a.val = 5000 * n + p.val) :
    k0_pay1 x0 x1 W B (ix2 p f) = GIN.lin (GIN.add2 X A) W B (ix2 a f) := by
  rw [tileLin_apply]
  unfold GIN.lin GIN.add2
  simp only [h0 p _ a ha, h1 p _ a ha]

/-- Block `n` of the partial sums, rows `8 n … 8 n + 7`: its entry `y` is the partial-sum array's entry in row
    `8 n + y 0`, column `y 1`, when the tile's activations are rows `5000 n …` of `H`. -/
theorem blockSum_eq (H : Vec Ideal S100000x128 .f32) (x0 x1 : Vec Ideal S5000x128 .f32) (xW : Vec Ideal S128x128 .f32)
    (xb : Vec Ideal S1x128 .f32) (n : Nat)
    (hlin : ∀ (p : Fin 5000) (f : Fin 128) (a : Fin 100000), a.val = 5000 * n + p.val → k0_pay1 x0 x1 xW xb (ix2 p f) = H (ix2 a f))
    (y : S8x128.Idx) (i : S160x128.Idx) (hi0 : (i 0).val = 8 * n + (y 0).val) (hi1 : (i 1).val = (y 1).val) :
    k0_pay3 x0 x1 xW xb y = GIN.psum H i := by
  obtain ⟨r, f', rfl⟩ : ∃ (r : Fin 8) (f' : Fin 128), y = ix2 r f' := ⟨y 0, y 1, eq_ix2 y⟩
  obtain ⟨a, f, rfl⟩ : ∃ (a : Fin 160) (f : Fin 128), i = ix2 a f := ⟨i 0, i 1, eq_ix2 i⟩
  obtain rfl : f = f' := Fin.ext hi1
  have ha : a.val = 8 * n + r.val := hi0
  have hr8 : r.val < 8 := r.isLt
  rw [tileSum_apply]
  unfold GIN.psum
  refine if_congr ?_ ?_ rfl
  · show r.val = 0 ↔ a.val % 8 = 0
    omega
  · refine Finset.sum_congr rfl fun q _ => hlin q f _ ?_
    show 5000 * (a.val / 8) + q.val = 5000 * n + q.val
    omega

/-- The same for the sums of squares. -/
theorem blockSqSum_eq (H : Vec Ideal S100000x128 .f32) (x0 x1 : Vec Ideal S5000x128 .f32) (xW : Vec Ideal S128x128 .f32)
    (xb : Vec Ideal S1x128 .f32) (n : Nat)
    (hlin : ∀ (p : Fin 5000) (f : Fin 128) (a : Fin 100000), a.val = 5000 * n + p.val → k0_pay1 x0 x1 xW xb (ix2 p f) = H (ix2 a f))
    (y : S8x128.Idx) (i : S160x128.Idx) (hi0 : (i 0).val = 8 * n + (y 0).val) (hi1 : (i 1).val = (y 1).val) :
    k0_pay4 x0 x1 xW xb y = GIN.psum (GIN.sq H) i := by
  obtain ⟨r, f', rfl⟩ : ∃ (r : Fin 8) (f' : Fin 128), y = ix2 r f' := ⟨y 0, y 1, eq_ix2 y⟩
  obtain ⟨a, f, rfl⟩ : ∃ (a : Fin 160) (f : Fin 128), i = ix2 a f := ⟨i 0, i 1, eq_ix2 i⟩
  obtain rfl : f = f' := Fin.ext hi1
  have ha : a.val = 8 * n + r.val := hi0
  have hr8 : r.val < 8 := r.isLt
  rw [tileSqSum_apply]
  unfold GIN.psum GIN.sq
  refine if_congr ?_ ?_ rfl
  · show r.val = 0 ↔ a.val % 8 = 0
    omega
  · refine Finset.sum_congr rfl fun q _ => ?_
    have e := hlin q f (GIN.nodeAt 8 (by decide) ⟨a.val, a.isLt⟩ q) (by
      show 5000 * (a.val / 8) + q.val = 5000 * n + q.val
      omega)
    rw [e]

/-! ## The windows' blocks as parts of the arrays -/

theorem zeroOff : (![0, 0] : Fin 2 → Nat) = fun _ => 0 := funext fun a => by fin_cases a <;> rfl

/-- The index maps over the twenty points: the two input tiles and the two blocks of partial sums are block `(t, 0)`,
    the weight matrix and the bias row are block `(0, 0)` of arrays they span. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The two input tiles, the weight matrix's block and the bias row's block at point `t`. -/
abbrev xTile (c : Dev nD) (t : Fin cfg0.N) : Vec Ideal S5000x128 .f32 := iblk0 V c 0 t
abbrev aTile (c : Dev nD) (t : Fin cfg0.N) : Vec Ideal S5000x128 .f32 := iblk0 V c 1 t
abbrev wBlk (c : Dev nD) (t : Fin cfg0.N) : Vec Ideal S128x128 .f32 := iblk0 V c 2 t
abbrev bBlk (c : Dev nD) (t : Fin cfg0.N) : Vec Ideal S1x128 .f32 := iblk0 V c 3 t
/-- The arrays as the region finds them. -/
abbrev xArr (c : Dev nD) : Vec Ideal S100000x128 .f32 := V c main_arg0
abbrev aArr (c : Dev nD) : Vec Ideal S100000x128 .f32 := V c main_v14
abbrev wArr (c : Dev nD) : Vec Ideal S128x128 .f32 := V c main_arg3
abbrev bArr (c : Dev nD) : Vec Ideal S1x128 .f32 := V c main_v15

/-- Tile `t` of the first input holds rows `5000 t … 5000 t + 4999` of its array. -/
theorem xTile_apply (c : Dev nD) (t : Fin cfg0.N) (p : Fin 5000) (k : Fin 128) (a : Fin 100000) (ha : a.val = 5000 * t.val + p.val) :
    xTile V c t (ix2 p k) = xArr V c (ix2 a k) := by
  obtain ⟨e0, e1, -⟩ := blockIndex t
  show V c main_arg0 (((cfg0.win 0).blk t).view.emb (ix2 p k)) = V c main_arg0 (ix2 a k)
  refine congrArg (V c main_arg0) (funext fun d => Fin.ext ?_)
  match d with
  | ⟨0, _⟩ => show win0_0.index t (0 : Fin 2) * 5000 + 1 * p.val = a.val; omega
  | ⟨1, _⟩ => show win0_0.index t (1 : Fin 2) * 128 + 1 * k.val = k.val; omega

/-- Tile `t` of the second input holds the same rows of its array. -/
theorem aTile_apply (c : Dev nD) (t : Fin cfg0.N) (p : Fin 5000) (k : Fin 128) (a : Fin 100000) (ha : a.val = 5000 * t.val + p.val) :
    aTile V c t (ix2 p k) = aArr V c (ix2 a k) := by
  obtain ⟨-, -, e0, e1, -⟩ := blockIndex t
  show V c main_v14 (((cfg0.win 1).blk t).view.emb (ix2 p k)) = V c main_v14 (ix2 a k)
  refine congrArg (V c main_v14) (funext fun d => Fin.ext ?_)
  match d with
  | ⟨0, _⟩ => show win0_1.index t (0 : Fin 2) * 5000 + 1 * p.val = a.val; omega
  | ⟨1, _⟩ => show win0_1.index t (1 : Fin 2) * 128 + 1 * k.val = k.val; omega

/-- The weight matrix's block is the whole matrix, at every point. -/
theorem wBlk_eq (c : Dev nD) (t : Fin cfg0.N) : wBlk V c t = wArr V c := by
  obtain ⟨-, -, -, -, e0, e1, -⟩ := blockIndex t
  funext y
  show V c main_arg3 (((cfg0.win 2).blk t).view.emb y) = V c main_arg3 y
  refine congrArg (V c main_arg3) (funext fun d => Fin.ext ?_)
  match d with
  | ⟨0, _⟩ => show win0_2.index t (0 : Fin 2) * 128 + 1 * (y 0).val = (y 0).val; omega
  | ⟨1, _⟩ => show win0_2.index t (1 : Fin 2) * 128 + 1 * (y 1).val = (y 1).val; omega

/-- The bias row's block is the whole row. -/
theorem bBlk_eq (c : Dev nD) (t : Fin cfg0.N) : bBlk V c t = bArr V c := by
  obtain ⟨-, -, -, -, -, -, e0, e1, -⟩ := blockIndex t
  funext y
  show V c main_v15 (((cfg0.win 3).blk t).view.emb y) = V c main_v15 y
  refine congrArg (V c main_v15) (funext fun d => Fin.ext ?_)
  match d with
  | ⟨0, _⟩ => show win0_3.index t (0 : Fin 2) * 1 + 1 * (y 0).val = (y 0).val; omega
  | ⟨1, _⟩ => show win0_3.index t (1 : Fin 2) * 128 + 1 * (y 1).val = (y 1).val; omega

/-- The tile's activations are rows `5000 t …` of the linear map of the two arrays' sum. -/
theorem tileLin_rows (c : Dev nD) (t : Fin cfg0.N) (p : Fin 5000) (f : Fin 128) (a : Fin 100000) (ha : a.val = 5000 * t.val + p.val) :
    k0_pay1 (xTile V c t) (aTile V c t) (wArr V c) (bArr V c) (ix2 p f)
      = GIN.lin (GIN.add2 (xArr V c) (aArr V c)) (wArr V c) (bArr V c) (ix2 a f) :=
  tileLin_eq (xArr V c) (aArr V c) (wArr V c) (bArr V c) (xTile V c t) (aTile V c t) t.val (xTile_apply V c t) (aTile_apply V c t) p f a ha

/-! ## What a point writes back, and the whole arrays -/

/-- Point `t` writes back block `t` of the partial column sums of the whole arrays' activations. -/
theorem flushed_sums (c : Dev nD) (t : Fin cfg0.N) :
    (dat0 V c).flushed 5 t = ((cfg0.win 5).blk t).view.read (Elt Ideal)
      (GIN.psum (GIN.lin (GIN.add2 (V c main_arg0) (V c main_v14)) (V c main_arg3) (V c main_v15))) := by
  show (cfg0.win 5).cut (grid0.coords t) ((dat0 V c).after 5 t) = _
  rw [after0_5]
  unfold out0_5
  rw [View.canon_unit_zero zeroOff]
  simp only [View.ld_unit_zero (S := S5000x128) zeroOff, View.ld_unit_zero (S := S1x128) zeroOff, View.ld_unit_zero (S := S128x128) zeroOff]
  obtain ⟨-, -, -, -, -, -, -, -, e0, e1, -⟩ := blockIndex t
  funext j
  show k0_pay3 (xTile V c t) (aTile V c t) (wBlk V c t) (bBlk V c t) j
    = GIN.psum (GIN.lin (GIN.add2 (xArr V c) (aArr V c)) (wArr V c) (bArr V c)) (((cfg0.win 5).blk t).view.emb j)
  rw [wBlk_eq V c t, bBlk_eq V c t]
  refine blockSum_eq (GIN.lin (GIN.add2 (xArr V c) (aArr V c)) (wArr V c) (bArr V c)) (xTile V c t) (aTile V c t) (wArr V c) (bArr V c)
    t.val (tileLin_rows V c t) j (((cfg0.win 5).blk t).view.emb j) ?_ ?_
  · show win0_5.index t (0 : Fin 2) * 8 + 1 * (j 0).val = 8 * t.val + (j 0).val
    omega
  · show win0_5.index t (1 : Fin 2) * 128 + 1 * (j 1).val = (j 1).val
    omega

/-- Point `t` writes back block `t` of the partial column sums of the squared activations. -/
theorem flushed_sqSums (c : Dev nD) (t : Fin cfg0.N) :
    (dat0 V c).flushed 6 t = ((cfg0.win 6).blk t).view.read (Elt Ideal)
      (GIN.psum (GIN.sq (GIN.lin (GIN.add2 (V c main_arg0) (V c main_v14)) (V c main_arg3) (V c main_v15)))) := by
  show (cfg0.win 6).cut (grid0.coords t) ((dat0 V c).after 6 t) = _
  rw [after0_6]
  unfold out0_6
  rw [View.canon_unit_zero zeroOff]
  simp only [View.ld_unit_zero (S := S5000x128) zeroOff, View.ld_unit_zero (S := S1x128) zeroOff, View.ld_unit_zero (S := S128x128) zeroOff]
  obtain ⟨-, -, -, -, -, -, -, -, -, -, e0, e1⟩ := blockIndex t
  funext j
  show k0_pay4 (xTile V c t) (aTile V c t) (wBlk V c t) (bBlk V c t) j
    = GIN.psum (GIN.sq (GIN.lin (GIN.add2 (xArr V c) (aArr V c)) (wArr V c) (bArr V c))) (((cfg0.win 6).blk t).view.emb j)
  rw [wBlk_eq V c t, bBlk_eq V c t]
  refine blockSqSum_eq (GIN.lin (GIN.add2 (xArr V c) (aArr V c)) (wArr V c) (bArr V c)) (xTile V c t) (aTile V c t) (wArr V c) (bArr V c)
    t.val (tileLin_rows V c t) j (((cfg0.win 6).blk t).view.emb j) ?_ ?_
  · show win0_6.index t (0 : Fin 2) * 8 + 1 * (j 0).val = 8 * t.val + (j 0).val
    omega
  · show win0_6.index t (1 : Fin 2) * 128 + 1 * (j 1).val = (j 1).val
    omega

/-- An entry of the partial-sum array is in point `t`'s block iff each coordinate is in the block's range on its axis. -/
theorem mem_sumBlock (t : Fin cfg0.N) (i : S160x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v16_1).slice (win0_5.rect t)).set ↔ _
  rw [View.set_slice_whole, Rect.mem_set_unit]
  exact Iff.rfl

theorem mem_sqSumBlock (t : Fin cfg0.N) (i : S160x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v16_2).slice (win0_6.rect t)).set ↔ _
  rw [View.set_slice_whole, Rect.mem_set_unit]
  exact Iff.rfl

/-- Row `r` of the partial sums lies in the block of point `r / 8`: the twenty blocks cover the array. -/
theorem sumBlocks_cover (i : S160x128.Idx) :
    ∃ t : Fin cfg0.N, (cfg0.win 5).flush t = true ∧ i ∈ ((cfg0.win 5).blk t).view.set := by
  have hi0 : (i 0).val < 160 := idx2_lt0 i
  have hi1 : (i 1).val < 128 := idx2_lt1 i
  have hN : grid0.N = 20 := N_0
  have ht : (i 0).val / 8 < cfg0.N := by show (i 0).val / 8 < grid0.N; omega
  obtain ⟨-, -, -, -, -, -, -, -, e0, e1, -⟩ := blockIndex ⟨(i 0).val / 8, ht⟩
  refine ⟨⟨(i 0).val / 8, ht⟩, flush0_5 _, ?_⟩
  rw [mem_sumBlock]
  intro a
  match a with
  | ⟨0, _⟩ =>
    show win0_5.index ⟨(i 0).val / 8, ht⟩ (0 : Fin 2) * 8 ≤ (i 0).val ∧ (i 0).val < win0_5.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_5.index ⟨(i 0).val / 8, ht⟩ (1 : Fin 2) * 128 ≤ (i 1).val ∧ (i 1).val < win0_5.index ⟨(i 0).val / 8, ht⟩ (1 : Fin 2) * 128 + 128
    rw [e1]; omega

theorem sqSumBlocks_cover (i : S160x128.Idx) :
    ∃ t : Fin cfg0.N, (cfg0.win 6).flush t = true ∧ i ∈ ((cfg0.win 6).blk t).view.set := by
  have hi0 : (i 0).val < 160 := idx2_lt0 i
  have hi1 : (i 1).val < 128 := idx2_lt1 i
  have hN : grid0.N = 20 := N_0
  have ht : (i 0).val / 8 < cfg0.N := by show (i 0).val / 8 < grid0.N; omega
  obtain ⟨-, -, -, -, -, -, -, -, -, -, e0, e1⟩ := blockIndex ⟨(i 0).val / 8, ht⟩
  refine ⟨⟨(i 0).val / 8, ht⟩, flush0_6 _, ?_⟩
  rw [mem_sqSumBlock]
  intro a
  match a with
  | ⟨0, _⟩ =>
    show win0_6.index ⟨(i 0).val / 8, ht⟩ (0 : Fin 2) * 8 ≤ (i 0).val ∧ (i 0).val < win0_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_6.index ⟨(i 0).val / 8, ht⟩ (1 : Fin 2) * 128 ≤ (i 1).val ∧ (i 1).val < win0_6.index ⟨(i 0).val / 8, ht⟩ (1 : Fin 2) * 128 + 128
    rw [e1]; omega

end Sums0

/-- The partial column sums. -/
theorem final0_5 (c : Dev nD) : (dat0 V c).arrAt 5 cfg0.N
    = GIN.psum (GIN.lin (GIN.add2 (V c main_arg0) (V c main_v14)) (V c main_arg3) (V c main_v15)) :=
  (dat0 V c).arrAt_eq_of_cover 5
    (GIN.psum (GIN.lin (GIN.add2 (V c main_arg0) (V c main_v14)) (V c main_arg3) (V c main_v15)))
    (fun t _ => Sums0.flushed_sums V c t) Sums0.sumBlocks_cover

/-- The partial column sums of the squares. -/
theorem final0_6 (c : Dev nD) : (dat0 V c).arrAt 6 cfg0.N
    = GIN.psum (GIN.sq (GIN.lin (GIN.add2 (V c main_arg0) (V c main_v14)) (V c main_arg3) (V c main_v15))) :=
  (dat0 V c).arrAt_eq_of_cover 6
    (GIN.psum (GIN.sq (GIN.lin (GIN.add2 (V c main_arg0) (V c main_v14)) (V c main_arg3) (V c main_v15))))
    (fun t _ => Sums0.flushed_sqSums V c t) Sums0.sqSumBlocks_cover

end Cert.KernelIdeal.Val

end
-- ==== Proof.KReg0.lean ====
/-
  The first pass of the first layer, collected: the pre-normalisation activations tile by tile, and (from the module on the
  per-tile column sums) the two partial-sum arrays.
-/
import proofs.«403490_j83820581749192_2_alg».proof.Proof.Gen.KernelIdeal.Frame
import proofs.«403490_j83820581749192_2_alg».proof.Proof.KReg0c
import proofs.«403490_j83820581749192_2_alg».proof.Proof.KReg0b
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The pre-normalisation activations. -/
theorem final0_4 (c : Dev nD) : (dat0 V c).arrAt 4 cfg0.N
    = GIN.lin (GIN.add2 (V c main_arg0) (V c main_v14)) (V c main_arg3) (V c main_v15) := Tile0.final0_4 V c

end Cert.KernelIdeal.Val

end
-- ==== Proof.KThreadA.lean ====
/-
  The kernel program's run, first half: what each buffer holds at the boundaries up to the first layer's output — the aggregation and the reshaped bias after the first host stretch, the first pass's three arrays, the mean and variance rows after the second host stretch, and the layer's output after the second pass.
-/
import proofs.«403490_j83820581749192_2_alg».proof.Proof.KNames
import proofs.«403490_j83820581749192_2_alg».proof.Proof.KCarry
import proofs.«403490_j83820581749192_2_alg».proof.Proof.KHost
import proofs.«403490_j83820581749192_2_alg».proof.Proof.KReg0
import proofs.«403490_j83820581749192_2_alg».proof.Proof.KReg1
import Idealize.ShloMosaic.Lib.StableHlo.Run

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

set_option maxHeartbeats 4000000 in
/-- After the first host stretch: the aggregation of the launched node features over the edge list. -/
theorem W1_v14 : W1 m ρ c (Proc.devRef .tc main_v14) = agg1 m c := by
  unfold agg1 agg srcOf dstOf
  dsimp only [W1, hostOps0]
  after_results_simp
  rfl

set_option maxHeartbeats 4000000 in
/-- After the first host stretch: the first bias as a row. -/
theorem W1_v15 : W1 m ρ c (Proc.devRef .tc main_v15) = GIN.row (A4 m c) := by
  dsimp only [W1, hostOps0]
  after_results_simp
  exact row_of_reshape _

set_option maxHeartbeats 4000000 in
/-- After the first host stretch: the source node of every edge. -/
theorem W1_v1 : W1 m ρ c (Proc.devRef .tc main_v1) = srcOf (A1 m c) := by
  unfold srcOf
  dsimp only [W1, hostOps0]
  after_results_simp
  rfl

set_option maxHeartbeats 4000000 in
/-- After the first host stretch: the destination node of every edge. -/
theorem W1_v3 : W1 m ρ c (Proc.devRef .tc main_v3) = dstOf (A1 m c) := by
  unfold dstOf
  dsimp only [W1, hostOps0]
  after_results_simp
  rfl

set_option maxHeartbeats 4000000 in
/-- After the first host stretch: the graph index of every node as a column. -/
theorem W1_v4 : W1 m ρ c (Proc.devRef .tc main_v4) = col (A2 m c) := by
  dsimp only [W1, hostOps0]
  after_results_simp
  exact col_of_reshape _

/-- The first pass reads the launched features and weights, the aggregation and the bias row. -/
theorem pass0_inputs :
    GIN.lin (GIN.add2 (V1 m ρ c main_arg0) (V1 m ρ c main_v14)) (V1 m ρ c main_arg3) (V1 m ρ c main_v15) = hp1 m c := by
  show GIN.lin (GIN.add2 (W1 m ρ c (Proc.devRef .tc main_arg0)) (W1 m ρ c (Proc.devRef .tc main_v14)))
      (W1 m ρ c (Proc.devRef .tc main_arg3)) (W1 m ρ c (Proc.devRef .tc main_v15)) = _
  rw [W1_arg0 m ρ c, W1_v14 m ρ c, W1_arg3 m ρ c, W1_v15 m ρ c]
  rfl

/-- After the first pass: the first layer before normalisation. -/
theorem W2_v16_0 : W2 m ρ c (Proc.devRef .tc main_v16_0) = hp1 m c := by
  refine (W2_arr m ρ c 4).trans ((final0_4 (V1 m ρ) c).trans ?_)
  exact pass0_inputs m ρ c

/-- After the first pass: its partial column sums. -/
theorem W2_v16_1 : W2 m ρ c (Proc.devRef .tc main_v16_1) = GIN.psum (hp1 m c) := by
  refine (W2_arr m ρ c 5).trans ((final0_5 (V1 m ρ) c).trans ?_)
  exact congrArg GIN.psum (pass0_inputs m ρ c)

/-- After the first pass: the partial column sums of its squares. -/
theorem W2_v16_2 : W2 m ρ c (Proc.devRef .tc main_v16_2) = GIN.psum (GIN.sq (hp1 m c)) := by
  refine (W2_arr m ρ c 6).trans ((final0_6 (V1 m ρ) c).trans ?_)
  exact congrArg (fun h => GIN.psum (GIN.sq h)) (pass0_inputs m ρ c)

set_option maxHeartbeats 4000000 in
/-- After the second host stretch: the column means as a row. -/
theorem W3_v27 : W3 m ρ c (Proc.devRef .tc main_v27) = GIN.row (GIN.mean (hp1 m c)) := by
  dsimp only [W3, hostOps1]
  after_results_simp
  rw [W2_v16_1 m ρ c, mean_of_psum]
  exact row_of_reshape _

set_option maxHeartbeats 4000000 in
/-- After the second host stretch: the variance (mean of squares minus squared mean, clamped at zero) as a row. -/
theorem W3_v28 : W3 m ρ c (Proc.devRef .tc main_v28) = GIN.row (GIN.varK (hp1 m c)) := by
  dsimp only [W3, hostOps1]
  after_results_simp
  rw [W2_v16_1 m ρ c, W2_v16_2 m ρ c, mean_of_psum (hp1 m c), var_of_psum (hp1 m c)]
  exact row_of_reshape _

set_option maxHeartbeats 4000000 in
/-- After the second host stretch: the scale as a row. -/
theorem W3_v29 : W3 m ρ c (Proc.devRef .tc main_v29) = GIN.row (A5 m c) := by
  dsimp only [W3, hostOps1]
  after_results_simp
  rw [W2_arg5 m ρ c]
  exact row_of_reshape _

set_option maxHeartbeats 4000000 in
/-- After the second host stretch: the shift as a row. -/
theorem W3_v30 : W3 m ρ c (Proc.devRef .tc main_v30) = GIN.row (A6 m c) := by
  dsimp only [W3, hostOps1]
  after_results_simp
  rw [W2_arg6 m ρ c]
  exact row_of_reshape _

set_option maxHeartbeats 4000000 in
/-- After the second host stretch: the second bias as a row. -/
theorem W3_v31 : W3 m ρ c (Proc.devRef .tc main_v31) = GIN.row (A8 m c) := by
  dsimp only [W3, hostOps1]
  after_results_simp
  rw [W2_arg8 m ρ c]
  exact row_of_reshape _

/-- After the second pass: the first layer's output. -/
theorem W4_v32 : W4 m ρ c (Proc.devRef .tc main_v32) = h1 m c := by
  refine (W4_arr m ρ c 7).trans ((final1_7 (V3 m ρ) c).trans ?_)
  show GIN.act (W3 m ρ c (Proc.devRef .tc main_v16_0)) (W3 m ρ c (Proc.devRef .tc main_v27)) (W3 m ρ c (Proc.devRef .tc main_v28))
      (W3 m ρ c (Proc.devRef .tc main_v29)) (W3 m ρ c (Proc.devRef .tc main_v30)) (W3 m ρ c (Proc.devRef .tc main_arg7))
      (W3 m ρ c (Proc.devRef .tc main_v31)) = _
  rw [W3_v16_0 m ρ c, W2_v16_0 m ρ c, W3_v27 m ρ c, W3_v28 m ρ c, W3_v29 m ρ c, W3_v30 m ρ c, W3_arg7 m ρ c, W3_v31 m ρ c]
  exact (h1_eq m c).symm

end Cert.KernelIdeal.Val

end
-- ==== Proof.KReg2c.lean ====
/-
  What the first pass of a layer leaves in its main output array, whatever the buffers hold when it is entered: the
  linear map of the sum of the node features and their neighbour aggregation, tile by tile of 5000 nodes.
-/
import proofs.«403490_j83820581749192_2_alg».proof.Proof.Gen.KernelIdeal.Frame
import proofs.«403490_j83820581749192_2_alg».proof.Proof.Spec
import proofs.«403490_j83820581749192_2_alg».proof.Proof.KReg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Tile2

/-! ## The body's arithmetic, read at an entry -/

set_option maxHeartbeats 400000 in
/-- The tile's result at (p, f): the sum of the two input tiles, times the weight matrix, plus the bias row. The
    narrowing format changes are the identity on the extended reals and the product's accumulator is zero. -/
theorem linTile_apply (x a : Vec Ideal S5000x128 .f32) (W : Vec Ideal S128x128 .f32) (b : Vec Ideal S1x128 .f32) (p : Fin 5000) (f : Fin 128) :
    k2_pay1 (F := Ideal) x a W b (ix2 p f) = (∑ k : Fin 128, (x (ix2 p k) + a (ix2 p k)) * W (ix2 k f)) + b (ix2 0 f) := by
  unfold k2_pay1
  simp only [shapeCast_self]
  rw [addf_apply, Act1.tileDot_apply, broadcastTo_1b_ab_apply]
  rfl

set_option maxHeartbeats 400000 in
/-- One tile's block. If the two input tiles hold rows 5000 t … 5000 t + 4999 of the features `x` and of the aggregation
    `a`, the body's result at `j` = (p, f) is the linear map of their sum at `i` = (5000 t + p, f). -/
theorem block_eq (t : Fin 20) (x0 x1 : Vec Ideal S5000x128 .f32) (W : Vec Ideal S128x128 .f32) (b : Vec Ideal S1x128 .f32)
    (x a : GIN.TNF.Idx → EReal)
    (h0 : ∀ (q : Fin 5000) (k : Fin 128), x0 (ix2 q k) = x (ix2 (GIN.node t q) k))
    (h1 : ∀ (q : Fin 5000) (k : Fin 128), x1 (ix2 q k) = a (ix2 (GIN.node t q) k))
    (j : S5000x128.Idx) (i : GIN.TNF.Idx) (hi0 : (i 0).val = 5000 * t.val + (j 0).val) (hi1 : (i 1).val = (j 1).val) :
    k2_pay1 (F := Ideal) x0 x1 W b j = GIN.lin (GIN.add2 x a) W b i := by
  obtain ⟨p, f, rfl⟩ : ∃ (p : Fin 5000) (f : Fin 128), j = ix2 p f := ⟨j 0, j 1, eq_ix2 j⟩
  obtain ⟨n, f', rfl⟩ : ∃ (n : Fin 100000) (f' : Fin 128), i = ix2 n f' := ⟨i 0, i 1, eq_ix2 i⟩
  obtain rfl : f' = f := Fin.ext hi1
  obtain rfl : n = GIN.node t p := Fin.ext hi0
  rw [linTile_apply]
  unfold GIN.lin GIN.add2
  simp only [h0, h1]

/-! ## The blocks, read off the arrays -/

/-- The zero offsets, however they are spelt. -/
theorem zeroOff : (![0, 0] : Fin 2 → Nat) = fun _ => 0 := funext fun a => by fin_cases a <;> rfl

/-- The windows' block indices at each of the twenty points: the two input tiles and the output tile are at block (t, 0);
    the weight matrix and the bias row are at block (0, 0). -/
theorem blockIdx : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0) :=
  (by decide +kernel : ∀ t : Fin grid2.N, _)

/-- A point of the grid as a tile number. -/
def tileOf (t : Fin cfg2.N) : Fin 20 := ⟨t.val, t.isLt.trans_eq N_2⟩

set_option maxHeartbeats 400000 in
/-- The feature block at point `t` is rows 5000 t … 5000 t + 4999 of its array. -/
theorem tile_0_apply (c : Dev nD) (t : Fin cfg2.N) (q : Fin 5000) (k : Fin 128) :
    (iblk2 V c 0 t : Vec Ideal S5000x128 .f32) (ix2 q k) = (V c main_v32 : GIN.TNF.Idx → EReal) (ix2 (GIN.node (tileOf t) q) k) := by
  obtain ⟨⟨e0, e1⟩, -⟩ := blockIdx t
  unfold iblk2
  rw [View.read_apply]
  show V c main_v32 _ = V c main_v32 _
  congr 1
  funext a
  apply Fin.ext
  match a with
  | ⟨0, _⟩ => show win2_0.index t (0 : Fin 2) * 5000 + 1 * q.val = 5000 * t.val + q.val; rw [e0]; omega
  | ⟨1, _⟩ => show win2_0.index t (1 : Fin 2) * 128 + 1 * k.val = k.val; rw [e1]; omega

set_option maxHeartbeats 400000 in
/-- The aggregation block at point `t` is rows 5000 t … 5000 t + 4999 of its array. -/
theorem tile_1_apply (c : Dev nD) (t : Fin cfg2.N) (q : Fin 5000) (k : Fin 128) :
    (iblk2 V c 1 t : Vec Ideal S5000x128 .f32) (ix2 q k) = (V c main_v42 : GIN.TNF.Idx → EReal) (ix2 (GIN.node (tileOf t) q) k) := by
  obtain ⟨-, ⟨e0, e1⟩, -⟩ := blockIdx t
  unfold iblk2
  rw [View.read_apply]
  show V c main_v42 _ = V c main_v42 _
  congr 1
  funext a
  apply Fin.ext
  match a with
  | ⟨0, _⟩ => show win2_1.index t (0 : Fin 2) * 5000 + 1 * q.val = 5000 * t.val + q.val; rw [e0]; omega
  | ⟨1, _⟩ => show win2_1.index t (1 : Fin 2) * 128 + 1 * k.val = k.val; rw [e1]; omega

/-! The weight matrix and the bias row are their whole arrays at every point. -/

set_option maxHeartbeats 400000 in
theorem whole_2 (c : Dev nD) (t : Fin cfg2.N) : (iblk2 V c 2 t : Vec Ideal S128x128 .f32) = (V c main_arg9 : GIN.TFF.Idx → EReal) := by
  obtain ⟨-, -, ⟨e0, e1⟩, -⟩ := blockIdx t
  funext y
  unfold iblk2
  rw [View.read_apply]
  show V c main_arg9 _ = V c main_arg9 y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

set_option maxHeartbeats 400000 in
theorem whole_3 (c : Dev nD) (t : Fin cfg2.N) : (iblk2 V c 3 t : Vec Ideal S1x128 .f32) = (V c main_v43 : GIN.TRow.Idx → EReal) := by
  obtain ⟨-, -, -, ⟨e0, e1⟩, -⟩ := blockIdx t
  funext y
  unfold iblk2
  rw [View.read_apply]
  show V c main_v43 _ = V c main_v43 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 128 + 1 * (y 1).val = (y 1).val; rw [e1]; omega

set_option maxHeartbeats 400000 in
/-- What point `t` writes back is block `t` of the linear map of the summed arrays: rows 5000 t … 5000 t + 4999. -/
theorem flushed_eq (c : Dev nD) (t : Fin cfg2.N) :
    (dat2 V c).flushed 4 t = ((cfg2.win 4).blk t).view.read (Elt Ideal) (GIN.lin (GIN.add2 (V c main_v32) (V c main_v42)) (V c main_arg9) (V c main_v43)) := by
  show (cfg2.win 4).cut (grid2.coords t) ((dat2 V c).after 4 t) = _
  rw [after2_4]
  unfold out2_4
  rw [View.canon_unit_zero zeroOff]
  simp only [View.ld_unit_zero (S := S5000x128) zeroOff, View.ld_unit_zero (S := S128x128) zeroOff, View.ld_unit_zero (S := S1x128) zeroOff]
  rw [whole_2, whole_3]
  obtain ⟨-, -, -, -, e0, e1⟩ := blockIdx t
  funext j
  show k2_pay1 (F := Ideal) (iblk2 V c 0 t) (iblk2 V c 1 t) (V c main_arg9) (V c main_v43) j
    = GIN.lin (GIN.add2 (V c main_v32) (V c main_v42)) (V c main_arg9) (V c main_v43) (((cfg2.win 4).blk t).view.emb j)
  refine block_eq (tileOf t) (iblk2 V c 0 t) (iblk2 V c 1 t) (V c main_arg9) (V c main_v43) (V c main_v32) (V c main_v42)
    (tile_0_apply V c t) (tile_1_apply V c t) j (((cfg2.win 4).blk t).view.emb j) ?_ ?_
  · show win2_4.index t (0 : Fin 2) * 5000 + 1 * (j 0).val = 5000 * t.val + (j 0).val; rw [e0]; omega
  · show win2_4.index t (1 : Fin 2) * 128 + 1 * (j 1).val = (j 1).val; rw [e1]; omega

/-! ## From the blocks to the array -/

/-- An index of the output array is in point `t`'s block iff each coordinate is in the block's range on its axis. -/
theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v44_0).slice (win2_4.rect t)).set ↔ _
  rw [View.set_slice_whole, Rect.mem_set_unit]
  exact Iff.rfl

/-- Every row of the output array is written back: row `r` by the point `r / 5000`. -/
theorem covered (i : S100000x128.Idx) : ∃ t : Fin cfg2.N, (cfg2.win 4).flush t = true ∧ i ∈ ((cfg2.win 4).blk t).view.set := by
  have hi0 : (i 0).val < 100000 := idx2_lt0 i
  have hi1 : (i 1).val < 128 := idx2_lt1 i
  obtain ⟨t, ht⟩ : ∃ t : Fin cfg2.N, t.val = (i 0).val / 5000 := ⟨⟨(i 0).val / 5000, by rw [show cfg2.N = 20 from N_2]; omega⟩, rfl⟩
  obtain ⟨-, -, -, -, e0, e1⟩ := blockIdx t
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 128 ≤ (i 1).val ∧ (i 1).val < win2_4.index t (1 : Fin 2) * 128 + 128; rw [e1]; omega

/-- The pre-normalisation activations: every tile's block of the output is the same function of the whole arrays. -/
theorem final2_4 (c : Dev nD) : (dat2 V c).arrAt 4 cfg2.N
    = GIN.lin (GIN.add2 (V c main_v32) (V c main_v42)) (V c main_arg9) (V c main_v43) :=
  (dat2 V c).arrAt_eq_of_cover 4 (GIN.lin (GIN.add2 (V c main_v32) (V c main_v42)) (V c main_arg9) (V c main_v43))
    (fun t _ => flushed_eq V c t) covered

end Tile2

end Cert.KernelIdeal.Val

end
-- ==== Proof.KReg2b.lean ====
/-
  The per-tile column sums the first pass of a layer leaves, whatever the buffers hold when it is entered: per tile of
  5000 nodes, the column sums of the pre-normalisation activations, and of their squares, in the first of eight rows.
-/
import proofs.«403490_j83820581749192_2_alg».proof.Proof.Gen.KernelIdeal.Frame
import proofs.«403490_j83820581749192_2_alg».proof.Proof.Spec
import proofs.«403490_j83820581749192_2_alg».proof.Proof.KReg1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Sums2

/-! ## The body's arithmetic at an entry -/

/-- The pre-normalisation activations at entry `(p, q)` of a tile: the sum of the two input tiles' rows `p` times the
    weight matrix's column `q`, plus the bias row. -/
theorem tileLin_apply (x0 x1 : Vec Ideal S5000x128 .f32) (xW : Vec Ideal S128x128 .f32) (xb : Vec Ideal S1x128 .f32)
    (p : Fin 5000) (q : Fin 128) :
    k2_pay1 x0 x1 xW xb (ix2 p q) = (∑ k : Fin 128, (x0 (ix2 p k) + x1 (ix2 p k)) * xW (ix2 k q)) + xb (ix2 0 q) := by
  unfold k2_pay1
  simp only [shapeCast_self]
  rw [addf_apply, Act1.tileDot_apply, broadcastTo_1b_ab_apply]
  simp only [truncf_apply, addf_apply]

/-- The mask of an 8 × 128 block: one on the first row, zero on the seven others. -/
theorem firstRow_apply (r : Fin 8) (f : Fin 128) : k2_pay2 (ix2 r f) = if r.val = 0 then 1#1 else 0#1 := by
  unfold k2_pay2
  show IntOp.cmpi .eq (iota .tc S8x128 32 [0] Gen.iota_S8x128_d0_w32 (ix2 r f)) 0#32 = _
  rw [iota_single_apply]
  show IntOp.cmpi .eq (BitVec.ofNat 32 r.val) 0#32 = _
  have hall : ∀ r : Fin 8, IntOp.cmpi .eq (BitVec.ofNat 32 r.val) 0#32 = if r.val = 0 then 1#1 else 0#1 := by decide
  exact hall r

/-- A tile's column sum: the sum over the tile's 5000 rows. -/
theorem colSum_apply (src : FVec Ideal S5000x128 .f32) (h : S5000x128.Reduces [0] S128) (hφ : FKind.Formats .f32)
    (hacc : (0x00000000#32 : BitVec 32) = FKind.add.neutral .f32 hφ) (f : Fin 128) :
    multiReduction .add [0] S128 src 0x00000000#32 h hφ hacc (ix1 f) = ∑ p : Fin 5000, src (ix2 p f) := by
  refine (Ideal.multiReduction_add_single src 0x00000000#32 h hφ hacc (ix1 f)).trans ?_
  refine Finset.sum_congr rfl fun p _ => congrArg src (funext fun a => Fin.ext ?_)
  match a with
  | ⟨0, _⟩ => rfl
  | ⟨1, _⟩ => rfl

/-- What the body leaves in a block of partial sums: on the first row the column sums of the tile's activations, zero on
    the seven others. -/
theorem tileSum_apply (x0 x1 : Vec Ideal S5000x128 .f32) (xW : Vec Ideal S128x128 .f32) (xb : Vec Ideal S1x128 .f32)
    (r : Fin 8) (f : Fin 128) :
    k2_pay3 x0 x1 xW xb (ix2 r f) = if r.val = 0 then ∑ p : Fin 5000, k2_pay1 x0 x1 xW xb (ix2 p f) else 0 := by
  unfold k2_pay3
  simp only [shapeCast_self]
  rw [select_apply, broadcast_apply, broadcastTo_1b_ab_apply, shapeCast_a_1a_apply, firstRow_apply]
  by_cases hr : r.val = 0
  · rw [if_pos hr, if_pos hr, select_one]
    exact colSum_apply _ _ _ _ f
  · rw [if_neg hr, if_neg hr, select_zero]
    exact Ideal.ofBits_zero_f32

/-- The same of the squares: on the first row the column sums of the squared activations. -/
theorem tileSqSum_apply (x0 x1 : Vec Ideal S5000x128 .f32) (xW : Vec Ideal S128x128 .f32) (xb : Vec Ideal S1x128 .f32)
    (r : Fin 8) (f : Fin 128) :
    k2_pay4 x0 x1 xW xb (ix2 r f)
      = if r.val = 0 then ∑ p : Fin 5000, k2_pay1 x0 x1 xW xb (ix2 p f) * k2_pay1 x0 x1 xW xb (ix2 p f) else 0 := by
  unfold k2_pay4
  simp only [shapeCast_self]
  rw [select_apply, broadcast_apply, broadcastTo_1b_ab_apply, shapeCast_a_1a_apply, firstRow_apply]
  by_cases hr : r.val = 0
  · rw [if_pos hr, if_pos hr, select_one]
    exact colSum_apply _ _ _ _ f
  · rw [if_neg hr, if_neg hr, select_zero]
    exact Ideal.ofBits_zero_f32

/-! ## A block's entry against the whole arrays -/

/-- If the two tiles hold rows `5000 n … 5000 n + 4999` of the two node-feature arrays, the tile's activations at `(p, f)`
    are the linear map of the arrays' sum at `(5000 n + p, f)`. -/
theorem tileLin_eq (X A : Vec Ideal S100000x128 .f32) (W : Vec Ideal S128x128 .f32) (B : Vec Ideal S1x128 .f32)
    (x0 x1 : Vec Ideal S5000x128 .f32) (n : Nat)
    (h0 : ∀ (p : Fin 5000) (k : Fin 128) (a : Fin 100000), a.val = 5000 * n + p.val → x0 (ix2 p k) = X (ix2 a k))
    (h1 : ∀ (p : Fin 5000) (k : Fin 128) (a : Fin 100000), a.val = 5000 * n + p.val → x1 (ix2 p k) = A (ix2 a k))
    (p : Fin 5000) (f : Fin 128) (a : Fin 100000) (ha : a.val = 5000 * n + p.val) :
    k2_pay1 x0 x1 W B (ix2 p f) = GIN.lin (GIN.add2 X A) W B (ix2 a f) := by
  rw [tileLin_apply]
  unfold GIN.lin GIN.add2
  simp only [h0 p _ a ha, h1 p _ a ha]

/-- Block `n` of the partial sums, rows `8 n … 8 n + 7`: its entry `y` is the partial-sum array's entry in row
    `8 n + y 0`, column `y 1`, when the tile's activations are rows `5000 n …` of `H`. -/
theorem blockSum_eq (H : Vec Ideal S100000x128 .f32) (x0 x1 : Vec Ideal S5000x128 .f32) (xW : Vec Ideal S128x128 .f32)
    (xb : Vec Ideal S1x128 .f32) (n : Nat)
    (hlin : ∀ (p : Fin 5000) (f : Fin 128) (a : Fin 100000), a.val = 5000 * n + p.val → k2_pay1 x0 x1 xW xb (ix2 p f) = H (ix2 a f))
    (y : S8x128.Idx) (i : S160x128.Idx) (hi0 : (i 0).val = 8 * n + (y 0).val) (hi1 : (i 1).val = (y 1).val) :
    k2_pay3 x0 x1 xW xb y = GIN.psum H i := by
  obtain ⟨r, f', rfl⟩ : ∃ (r : Fin 8) (f' : Fin 128), y = ix2 r f' := ⟨y 0, y 1, eq_ix2 y⟩
  obtain ⟨a, f, rfl⟩ : ∃ (a : Fin 160) (f : Fin 128), i = ix2 a f := ⟨i 0, i 1, eq_ix2 i⟩
  obtain rfl : f = f' := Fin.ext hi1
  have ha : a.val = 8 * n + r.val := hi0
  have hr8 : r.val < 8 := r.isLt
  rw [tileSum_apply]
  unfold GIN.psum
  refine if_congr ?_ ?_ rfl
  · show r.val = 0 ↔ a.val % 8 = 0
    omega
  · refine Finset.sum_congr rfl fun q _ => hlin q f _ ?_
    show 5000 * (a.val / 8) + q.val = 5000 * n + q.val
    omega

/-- The same for the sums of squares. -/
theorem blockSqSum_eq (H : Vec Ideal S100000x128 .f32) (x0 x1 : Vec Ideal S5000x128 .f32) (xW : Vec Ideal S128x128 .f32)
    (xb : Vec Ideal S1x128 .f32) (n : Nat)
    (hlin : ∀ (p : Fin 5000) (f : Fin 128) (a : Fin 100000), a.val = 5000 * n + p.val → k2_pay1 x0 x1 xW xb (ix2 p f) = H (ix2 a f))
    (y : S8x128.Idx) (i : S160x128.Idx) (hi0 : (i 0).val = 8 * n + (y 0).val) (hi1 : (i 1).val = (y 1).val) :
    k2_pay4 x0 x1 xW xb y = GIN.psum (GIN.sq H) i := by
  obtain ⟨r, f', rfl⟩ : ∃ (r : Fin 8) (f' : Fin 128), y = ix2 r f' := ⟨y 0, y 1, eq_ix2 y⟩
  obtain ⟨a, f, rfl⟩ : ∃ (a : Fin 160) (f : Fin 128), i = ix2 a f := ⟨i 0, i 1, eq_ix2 i⟩
  obtain rfl : f = f' := Fin.ext hi1
  have ha : a.val = 8 * n + r.val := hi0
  have hr8 : r.val < 8 := r.isLt
  rw [tileSqSum_apply]
  unfold GIN.psum GIN.sq
  refine if_congr ?_ ?_ rfl
  · show r.val = 0 ↔ a.val % 8 = 0
    omega
  · refine Finset.sum_congr rfl fun q _ => ?_
    have e := hlin q f (GIN.nodeAt 8 (by decide) ⟨a.val, a.isLt⟩ q) (by
      show 5000 * (a.val / 8) + q.val = 5000 * n + q.val
      omega)
    rw [e]

/-! ## The windows' blocks as parts of the arrays -/

theorem zeroOff : (![0, 0] : Fin 2 → Nat) = fun _ => 0 := funext fun a => by fin_cases a <;> rfl

/-- The index maps over the twenty points: the two input tiles and the two blocks of partial sums are block `(t, 0)`,
    the weight matrix and the bias row are block `(0, 0)` of arrays they span. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The two input tiles, the weight matrix's block and the bias row's block at point `t`. -/
abbrev xTile (c : Dev nD) (t : Fin cfg2.N) : Vec Ideal S5000x128 .f32 := iblk2 V c 0 t
abbrev aTile (c : Dev nD) (t : Fin cfg2.N) : Vec Ideal S5000x128 .f32 := iblk2 V c 1 t
abbrev wBlk (c : Dev nD) (t : Fin cfg2.N) : Vec Ideal S128x128 .f32 := iblk2 V c 2 t
abbrev bBlk (c : Dev nD) (t : Fin cfg2.N) : Vec Ideal S1x128 .f32 := iblk2 V c 3 t
/-- The arrays as the region finds them. -/
abbrev xArr (c : Dev nD) : Vec Ideal S100000x128 .f32 := V c main_v32
abbrev aArr (c : Dev nD) : Vec Ideal S100000x128 .f32 := V c main_v42
abbrev wArr (c : Dev nD) : Vec Ideal S128x128 .f32 := V c main_arg9
abbrev bArr (c : Dev nD) : Vec Ideal S1x128 .f32 := V c main_v43

/-- Tile `t` of the first input holds rows `5000 t … 5000 t + 4999` of its array. -/
theorem xTile_apply (c : Dev nD) (t : Fin cfg2.N) (p : Fin 5000) (k : Fin 128) (a : Fin 100000) (ha : a.val = 5000 * t.val + p.val) :
    xTile V c t (ix2 p k) = xArr V c (ix2 a k) := by
  obtain ⟨e0, e1, -⟩ := blockIndex t
  show V c main_v32 (((cfg2.win 0).blk t).view.emb (ix2 p k)) = V c main_v32 (ix2 a k)
  refine congrArg (V c main_v32) (funext fun d => Fin.ext ?_)
  match d with
  | ⟨0, _⟩ => show win2_0.index t (0 : Fin 2) * 5000 + 1 * p.val = a.val; omega
  | ⟨1, _⟩ => show win2_0.index t (1 : Fin 2) * 128 + 1 * k.val = k.val; omega

/-- Tile `t` of the second input holds the same rows of its array. -/
theorem aTile_apply (c : Dev nD) (t : Fin cfg2.N) (p : Fin 5000) (k : Fin 128) (a : Fin 100000) (ha : a.val = 5000 * t.val + p.val) :
    aTile V c t (ix2 p k) = aArr V c (ix2 a k) := by
  obtain ⟨-, -, e0, e1, -⟩ := blockIndex t
  show V c main_v42 (((cfg2.win 1).blk t).view.emb (ix2 p k)) = V c main_v42 (ix2 a k)
  refine congrArg (V c main_v42) (funext fun d => Fin.ext ?_)
  match d with
  | ⟨0, _⟩ => show win2_1.index t (0 : Fin 2) * 5000 + 1 * p.val = a.val; omega
  | ⟨1, _⟩ => show win2_1.index t (1 : Fin 2) * 128 + 1 * k.val = k.val; omega

/-- The weight matrix's block is the whole matrix, at every point. -/
theorem wBlk_eq (c : Dev nD) (t : Fin cfg2.N) : wBlk V c t = wArr V c := by
  obtain ⟨-, -, -, -, e0, e1, -⟩ := blockIndex t
  funext y
  show V c main_arg9 (((cfg2.win 2).blk t).view.emb y) = V c main_arg9 y
  refine congrArg (V c main_arg9) (funext fun d => Fin.ext ?_)
  match d with
  | ⟨0, _⟩ => show win2_2.index t (0 : Fin 2) * 128 + 1 * (y 0).val = (y 0).val; omega
  | ⟨1, _⟩ => show win2_2.index t (1 : Fin 2) * 128 + 1 * (y 1).val = (y 1).val; omega

/-- The bias row's block is the whole row. -/
theorem bBlk_eq (c : Dev nD) (t : Fin cfg2.N) : bBlk V c t = bArr V c := by
  obtain ⟨-, -, -, -, -, -, e0, e1, -⟩ := blockIndex t
  funext y
  show V c main_v43 (((cfg2.win 3).blk t).view.emb y) = V c main_v43 y
  refine congrArg (V c main_v43) (funext fun d => Fin.ext ?_)
  match d with
  | ⟨0, _⟩ => show win2_3.index t (0 : Fin 2) * 1 + 1 * (y 0).val = (y 0).val; omega
  | ⟨1, _⟩ => show win2_3.index t (1 : Fin 2) * 128 + 1 * (y 1).val = (y 1).val; omega

/-- The tile's activations are rows `5000 t …` of the linear map of the two arrays' sum. -/
theorem tileLin_rows (c : Dev nD) (t : Fin cfg2.N) (p : Fin 5000) (f : Fin 128) (a : Fin 100000) (ha : a.val = 5000 * t.val + p.val) :
    k2_pay1 (xTile V c t) (aTile V c t) (wArr V c) (bArr V c) (ix2 p f)
      = GIN.lin (GIN.add2 (xArr V c) (aArr V c)) (wArr V c) (bArr V c) (ix2 a f) :=
  tileLin_eq (xArr V c) (aArr V c) (wArr V c) (bArr V c) (xTile V c t) (aTile V c t) t.val (xTile_apply V c t) (aTile_apply V c t) p f a ha

/-! ## What a point writes back, and the whole arrays -/

/-- Point `t` writes back block `t` of the partial column sums of the whole arrays' activations. -/
theorem flushed_sums (c : Dev nD) (t : Fin cfg2.N) :
    (dat2 V c).flushed 5 t = ((cfg2.win 5).blk t).view.read (Elt Ideal)
      (GIN.psum (GIN.lin (GIN.add2 (V c main_v32) (V c main_v42)) (V c main_arg9) (V c main_v43))) := by
  show (cfg2.win 5).cut (grid2.coords t) ((dat2 V c).after 5 t) = _
  rw [after2_5]
  unfold out2_5
  rw [View.canon_unit_zero zeroOff]
  simp only [View.ld_unit_zero (S := S5000x128) zeroOff, View.ld_unit_zero (S := S1x128) zeroOff, View.ld_unit_zero (S := S128x128) zeroOff]
  obtain ⟨-, -, -, -, -, -, -, -, e0, e1, -⟩ := blockIndex t
  funext j
  show k2_pay3 (xTile V c t) (aTile V c t) (wBlk V c t) (bBlk V c t) j
    = GIN.psum (GIN.lin (GIN.add2 (xArr V c) (aArr V c)) (wArr V c) (bArr V c)) (((cfg2.win 5).blk t).view.emb j)
  rw [wBlk_eq V c t, bBlk_eq V c t]
  refine blockSum_eq (GIN.lin (GIN.add2 (xArr V c) (aArr V c)) (wArr V c) (bArr V c)) (xTile V c t) (aTile V c t) (wArr V c) (bArr V c)
    t.val (tileLin_rows V c t) j (((cfg2.win 5).blk t).view.emb j) ?_ ?_
  · show win2_5.index t (0 : Fin 2) * 8 + 1 * (j 0).val = 8 * t.val + (j 0).val
    omega
  · show win2_5.index t (1 : Fin 2) * 128 + 1 * (j 1).val = (j 1).val
    omega

/-- Point `t` writes back block `t` of the partial column sums of the squared activations. -/
theorem flushed_sqSums (c : Dev nD) (t : Fin cfg2.N) :
    (dat2 V c).flushed 6 t = ((cfg2.win 6).blk t).view.read (Elt Ideal)
      (GIN.psum (GIN.sq (GIN.lin (GIN.add2 (V c main_v32) (V c main_v42)) (V c main_arg9) (V c main_v43)))) := by
  show (cfg2.win 6).cut (grid2.coords t) ((dat2 V c).after 6 t) = _
  rw [after2_6]
  unfold out2_6
  rw [View.canon_unit_zero zeroOff]
  simp only [View.ld_unit_zero (S := S5000x128) zeroOff, View.ld_unit_zero (S := S1x128) zeroOff, View.ld_unit_zero (S := S128x128) zeroOff]
  obtain ⟨-, -, -, -, -, -, -, -, -, -, e0, e1⟩ := blockIndex t
  funext j
  show k2_pay4 (xTile V c t) (aTile V c t) (wBlk V c t) (bBlk V c t) j
    = GIN.psum (GIN.sq (GIN.lin (GIN.add2 (xArr V c) (aArr V c)) (wArr V c) (bArr V c))) (((cfg2.win 6).blk t).view.emb j)
  rw [wBlk_eq V c t, bBlk_eq V c t]
  refine blockSqSum_eq (GIN.lin (GIN.add2 (xArr V c) (aArr V c)) (wArr V c) (bArr V c)) (xTile V c t) (aTile V c t) (wArr V c) (bArr V c)
    t.val (tileLin_rows V c t) j (((cfg2.win 6).blk t).view.emb j) ?_ ?_
  · show win2_6.index t (0 : Fin 2) * 8 + 1 * (j 0).val = 8 * t.val + (j 0).val
    omega
  · show win2_6.index t (1 : Fin 2) * 128 + 1 * (j 1).val = (j 1).val
    omega

/-- An entry of the partial-sum array is in point `t`'s block iff each coordinate is in the block's range on its axis. -/
theorem mem_sumBlock (t : Fin cfg2.N) (i : S160x128.Idx) :
    i ∈ ((cfg2.win 5).blk t).view.set ↔ ∀ a : Fin 2, win2_5.index t a * S8x128.size a ≤ (i a).val ∧ (i a).val < win2_5.index t a * S8x128.size a + S8x128.size a := by
  show i ∈ ((View.whole main_v44_1).slice (win2_5.rect t)).set ↔ _
  rw [View.set_slice_whole, Rect.mem_set_unit]
  exact Iff.rfl

theorem mem_sqSumBlock (t : Fin cfg2.N) (i : S160x128.Idx) :
    i ∈ ((cfg2.win 6).blk t).view.set ↔ ∀ a : Fin 2, win2_6.index t a * S8x128.size a ≤ (i a).val ∧ (i a).val < win2_6.index t a * S8x128.size a + S8x128.size a := by
  show i ∈ ((View.whole main_v44_2).slice (win2_6.rect t)).set ↔ _
  rw [View.set_slice_whole, Rect.mem_set_unit]
  exact Iff.rfl

/-- Row `r` of the partial sums lies in the block of point `r / 8`: the twenty blocks cover the array. -/
theorem sumBlocks_cover (i : S160x128.Idx) :
    ∃ t : Fin cfg2.N, (cfg2.win 5).flush t = true ∧ i ∈ ((cfg2.win 5).blk t).view.set := by
  have hi0 : (i 0).val < 160 := idx2_lt0 i
  have hi1 : (i 1).val < 128 := idx2_lt1 i
  have hN : grid2.N = 20 := N_2
  have ht : (i 0).val / 8 < cfg2.N := by show (i 0).val / 8 < grid2.N; omega
  obtain ⟨-, -, -, -, -, -, -, -, e0, e1, -⟩ := blockIndex ⟨(i 0).val / 8, ht⟩
  refine ⟨⟨(i 0).val / 8, ht⟩, flush2_5 _, ?_⟩
  rw [mem_sumBlock]
  intro a
  match a with
  | ⟨0, _⟩ =>
    show win2_5.index ⟨(i 0).val / 8, ht⟩ (0 : Fin 2) * 8 ≤ (i 0).val ∧ (i 0).val < win2_5.index ⟨(i 0).val / 8, ht⟩ (0 : Fin 2) * 8 + 8
    rw [e0]; show (i 0).val / 8 * 8 ≤ (i 0).val ∧ (i 0).val < (i 0).val / 8 * 8 + 8; omega
  | ⟨1, _⟩ =>
    show win2_5.index ⟨(i 0).val / 8, ht⟩ (1 : Fin 2) * 128 ≤ (i 1).val ∧ (i 1).val < win2_5.index ⟨(i 0).val / 8, ht⟩ (1 : Fin 2) * 128 + 128
    rw [e1]; omega

theorem sqSumBlocks_cover (i : S160x128.Idx) :
    ∃ t : Fin cfg2.N, (cfg2.win 6).flush t = true ∧ i ∈ ((cfg2.win 6).blk t).view.set := by
  have hi0 : (i 0).val < 160 := idx2_lt0 i
  have hi1 : (i 1).val < 128 := idx2_lt1 i
  have hN : grid2.N = 20 := N_2
  have ht : (i 0).val / 8 < cfg2.N := by show (i 0).val / 8 < grid2.N; omega
  obtain ⟨-, -, -, -, -, -, -, -, -, -, e0, e1⟩ := blockIndex ⟨(i 0).val / 8, ht⟩
  refine ⟨⟨(i 0).val / 8, ht⟩, flush2_6 _, ?_⟩
  rw [mem_sqSumBlock]
  intro a
  match a with
  | ⟨0, _⟩ =>
    show win2_6.index ⟨(i 0).val / 8, ht⟩ (0 : Fin 2) * 8 ≤ (i 0).val ∧ (i 0).val < win2_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win2_6.index ⟨(i 0).val / 8, ht⟩ (1 : Fin 2) * 128 ≤ (i 1).val ∧ (i 1).val < win2_6.index ⟨(i 0).val / 8, ht⟩ (1 : Fin 2) * 128 + 128
    rw [e1]; omega

end Sums2

/-- The partial column sums. -/
theorem final2_5 (c : Dev nD) : (dat2 V c).arrAt 5 cfg2.N
    = GIN.psum (GIN.lin (GIN.add2 (V c main_v32) (V c main_v42)) (V c main_arg9) (V c main_v43)) :=
  (dat2 V c).arrAt_eq_of_cover 5
    (GIN.psum (GIN.lin (GIN.add2 (V c main_v32) (V c main_v42)) (V c main_arg9) (V c main_v43)))
    (fun t _ => Sums2.flushed_sums V c t) Sums2.sumBlocks_cover

/-- The partial column sums of the squares. -/
theorem final2_6 (c : Dev nD) : (dat2 V c).arrAt 6 cfg2.N
    = GIN.psum (GIN.sq (GIN.lin (GIN.add2 (V c main_v32) (V c main_v42)) (V c main_arg9) (V c main_v43))) :=
  (dat2 V c).arrAt_eq_of_cover 6
    (GIN.psum (GIN.sq (GIN.lin (GIN.add2 (V c main_v32) (V c main_v42)) (V c main_arg9) (V c main_v43))))
    (fun t _ => Sums2.flushed_sqSums V c t) Sums2.sqSumBlocks_cover

end Cert.KernelIdeal.Val

end
-- ==== Proof.KReg2.lean ====
/-
  The first pass of the second layer, collected: the pre-normalisation activations tile by tile, and (from the module on the
  per-tile column sums) the two partial-sum arrays.
-/
import proofs.«403490_j83820581749192_2_alg».proof.Proof.Gen.KernelIdeal.Frame
import proofs.«403490_j83820581749192_2_alg».proof.Proof.KReg2c
import proofs.«403490_j83820581749192_2_alg».proof.Proof.KReg2b
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The pre-normalisation activations. -/
theorem final2_4 (c : Dev nD) : (dat2 V c).arrAt 4 cfg2.N
    = GIN.lin (GIN.add2 (V c main_v32) (V c main_v42)) (V c main_arg9) (V c main_v43) := Tile2.final2_4 V c

end Cert.KernelIdeal.Val

end
-- ==== Proof.KReg3.lean ====
/-
  What the second pass of the second layer, fused with the per-graph pooling, leaves in its output array, whatever the
  buffers hold when it is entered: per tile of 5000 nodes, the 512 × 128 block of per-graph sums of the layer's output over
  that tile's nodes, written as the product of the transposed zero-one membership matrix with the tile's output.
-/
import proofs.«403490_j83820581749192_2_alg».proof.Proof.Gen.KernelIdeal.Frame
import proofs.«403490_j83820581749192_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The two block products' operand indices, axis by axis -/

/-- The layer's linear map contracts the left operand's columns with the right operand's rows: the left operand is read at
    the output's row … -/
private theorem lin3_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction position, -/
private theorem lin3_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction position … -/
private theorem lin3_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
private theorem lin3_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The pooling product contracts the rows of both operands (the tile's nodes): the membership matrix is read at the
    contraction position (a node) … -/
private theorem pool3_lhs_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
/-- … and the output's row (a graph), -/
private theorem pool3_lhs_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
/-- the node features at the contraction position (the node) … -/
private theorem pool3_rhs_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
/-- … and the output's column (a feature). -/
private theorem pool3_rhs_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-! ## The body's arithmetic, read at an index -/

set_option maxHeartbeats 400000 in
/-- The tile's layer output at (p, f): normalise by mean and variance, scale, shift, rectify, the linear map, the bias,
    rectify. The narrowing format changes are the identity on the extended reals and the product's accumulator is zero. -/
theorem k3_pay2_apply (x0 : Vec Ideal S5000x128 .f32) (var mu g bt : Vec Ideal S1x128 .f32) (W : Vec Ideal S128x128 .f32) (b : Vec Ideal S1x128 .f32) (p : Fin 5000) (f : Fin 128) :
    k3_pay2 (F := Ideal) x0 var mu g bt W b (ix2 p f) =
      max ((∑ k : Fin 128, max ((x0 (ix2 p k) - mu (ix2 0 k)) * Ideal.rsqrt (var (ix2 0 k) + GIN.cEps) * g (ix2 0 k) + bt (ix2 0 k)) 0 * W (ix2 k f)) + b (ix2 0 f)) 0 := by
  unfold k3_pay2
  simp only [shapeCast_self]
  rw [maximumf_apply, addf_apply, broadcast_apply, broadcastTo_1b_ab_apply]
  simp only [matmul]
  rw [Ideal.matmul_constant_zero_apply, ← Equiv.sum_comp (contrEquiv1 dot_S5000x128_S128x128_S5000x128_1_0_0_1_n_n 128 rfl rfl).symm]
  refine congrArg₂ max (congrArg₂ (· + ·) (Finset.sum_congr rfl fun k _ => ?_) rfl) Ideal.ofBits_zero_f32
  have hk := contrEquiv1_symm_val dot_S5000x128_S128x128_S5000x128_1_0_0_1_n_n 128 rfl rfl k
  have el : dot_S5000x128_S128x128_S5000x128_1_0_0_1_n_n.lhsIdx (ix2 p f) ((contrEquiv1 dot_S5000x128_S128x128_S5000x128_1_0_0_1_n_n 128 rfl rfl).symm k) = ix2 p k := funext fun a => Fin.ext (by
    match a with
    | ⟨0, _⟩ => exact lin3_lhs_0 _ _
    | ⟨1, _⟩ => exact (lin3_lhs_1 _ _).trans hk)
  have er : dot_S5000x128_S128x128_S5000x128_1_0_0_1_n_n.rhsIdx (ix2 p f) ((contrEquiv1 dot_S5000x128_S128x128_S5000x128_1_0_0_1_n_n 128 rfl rfl).symm k) = ix2 k f := funext fun a => Fin.ext (by
    match a with
    | ⟨0, _⟩ => exact (lin3_rhs_0 _ _).trans hk
    | ⟨1, _⟩ => exact lin3_rhs_1 _ _)
  rw [el, er, truncf_apply, truncf_apply, maximumf_apply, addf_apply, mulf_apply, mulf_apply, subf_apply, broadcast_apply,
    broadcastTo_1b_ab_apply, broadcastTo_1b_ab_apply, broadcastTo_1b_ab_apply, broadcastTo_1b_ab_apply]
  exact congrArg₂ (· * ·) (congrArg₂ max rfl Ideal.ofBits_zero_f32) rfl

/-- A one-column array broadcast along its rows: a `[a, 1]` array broadcast to `[a, b]` reads, at `(p, c)`, the operand's row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

set_option maxHeartbeats 400000 in
/-- The membership words: entry (q, g) is the one-bit answer to "node q's graph index is g", widened to 32 bits. -/
theorem k3_pay3_apply (b : Vec Ideal S5000x1 .i32) (q : Fin 5000) (g : Fin 512) :
    k3_pay3 (F := Ideal) b (ix2 q g) = (IntOp.cmpi .eq (b (ix2 q 0)) (BitVec.ofNat 32 g.val)).setWidth 32 := by
  unfold k3_pay3
  simp only [shapeCast_self]
  rw [extui_apply]
  show (IntOp.cmpi .eq (broadcastTo S5000x512 b Gen.broadcasts_S5000x1_S5000x512 (ix2 q g)) (iota .tc S5000x512 32 [1] Gen.iota_S5000x512_d1_w32 (ix2 q g))).setWidth 32 = _
  rw [broadcastTo_a1_ab_apply, iota_single_apply]

set_option maxHeartbeats 400000 in
/-- The pooling product at (g, f): the sum over the tile's nodes of the membership word, read as a signed integer, times
    the node's feature. -/
theorem k3_pay1_apply (y : FVec Ideal S5000x128 .f32) (m : IVec S5000x512 32) (g : Fin 512) (f : Fin 128) :
    k3_pay1 (F := Ideal) y m (ix2 g f) = ∑ q : Fin 5000, (((m (ix2 q g)).toInt : ℝ) : EReal) * y (ix2 q f) := by
  unfold k3_pay1
  simp only [matmul]
  rw [Ideal.matmul_constant_zero_apply, ← Equiv.sum_comp (contrEquiv1 dot_S5000x512_S5000x128_S512x128_0_0_1_1_n_n 5000 rfl rfl).symm]
  refine Finset.sum_congr rfl fun q _ => ?_
  have hq := contrEquiv1_symm_val dot_S5000x512_S5000x128_S512x128_0_0_1_1_n_n 5000 rfl rfl q
  have el : dot_S5000x512_S5000x128_S512x128_0_0_1_1_n_n.lhsIdx (ix2 g f) ((contrEquiv1 dot_S5000x512_S5000x128_S512x128_0_0_1_1_n_n 5000 rfl rfl).symm q) = ix2 q g := funext fun a => Fin.ext (by
    match a with
    | ⟨0, _⟩ => exact (pool3_lhs_0 _ _).trans hq
    | ⟨1, _⟩ => exact pool3_lhs_1 _ _)
  have er : dot_S5000x512_S5000x128_S512x128_0_0_1_1_n_n.rhsIdx (ix2 g f) ((contrEquiv1 dot_S5000x512_S5000x128_S512x128_0_0_1_1_n_n 5000 rfl rfl).symm q) = ix2 q f := funext fun a => Fin.ext (by
    match a with
    | ⟨0, _⟩ => exact (pool3_rhs_0 _ _).trans hq
    | ⟨1, _⟩ => exact pool3_rhs_1 _ _)
  rw [el, er, truncf_apply, truncf_apply, sitofp_apply]
  rfl

/-- The widened one-bit answer to "is the word `b` the number `g`", read as a signed integer, is the zero-one membership. -/
private theorem member_of_word (b : BitVec 32) (g : Nat) :
    ((((IntOp.cmpi .eq b (BitVec.ofNat 32 g)).setWidth 32).toInt : ℝ) : EReal) = GIN.member b g := by
  have t1 : ((1#1 : BitVec 1).setWidth 32).toInt = 1 := by decide
  have t0 : ((0#1 : BitVec 1).setWidth 32).toInt = 0 := by decide
  unfold GIN.member
  by_cases h : b = BitVec.ofNat 32 g
  · have e : IntOp.cmpi .eq b (BitVec.ofNat 32 g) = 1#1 := by
      show BitVec.ofBool (b == BitVec.ofNat 32 g) = 1#1
      rw [beq_iff_eq.mpr h]; rfl
    rw [e, if_pos h, t1]; simp
  · have e : IntOp.cmpi .eq b (BitVec.ofNat 32 g) = 0#1 := by
      show BitVec.ofBool (b == BitVec.ofNat 32 g) = 0#1
      rw [show (b == BitVec.ofNat 32 g) = false from beq_eq_false_iff_ne.mpr h]; rfl
    rw [e, if_neg h, t0]; simp

set_option maxHeartbeats 400000 in
/-- One tile's block. If the tile's feature block holds rows 5000 t … 5000 t + 4999 of the features `h` and its index block
    the same rows of the graph indices `bi`, then the body's product at `j` = (g, f) is entry `i` = (512 t + g, f) of the
    partial per-graph sums of the layer's output: both are the sum over the tile's nodes of membership times the node's output. -/
theorem block3_eq (t : Fin 20) (x0 : Vec Ideal S5000x128 .f32) (mu var g bt : Vec Ideal S1x128 .f32) (W : Vec Ideal S128x128 .f32)
    (b : Vec Ideal S1x128 .f32) (x7 : Vec Ideal S5000x1 .i32) (h : GIN.TNF.Idx → EReal) (bi : GIN.TCol.Idx → BitVec 32)
    (h0 : ∀ (q : Fin 5000) (k : Fin 128), x0 (ix2 q k) = h (ix2 (GIN.node t q) k))
    (h7 : ∀ q : Fin 5000, x7 (ix2 q 0) = bi (ix2 (GIN.node t q) 0))
    (j : S512x128.Idx) (i : GIN.TPool.Idx) (hi0 : (i 0).val = 512 * t.val + (j 0).val) (hi1 : (i 1).val = (j 1).val) :
    k3_pay1 (F := Ideal) (k3_pay2 (F := Ideal) x0 var mu g bt W b) (k3_pay3 (F := Ideal) x7) j
      = GIN.ppool (GIN.act h mu var g bt W b) bi i := by
  obtain ⟨gr, f, rfl⟩ : ∃ (gr : Fin 512) (f : Fin 128), j = ix2 gr f := ⟨j 0, j 1, eq_ix2 j⟩
  obtain ⟨r, f', rfl⟩ : ∃ (r : Fin 10240) (f' : Fin 128), i = ix2 r f' := ⟨i 0, i 1, eq_ix2 i⟩
  obtain rfl : f' = f := Fin.ext hi1
  have hr : r.val = 512 * t.val + gr.val := hi0
  rw [k3_pay1_apply]
  unfold GIN.ppool
  show _ = ∑ q : Fin 5000, GIN.member (bi (ix2 (GIN.nodeAt 512 (by decide) ⟨r.val, r.isLt⟩ q) 0)) (r.val % 512)
      * GIN.act h mu var g bt W b (ix2 (GIN.nodeAt 512 (by decide) ⟨r.val, r.isLt⟩ q) f')
  have hn : ∀ q, GIN.nodeAt 512 (by decide) ⟨r.val, r.isLt⟩ q = GIN.node t q := fun q => Fin.ext (by
    show 5000 * (r.val / 512) + q.val = 5000 * t.val + q.val
    rw [hr]; have := gr.isLt; omega)
  have hm : r.val % 512 = gr.val := by rw [hr]; have := gr.isLt; omega
  refine Finset.sum_congr rfl fun q _ => ?_
  rw [k3_pay3_apply, member_of_word, k3_pay2_apply, hn q, hm, h7 q]
  unfold GIN.act
  simp only [h0]

/-! ## The blocks, read off the arrays -/

/-- The zero offsets, however they are spelt. -/
private theorem hz3 : (![0, 0] : Fin 2 → Nat) = fun _ => 0 := funext fun a => by fin_cases a <;> rfl

/-- The windows' block indices at each of the twenty points: the tiled windows (features, graph indices, output) are at
    block (t, 0); the per-feature rows and the weight matrix are at block (0, 0). -/
theorem idx_facts3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

/-- A point of the grid as a tile number. -/
def tile3 (t : Fin cfg3.N) : Fin 20 := ⟨t.val, t.isLt.trans_eq N_3⟩

set_option maxHeartbeats 400000 in
/-- The feature block at point `t` is rows 5000 t … 5000 t + 4999 of the feature array. -/
theorem tile3_0_apply (c : Dev nD) (t : Fin cfg3.N) (q : Fin 5000) (k : Fin 128) :
    (iblk3 V c 0 t : Vec Ideal S5000x128 .f32) (ix2 q k) = (V c main_v44_0 : GIN.TNF.Idx → EReal) (ix2 (GIN.node (tile3 t) q) k) := by
  obtain ⟨⟨e0, e1⟩, -⟩ := idx_facts3 t
  unfold iblk3
  rw [View.read_apply]
  show V c main_v44_0 _ = V c main_v44_0 _
  congr 1
  funext a
  apply Fin.ext
  match a with
  | ⟨0, _⟩ => show win3_0.index t (0 : Fin 2) * 5000 + 1 * q.val = 5000 * t.val + q.val; rw [e0]; omega
  | ⟨1, _⟩ => show win3_0.index t (1 : Fin 2) * 128 + 1 * k.val = k.val; rw [e1]; omega

set_option maxHeartbeats 400000 in
/-- The graph-index block at point `t` is rows 5000 t … 5000 t + 4999 of the index column. -/
theorem tile3_7_apply (c : Dev nD) (t : Fin cfg3.N) (q : Fin 5000) :
    (iblk3 V c 7 t : Vec Ideal S5000x1 .i32) (ix2 q 0) = (V c main_v4 : GIN.TCol.Idx → BitVec 32) (ix2 (GIN.node (tile3 t) q) 0) := by
  obtain ⟨-, -, -, -, -, -, -, ⟨e0, e1⟩, -⟩ := idx_facts3 t
  unfold iblk3
  rw [View.read_apply]
  show V c main_v4 _ = V c main_v4 _
  congr 1
  funext a
  apply Fin.ext
  match a with
  | ⟨0, _⟩ => show win3_7.index t (0 : Fin 2) * 5000 + 1 * q.val = 5000 * t.val + q.val; rw [e0]; omega
  | ⟨1, _⟩ => show win3_7.index t (1 : Fin 2) * 1 + 1 * ((0 : Fin 1) : Nat) = ((0 : Fin 1) : Nat); rw [e1]; rfl

/-! Each per-feature row, and the weight matrix, is its whole array at every point. -/

set_option maxHeartbeats 400000 in
theorem whole3_1 (c : Dev nD) (t : Fin cfg3.N) : (iblk3 V c 1 t : Vec Ideal S1x128 .f32) = (V c main_v55 : GIN.TRow.Idx → EReal) := by
  obtain ⟨-, ⟨e0, e1⟩, -⟩ := idx_facts3 t
  funext y
  unfold iblk3
  rw [View.read_apply]
  show V c main_v55 _ = V c main_v55 y
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

set_option maxHeartbeats 400000 in
theorem whole3_2 (c : Dev nD) (t : Fin cfg3.N) : (iblk3 V c 2 t : Vec Ideal S1x128 .f32) = (V c main_v56 : GIN.TRow.Idx → EReal) := by
  obtain ⟨-, -, ⟨e0, e1⟩, -⟩ := idx_facts3 t
  funext y
  unfold iblk3
  rw [View.read_apply]
  show V c main_v56 _ = V c main_v56 y
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

set_option maxHeartbeats 400000 in
theorem whole3_3 (c : Dev nD) (t : Fin cfg3.N) : (iblk3 V c 3 t : Vec Ideal S1x128 .f32) = (V c main_v57 : GIN.TRow.Idx → EReal) := by
  obtain ⟨-, -, -, ⟨e0, e1⟩, -⟩ := idx_facts3 t
  funext y
  unfold iblk3
  rw [View.read_apply]
  show V c main_v57 _ = V c main_v57 y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

set_option maxHeartbeats 400000 in
theorem whole3_4 (c : Dev nD) (t : Fin cfg3.N) : (iblk3 V c 4 t : Vec Ideal S1x128 .f32) = (V c main_v58 : GIN.TRow.Idx → EReal) := by
  obtain ⟨-, -, -, -, ⟨e0, e1⟩, -⟩ := idx_facts3 t
  funext y
  unfold iblk3
  rw [View.read_apply]
  show V c main_v58 _ = V c main_v58 y
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

set_option maxHeartbeats 400000 in
theorem whole3_5 (c : Dev nD) (t : Fin cfg3.N) : (iblk3 V c 5 t : Vec Ideal S128x128 .f32) = (V c main_arg13 : GIN.TFF.Idx → EReal) := by
  obtain ⟨-, -, -, -, -, ⟨e0, e1⟩, -⟩ := idx_facts3 t
  funext y
  unfold iblk3
  rw [View.read_apply]
  show V c main_arg13 _ = V c main_arg13 y
  congr 1
  funext a
  apply Fin.ext
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

set_option maxHeartbeats 400000 in
theorem whole3_6 (c : Dev nD) (t : Fin cfg3.N) : (iblk3 V c 6 t : Vec Ideal S1x128 .f32) = (V c main_v59 : GIN.TRow.Idx → EReal) := by
  obtain ⟨-, -, -, -, -, -, ⟨e0, e1⟩, -⟩ := idx_facts3 t
  funext y
  unfold iblk3
  rw [View.read_apply]
  show V c main_v59 _ = V c main_v59 y
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

set_option maxHeartbeats 400000 in
/-- What point `t` writes back is block `t` of the partial per-graph sums of the layer's output: rows 512 t … 512 t + 511. -/
theorem flushed3_8_eq (c : Dev nD) (t : Fin cfg3.N) :
    (dat3 V c).flushed 8 t = ((cfg3.win 8).blk t).view.read (Elt Ideal) (GIN.ppool (GIN.act (V c main_v44_0) (V c main_v55) (V c main_v56) (V c main_v57) (V c main_v58) (V c main_arg13) (V c main_v59)) (V c main_v4)) := by
  show (cfg3.win 8).cut (grid3.coords t) ((dat3 V c).after 8 t) = _
  rw [after3_8]
  unfold out3_8
  rw [View.canon_unit_zero hz3]
  simp only [View.ld_unit_zero (S := S5000x128) hz3, View.ld_unit_zero (S := S1x128) hz3, View.ld_unit_zero (S := S128x128) hz3, View.ld_unit_zero (S := S5000x1) hz3]
  rw [whole3_1, whole3_2, whole3_3, whole3_4, whole3_5, whole3_6]
  obtain ⟨-, -, -, -, -, -, -, -, e0, e1⟩ := idx_facts3 t
  funext j
  show k3_pay1 (F := Ideal) (k3_pay2 (F := Ideal) (iblk3 V c 0 t) (V c main_v56) (V c main_v55) (V c main_v57) (V c main_v58) (V c main_arg13) (V c main_v59)) (k3_pay3 (F := Ideal) (iblk3 V c 7 t)) j
    = GIN.ppool (GIN.act (V c main_v44_0) (V c main_v55) (V c main_v56) (V c main_v57) (V c main_v58) (V c main_arg13) (V c main_v59)) (V c main_v4) (((cfg3.win 8).blk t).view.emb j)
  refine block3_eq (tile3 t) (iblk3 V c 0 t) (V c main_v55) (V c main_v56) (V c main_v57) (V c main_v58) (V c main_arg13) (V c main_v59) (iblk3 V c 7 t) (V c main_v44_0) (V c main_v4)
    (tile3_0_apply V c t) (tile3_7_apply V c t) j (((cfg3.win 8).blk t).view.emb j) ?_ ?_
  · show win3_8.index t (0 : Fin 2) * 512 + 1 * (j 0).val = 512 * t.val + (j 0).val; rw [e0]; omega
  · show win3_8.index t (1 : Fin 2) * 128 + 1 * (j 1).val = (j 1).val; rw [e1]; omega

/-! ## From the blocks to the array -/

/-- An index of the output array is in point `t`'s block iff each coordinate is in the block's range on its axis. -/
theorem mem_blk3_8 (t : Fin cfg3.N) (i : S10240x128.Idx) :
    i ∈ ((cfg3.win 8).blk t).view.set ↔ ∀ a : Fin 2, win3_8.index t a * S512x128.size a ≤ (i a).val ∧ (i a).val < win3_8.index t a * S512x128.size a + S512x128.size a := by
  show i ∈ ((View.whole main_v60).slice (win3_8.rect t)).set ↔ _
  rw [View.set_slice_whole, Rect.mem_set_unit]
  exact Iff.rfl

/-- Every row of the output array is written back: row `r` by the point `r / 512`. -/
theorem covered3_8 (i : S10240x128.Idx) : ∃ t : Fin cfg3.N, (cfg3.win 8).flush t = true ∧ i ∈ ((cfg3.win 8).blk t).view.set := by
  have hi0 : (i 0).val < 10240 := idx2_lt0 i
  have hi1 : (i 1).val < 128 := idx2_lt1 i
  obtain ⟨t, ht⟩ : ∃ t : Fin cfg3.N, t.val = (i 0).val / 512 := ⟨⟨(i 0).val / 512, by rw [show cfg3.N = 20 from N_3]; omega⟩, rfl⟩
  obtain ⟨-, -, -, -, -, -, -, -, e0, e1⟩ := idx_facts3 t
  refine ⟨t, flush3_8 t, ?_⟩
  rw [mem_blk3_8]
  intro a
  match a with
  | ⟨0, _⟩ => show win3_8.index t (0 : Fin 2) * 512 ≤ (i 0).val ∧ (i 0).val < win3_8.index t (0 : Fin 2) * 512 + 512; rw [e0, ht]; omega
  | ⟨1, _⟩ => show win3_8.index t (1 : Fin 2) * 128 ≤ (i 1).val ∧ (i 1).val < win3_8.index t (1 : Fin 2) * 128 + 128; rw [e1]; omega

/-- The partial per-graph sums. -/
theorem final3_8 (c : Dev nD) : (dat3 V c).arrAt 8 cfg3.N
    = GIN.ppool (GIN.act (V c main_v44_0) (V c main_v55) (V c main_v56) (V c main_v57) (V c main_v58) (V c main_arg13) (V c main_v59)) (V c main_v4) :=
  (dat3 V c).arrAt_eq_of_cover 8 (GIN.ppool (GIN.act (V c main_v44_0) (V c main_v55) (V c main_v56) (V c main_v57) (V c main_v58) (V c main_arg13) (V c main_v59)) (V c main_v4))
    (fun t _ => flushed3_8_eq V c t) covered3_8

end Cert.KernelIdeal.Val

end
-- ==== Proof.KThreadB.lean ====
/-
  The kernel program's run, second half: the second layer's aggregation, its first pass's three arrays, its mean and variance rows, the pooling pass's partial per-graph sums, and the result: the per-graph sums through the linear head.
-/
import proofs.«403490_j83820581749192_2_alg».proof.Proof.KThreadA
import proofs.«403490_j83820581749192_2_alg».proof.Proof.KReg2
import proofs.«403490_j83820581749192_2_alg».proof.Proof.KReg3
import Idealize.ShloMosaic.Lib.StableHlo.Run

set_option maxRecDepth 16384

noncomputable section

namespace Cert.KernelIdeal.Val

open Cert.KernelIdeal Cert.KernelIdeal.Gen Cert.KernelIdeal.Facts₀ Cert.KernelIdeal.Facts Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ### The second layer's aggregation and its reshaped bias -/

set_option maxHeartbeats 4000000 in
theorem W5_v42 : W5 m ρ c (Proc.devRef .tc main_v42) = agg2 m c := by
  unfold agg2 agg
  dsimp only [W5, hostOps2]
  after_results_simp
  rw [W4_v32 m ρ c, W4_v1 m ρ c, W4_v3 m ρ c, W1_v1 m ρ c, W1_v3 m ρ c]

set_option maxHeartbeats 4000000 in
theorem W5_v43 : W5 m ρ c (Proc.devRef .tc main_v43) = GIN.row (A10 m c) := by
  dsimp only [W5, hostOps2]
  after_results_simp
  rw [W4_arg10 m ρ c]
  exact row_of_reshape _

/-! ### The second layer's first pass: the linear map of the first layer's output plus its aggregation -/

/-- What the pass reads on entry is the first layer's output, its aggregation, the weight and the bias row. -/
theorem lin_entry5 : GIN.lin (GIN.add2 (V5 m ρ c main_v32) (V5 m ρ c main_v42)) (V5 m ρ c main_arg9) (V5 m ρ c main_v43)
    = hp2 m c := by
  show GIN.lin (GIN.add2 (W5 m ρ c (Proc.devRef .tc main_v32)) (W5 m ρ c (Proc.devRef .tc main_v42)))
    (W5 m ρ c (Proc.devRef .tc main_arg9)) (W5 m ρ c (Proc.devRef .tc main_v43)) = _
  rw [W5_v32 m ρ c, W4_v32 m ρ c, W5_v42 m ρ c, W5_arg9 m ρ c, W5_v43 m ρ c]
  rfl

theorem W6_v44_0 : W6 m ρ c (Proc.devRef .tc main_v44_0) = hp2 m c :=
  (W6_arr m ρ c 4).trans ((final2_4 (V5 m ρ) c).trans (lin_entry5 m ρ c))

theorem W6_v44_1 : W6 m ρ c (Proc.devRef .tc main_v44_1) = GIN.psum (hp2 m c) :=
  (W6_arr m ρ c 5).trans ((final2_5 (V5 m ρ) c).trans (congrArg GIN.psum (lin_entry5 m ρ c)))

theorem W6_v44_2 : W6 m ρ c (Proc.devRef .tc main_v44_2) = GIN.psum (GIN.sq (hp2 m c)) :=
  (W6_arr m ρ c 6).trans ((final2_6 (V5 m ρ) c).trans (congrArg (fun h => GIN.psum (GIN.sq h)) (lin_entry5 m ρ c)))

/-! ### The second layer's mean and variance rows and its reshaped scale, shift and bias -/

set_option maxHeartbeats 4000000 in
theorem W7_v55 : W7 m ρ c (Proc.devRef .tc main_v55) = GIN.row (GIN.mean (hp2 m c)) := by
  dsimp only [W7, hostOps3]
  after_results_simp
  rw [W6_v44_1 m ρ c, mean_of_psum]
  exact row_of_reshape _

set_option maxHeartbeats 4000000 in
theorem W7_v56 : W7 m ρ c (Proc.devRef .tc main_v56) = GIN.row (GIN.varK (hp2 m c)) := by
  dsimp only [W7, hostOps3]
  after_results_simp
  rw [W6_v44_1 m ρ c, W6_v44_2 m ρ c, mean_of_psum (hp2 m c), var_of_psum]
  exact row_of_reshape _

set_option maxHeartbeats 4000000 in
theorem W7_v57 : W7 m ρ c (Proc.devRef .tc main_v57) = GIN.row (A11 m c) := by
  dsimp only [W7, hostOps3]
  after_results_simp
  rw [W6_arg11 m ρ c]
  exact row_of_reshape _

set_option maxHeartbeats 4000000 in
theorem W7_v58 : W7 m ρ c (Proc.devRef .tc main_v58) = GIN.row (A12 m c) := by
  dsimp only [W7, hostOps3]
  after_results_simp
  rw [W6_arg12 m ρ c]
  exact row_of_reshape _

set_option maxHeartbeats 4000000 in
theorem W7_v59 : W7 m ρ c (Proc.devRef .tc main_v59) = GIN.row (A14 m c) := by
  dsimp only [W7, hostOps3]
  after_results_simp
  rw [W6_arg14 m ρ c]
  exact row_of_reshape _

/-! ### The pooling pass: the tiles' partial per-graph sums of the second layer's output -/

set_option maxHeartbeats 4000000 in
theorem W8_v60 : W8 m ρ c (Proc.devRef .tc main_v60) = GIN.ppool (h2 m c) (col (A2 m c)) := by
  refine (W8_arr m ρ c 8).trans ((final3_8 (V7 m ρ) c).trans ?_)
  show GIN.ppool (GIN.act (W7 m ρ c (Proc.devRef .tc main_v44_0)) (W7 m ρ c (Proc.devRef .tc main_v55))
    (W7 m ρ c (Proc.devRef .tc main_v56)) (W7 m ρ c (Proc.devRef .tc main_v57)) (W7 m ρ c (Proc.devRef .tc main_v58))
    (W7 m ρ c (Proc.devRef .tc main_arg13)) (W7 m ρ c (Proc.devRef .tc main_v59))) (W7 m ρ c (Proc.devRef .tc main_v4)) = _
  rw [W7_v44_0 m ρ c, W6_v44_0 m ρ c, W7_v55 m ρ c, W7_v56 m ρ c, W7_v57 m ρ c, W7_v58 m ρ c, W7_v59 m ρ c,
    W7_arg13 m ρ c, W7_v4 m ρ c, W1_v4 m ρ c, h2_eq m c]

/-! ### The result: the per-graph sums through the linear head -/

set_option maxHeartbeats 4000000 in
theorem kval : W9 m ρ c (Proc.devRef .tc main_v66) = netK (A0 m c) (A1 m c) (A2 m c) (A3 m c) (A4 m c) (A5 m c) (A6 m c) (A7 m c) (A8 m c) (A9 m c) (A10 m c) (A11 m c) (A12 m c) (A13 m c) (A14 m c) (A15 m c) (A16 m c) := by
  rw [netK_eq m c]
  unfold head
  dsimp only [W9, hostOps4]
  after_results_simp
  rw [W8_v60 m ρ c, W8_arg15 m ρ c, W8_arg16 m ρ c]
  show addf (Host.dotGeneral dot_S512x128_S128x10_S512x10_1_0_0_1_n_n none
      (Host.reduceAdd (F := Ideal) (φ := .f32) (shapeCast S20x512x128 (GIN.ppool (h2 m c) (col (A2 m c))) _)
        (constant (F := Ideal) S_ .f32 0x00000000#32) _ _) (A15 m c)) _ = _
  rw [pool_of_ppool]

end Cert.KernelIdeal.Val

end
-- ==== Proof.RefL1.lean ====
/-
  The reference's first layer, read one operation at a time, is the layer function of the specification with the
  reference's variance: the aggregation is the shared host chain, the linear maps are sums over the 128 features, the
  mean and the variance are column sums over all nodes divided by the node count.
-/
import proofs.«403490_j83820581749192_2_alg».proof.Proof.Gen.ReferenceIdeal.Read
import proofs.«403490_j83820581749192_2_alg».proof.Proof.KShared
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefV

open Cert.ReferenceIdeal Cert.ReferenceIdeal.Read Idealize.ShloMosaic Idealize.ShloMosaic.ValueIdx
open Cert.KernelIdeal.Val (agg srcOf dstOf head col netR)

/-- The aggregation stage is the shared chain: the same gather and scatter-add, the edge list cut the same way. -/
theorem l1_agg (x0 : FVec Ideal S100000x128 .f32) (x1 : IVec S2x1600000 32) :
    val_main_v13 (F := Ideal) x0 x1 = agg x0 (srcOf x1) (dstOf x1) := by
  unfold val_main_v13 val_main_v12 val_main_v11 val_main_v10 val_main_v9 val_main_v8 val_main_v7 val_main_v6 val_main_v5
    val_main_v4 val_main_v3 val_main_v2 val_main_v1 val_main_v0 val_main_c val_main_c_0 val_main_cst agg srcOf dstOf
  rfl

/-! The index maps of the first linear map and its bias. -/

theorem lidx15 (i : S100000x128.Idx) (k : Fin 128) : lidx_main_v15 i k = ix2 (i 0) k :=
  funext fun a => Fin.ext (by match a with | ⟨0, _⟩ => rfl | ⟨1, _⟩ => rfl)

theorem ridx15 (i : S100000x128.Idx) (k : Fin 128) : ridx_main_v15 i k = ix2 k (i 1) :=
  funext fun a => Fin.ext (by match a with | ⟨0, _⟩ => rfl | ⟨1, _⟩ => rfl)

theorem idx16_17 (i : S100000x128.Idx) : idx_main_v16 (idx_main_v17 i) = ix1 (i 1) :=
  funext fun a => Fin.ext (by match a with | ⟨0, _⟩ => rfl)

set_option maxHeartbeats 400000 in
/-- The pre-activation: the linear map of the node's own features plus its aggregated neighbours. -/
theorem l1_pre (x0 : FVec Ideal S100000x128 .f32) (x1 : IVec S2x1600000 32) (x3 : FVec Ideal S128x128 .f32)
    (x4 : FVec Ideal S128 .f32) :
    val_main_v18 (F := Ideal) x0 x1 x3 x4
      = GIN.lin (GIN.add2 x0 (val_main_v13 (F := Ideal) x0 x1)) x3 (GIN.row x4) := by
  funext i
  rw [val_main_v18_apply, val_main_v15_apply, val_main_v17_apply, val_main_v16_apply]
  simp only [val_main_v14_apply, Ideal.addf_def, lidx15, ridx15, idx16_17]
  rfl

theorem idx19 (j : S128.Idx) (k : Fin 100000) : idx_main_v19 j k = ix2 k (j 0) :=
  funext fun a => Fin.ext (by match a with | ⟨0, _⟩ => rfl | ⟨1, _⟩ => rfl)

set_option maxHeartbeats 400000 in
/-- The column means of the pre-activation. -/
theorem l1_mean (x0 : FVec Ideal S100000x128 .f32) (x1 : IVec S2x1600000 32) (x3 : FVec Ideal S128x128 .f32)
    (x4 : FVec Ideal S128 .f32) :
    val_main_v21 (F := Ideal) x0 x1 x3 x4 = GIN.mean (val_main_v18 (F := Ideal) x0 x1 x3 x4) := by
  funext j
  rw [val_main_v21_apply, val_main_v19_apply, val_main_v20_apply, val_main_cst_1_apply, val_main_cst_2_apply]
  generalize val_main_v18 (F := Ideal) x0 x1 x3 x4 = h
  simp only [Ideal.hostDivf_def, Ideal.ofBits_def, Ideal.ofBits_zero_f32, zero_add, idx19]
  rfl

theorem idx26 (j : S128.Idx) (k : Fin 100000) : idx_main_v26 j k = ix2 k (j 0) :=
  funext fun a => Fin.ext (by match a with | ⟨0, _⟩ => rfl | ⟨1, _⟩ => rfl)

theorem idx22_23 (i : S100000x128.Idx) : idx_main_v22 (idx_main_v23 i) = ix1 (i 1) :=
  funext fun a => Fin.ext (by match a with | ⟨0, _⟩ => rfl)

set_option maxHeartbeats 400000 in
/-- The variance: the column means of the squared deviations from the column means. -/
theorem l1_var (x0 : FVec Ideal S100000x128 .f32) (x1 : IVec S2x1600000 32) (x3 : FVec Ideal S128x128 .f32)
    (x4 : FVec Ideal S128 .f32) :
    val_main_v28 (F := Ideal) x0 x1 x3 x4 = GIN.varR (val_main_v18 (F := Ideal) x0 x1 x3 x4) := by
  funext j
  obtain ⟨c, rfl⟩ : ∃ c : Fin 128, j = ix1 c := ⟨j 0, eq_ix1 j⟩
  rw [val_main_v28_apply, val_main_v26_apply, val_main_v27_apply, val_main_cst_3_apply, val_main_cst_4_apply]
  simp only [val_main_v25_apply, val_main_v24_apply, val_main_v23_apply, val_main_v22_apply, l1_mean]
  generalize val_main_v18 (F := Ideal) x0 x1 x3 x4 = h
  -- the broadcast mean is read at the feature of the summed entry, whatever the node
  simp only [idx22_23]
  simp only [idx26]
  simp only [Ideal.hostDivf_def, Ideal.ofBits_def, Ideal.ofBits_zero_f32, zero_add, Ideal.mulf_def, Ideal.subf_def]
  unfold GIN.varR
  rfl

/-! The index maps of the second half: every per-feature vector is read at the feature, the second linear map as the
    first. -/

theorem lidx45 (i : S100000x128.Idx) (k : Fin 128) : lidx_main_v45 i k = ix2 (i 0) k :=
  funext fun a => Fin.ext (by match a with | ⟨0, _⟩ => rfl | ⟨1, _⟩ => rfl)

theorem ridx45 (i : S100000x128.Idx) (k : Fin 128) : ridx_main_v45 i k = ix2 k (i 1) :=
  funext fun a => Fin.ext (by match a with | ⟨0, _⟩ => rfl | ⟨1, _⟩ => rfl)

theorem idx29_30 (i : S100000x128.Idx) : idx_main_v29 (idx_main_v30 i) = ix1 (i 1) :=
  funext fun a => Fin.ext (by match a with | ⟨0, _⟩ => rfl)

theorem idx35_36 (i : S100000x128.Idx) : idx_main_v35 (idx_main_v36 i) = ix1 (i 1) :=
  funext fun a => Fin.ext (by match a with | ⟨0, _⟩ => rfl)

theorem idx38_39 (i : S100000x128.Idx) : idx_main_v38 (idx_main_v39 i) = ix1 (i 1) :=
  funext fun a => Fin.ext (by match a with | ⟨0, _⟩ => rfl)

theorem idx41_42 (i : S100000x128.Idx) : idx_main_v41 (idx_main_v42 i) = ix1 (i 1) :=
  funext fun a => Fin.ext (by match a with | ⟨0, _⟩ => rfl)

theorem idx46_47 (i : S100000x128.Idx) : idx_main_v46 (idx_main_v47 i) = ix1 (i 1) :=
  funext fun a => Fin.ext (by match a with | ⟨0, _⟩ => rfl)

set_option maxHeartbeats 400000 in
/-- The second half of the layer, over the pre-activation, its column means and its variance. -/
theorem l1_out (x0 : FVec Ideal S100000x128 .f32) (x1 : IVec S2x1600000 32) (x3 : FVec Ideal S128x128 .f32)
    (x4 x5 x6 : FVec Ideal S128 .f32) (x7 : FVec Ideal S128x128 .f32) (x8 : FVec Ideal S128 .f32) :
    val_main_v49 (F := Ideal) x0 x1 x3 x4 x5 x6 x7 x8
      = GIN.act (val_main_v18 (F := Ideal) x0 x1 x3 x4) (GIN.row (val_main_v21 (F := Ideal) x0 x1 x3 x4))
          (GIN.row (val_main_v28 (F := Ideal) x0 x1 x3 x4)) (GIN.row x5) (GIN.row x6) x7 (GIN.row x8) := by
  funext i
  rw [val_main_v49_apply, val_main_v48_apply, val_main_v45_apply, val_main_v47_apply, val_main_v46_apply,
    val_main_call1_v0_apply, val_main_call1_cst_apply]
  simp only [val_main_v44_apply, val_main_v43_apply, val_main_v42_apply, val_main_v41_apply, val_main_v40_apply,
    val_main_v39_apply, val_main_v38_apply, val_main_v37_apply, val_main_v36_apply, val_main_v35_apply,
    val_main_v34_apply, val_main_v33_apply, val_main_v32_apply, val_main_cst_5_apply, val_main_v31_apply,
    val_main_v30_apply, val_main_v29_apply, val_main_call0_v0_apply, val_main_call0_cst_apply]
  generalize val_main_v18 (F := Ideal) x0 x1 x3 x4 = h
  generalize val_main_v21 (F := Ideal) x0 x1 x3 x4 = m
  generalize val_main_v28 (F := Ideal) x0 x1 x3 x4 = v
  -- every broadcast per-feature vector is read at the feature of the entry it meets
  simp only [idx29_30, idx35_36, idx38_39, idx41_42, idx46_47]
  simp only [lidx45, ridx45]
  simp only [Ideal.maximumf_def, Ideal.addf_def, Ideal.mulf_def, Ideal.subf_def, Ideal.hostUnary_rsqrt_def,
    Ideal.ofBits_def, Ideal.ofBits_zero_f32]
  unfold GIN.act GIN.row
  rfl

/-- The first layer's output. -/
theorem ref_layer1 (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) :
    val_main_v49 (F := Ideal) x0 x1 x3 x4 x5 x6 x7 x8
      = GIN.layerR x0 (agg x0 (srcOf x1) (dstOf x1)) x3 x4 x5 x6 x7 x8 := by
  rw [l1_out, l1_var, l1_mean, l1_pre, l1_agg]
  rfl

end Cert.ReferenceIdeal.RefV

end
-- ==== Proof.RefL2.lean ====
/-
  The reference's second layer, read one operation at a time over the first layer's output kept as one array, is the
  layer function of the specification with the reference's variance.
-/
import proofs.«403490_j83820581749192_2_alg».proof.Proof.Gen.ReferenceIdeal.Read
import proofs.«403490_j83820581749192_2_alg».proof.Proof.KShared
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefV

open Cert.ReferenceIdeal Cert.ReferenceIdeal.Read Idealize.ShloMosaic Idealize.ShloMosaic.ValueIdx
open Cert.KernelIdeal.Val (agg srcOf dstOf head col netR)

/-- The source column of the edge list, read a second time. -/
theorem l2_src (x1 : IVec S2x1600000 32) : val_main_v51 (F := Ideal) x1 = srcOf x1 := by
  unfold val_main_v51 val_main_v50 srcOf
  rfl

/-- The destination column of the edge list, read a second time. -/
theorem l2_dst (x1 : IVec S2x1600000 32) : val_main_v53 (F := Ideal) x1 = dstOf x1 := by
  unfold val_main_v53 val_main_v52 dstOf
  rfl

/-- The second layer's scatter-add of the gathered rows is the neighbour aggregation of the first layer's output. -/
theorem l2_agg (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) :
    val_main_v63 (F := Ideal) x0 x1 x3 x4 x5 x6 x7 x8
      = agg (val_main_v49 (F := Ideal) x0 x1 x3 x4 x5 x6 x7 x8) (srcOf x1) (dstOf x1) := by
  unfold val_main_v63 val_main_v60 val_main_v62 val_main_v61 val_main_cst_8 val_main_v59 val_main_v58 val_main_v57 val_main_v56
    val_main_c_7 val_main_v55 val_main_v54 val_main_c_6
  rw [l2_src, l2_dst]
  generalize val_main_v49 (F := Ideal) x0 x1 x3 x4 x5 x6 x7 x8 = H
  generalize srcOf x1 = s
  generalize dstOf x1 = d
  unfold agg
  rfl

/-- The node's own row plus the aggregated rows. -/
theorem l2_sum (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) :
    val_main_v64 (F := Ideal) x0 x1 x3 x4 x5 x6 x7 x8
      = GIN.add2 (val_main_v49 (F := Ideal) x0 x1 x3 x4 x5 x6 x7 x8)
          (agg (val_main_v49 (F := Ideal) x0 x1 x3 x4 x5 x6 x7 x8) (srcOf x1) (dstOf x1)) := by
  unfold val_main_v64
  rw [l2_agg]
  generalize val_main_v49 (F := Ideal) x0 x1 x3 x4 x5 x6 x7 x8 = H
  generalize agg H (srcOf x1) (dstOf x1) = A
  rfl

/-- The first product's left index: row of the output, contracted coordinate. -/
theorem lidx65 (i : S100000x128.Idx) (k : Fin 128) : lidx_main_v65 i k = ix2 (i 0) k :=
  funext fun a => Fin.ext (by match a with | ⟨0, _⟩ => rfl | ⟨1, _⟩ => rfl)
/-- The first product's right index: contracted coordinate, column of the output. -/
theorem ridx65 (i : S100000x128.Idx) (k : Fin 128) : ridx_main_v65 i k = ix2 k (i 1) :=
  funext fun a => Fin.ext (by match a with | ⟨0, _⟩ => rfl | ⟨1, _⟩ => rfl)
/-- A per-feature vector broadcast to a row and then to all nodes is read at the column. -/
theorem bidx67 (i : S100000x128.Idx) : idx_main_v66 (idx_main_v67 i) = ix1 (i 1) :=
  funext fun a => Fin.ext (by match a with | ⟨0, _⟩ => rfl)

/-- The pre-activation: the first linear map of the summed rows. -/
theorem l2_pre (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) (x9 : FVec Ideal S128x128 .f32) (x10 : FVec Ideal S128 .f32) :
    val_main_v68 (F := Ideal) x0 x1 x3 x4 x5 x6 x7 x8 x9 x10
      = GIN.lin (GIN.add2 (val_main_v49 (F := Ideal) x0 x1 x3 x4 x5 x6 x7 x8)
          (agg (val_main_v49 (F := Ideal) x0 x1 x3 x4 x5 x6 x7 x8) (srcOf x1) (dstOf x1))) x9 (GIN.row x10) := by
  funext i
  rw [val_main_v68_apply, val_main_v65_apply, val_main_v67_apply, val_main_v66_apply, l2_sum]
  generalize GIN.add2 (val_main_v49 (F := Ideal) x0 x1 x3 x4 x5 x6 x7 x8)
          (agg (val_main_v49 (F := Ideal) x0 x1 x3 x4 x5 x6 x7 x8) (srcOf x1) (dstOf x1)) = z
  simp only [lidx65, ridx65, bidx67, Ideal.addf_def]
  rfl

/-- A column sum's operand index: node, feature. -/
theorem cidx69 (j : S128.Idx) (k : Fin 100000) : idx_main_v69 j k = ix2 k (j 0) :=
  funext fun a => Fin.ext (by match a with | ⟨0, _⟩ => rfl | ⟨1, _⟩ => rfl)
/-- The second column sum's operand index: node, feature. -/
theorem cidx76 (j : S128.Idx) (k : Fin 100000) : idx_main_v76 j k = ix2 k (j 0) :=
  funext fun a => Fin.ext (by match a with | ⟨0, _⟩ => rfl | ⟨1, _⟩ => rfl)

/-- The column means of the pre-activation. -/
theorem l2_mean (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) (x9 : FVec Ideal S128x128 .f32) (x10 : FVec Ideal S128 .f32) :
    val_main_v71 (F := Ideal) x0 x1 x3 x4 x5 x6 x7 x8 x9 x10 = GIN.mean (val_main_v68 (F := Ideal) x0 x1 x3 x4 x5 x6 x7 x8 x9 x10) := by
  funext j
  rw [val_main_v71_apply, val_main_v69_apply, val_main_v70_apply, val_main_cst_10_apply, val_main_cst_9_apply]
  generalize (val_main_v68 (F := Ideal) x0 x1 x3 x4 x5 x6 x7 x8 x9 x10) = h
  simp only [cidx69, Ideal.hostDivf_def, Ideal.ofBits_def, Ideal.ofBits_zero_f32, zero_add]
  rfl

/-- The mean, broadcast to a row and then to all nodes, is read at the column. -/
theorem bidx73 (i : S100000x128.Idx) : idx_main_v72 (idx_main_v73 i) = ix1 (i 1) :=
  funext fun a => Fin.ext (by match a with | ⟨0, _⟩ => rfl)

/-- The deviations of the pre-activation from its column means. -/
theorem l2_dev (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) (x9 : FVec Ideal S128x128 .f32) (x10 : FVec Ideal S128 .f32) :
    val_main_v74 (F := Ideal) x0 x1 x3 x4 x5 x6 x7 x8 x9 x10
      = fun i => (val_main_v68 (F := Ideal) x0 x1 x3 x4 x5 x6 x7 x8 x9 x10) i - GIN.mean (val_main_v68 (F := Ideal) x0 x1 x3 x4 x5 x6 x7 x8 x9 x10) (ix1 (i 1)) := by
  funext i
  rw [val_main_v74_apply, val_main_v73_apply, val_main_v72_apply, l2_mean, bidx73]
  rfl

/-- The mean of the squared deviations. -/
theorem l2_var (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) (x9 : FVec Ideal S128x128 .f32) (x10 : FVec Ideal S128 .f32) :
    val_main_v78 (F := Ideal) x0 x1 x3 x4 x5 x6 x7 x8 x9 x10 = GIN.varR (val_main_v68 (F := Ideal) x0 x1 x3 x4 x5 x6 x7 x8 x9 x10) := by
  funext j
  rw [val_main_v78_apply, val_main_v76_apply, val_main_v77_apply, val_main_cst_12_apply, val_main_cst_11_apply]
  simp only [val_main_v75_apply]
  rw [l2_dev]
  generalize (val_main_v68 (F := Ideal) x0 x1 x3 x4 x5 x6 x7 x8 x9 x10) = h
  simp only [cidx76, Ideal.hostDivf_def, Ideal.ofBits_def, Ideal.ofBits_zero_f32, zero_add, Ideal.mulf_def]
  rfl

/-- Each of the per-feature vectors below, broadcast to a row and then to all nodes, is read at the column. -/
theorem bidx80 (i : S100000x128.Idx) : idx_main_v79 (idx_main_v80 i) = ix1 (i 1) :=
  funext fun a => Fin.ext (by match a with | ⟨0, _⟩ => rfl)
theorem bidx86 (i : S100000x128.Idx) : idx_main_v85 (idx_main_v86 i) = ix1 (i 1) :=
  funext fun a => Fin.ext (by match a with | ⟨0, _⟩ => rfl)
theorem bidx89 (i : S100000x128.Idx) : idx_main_v88 (idx_main_v89 i) = ix1 (i 1) :=
  funext fun a => Fin.ext (by match a with | ⟨0, _⟩ => rfl)
theorem bidx92 (i : S100000x128.Idx) : idx_main_v91 (idx_main_v92 i) = ix1 (i 1) :=
  funext fun a => Fin.ext (by match a with | ⟨0, _⟩ => rfl)
theorem bidx97 (i : S100000x128.Idx) : idx_main_v96 (idx_main_v97 i) = ix1 (i 1) :=
  funext fun a => Fin.ext (by match a with | ⟨0, _⟩ => rfl)
/-- The second product's left index: row of the output, contracted coordinate. -/
theorem lidx95 (i : S100000x128.Idx) (k : Fin 128) : lidx_main_v95 i k = ix2 (i 0) k :=
  funext fun a => Fin.ext (by match a with | ⟨0, _⟩ => rfl | ⟨1, _⟩ => rfl)
/-- The second product's right index: contracted coordinate, column of the output. -/
theorem ridx95 (i : S100000x128.Idx) (k : Fin 128) : ridx_main_v95 i k = ix2 k (i 1) :=
  funext fun a => Fin.ext (by match a with | ⟨0, _⟩ => rfl | ⟨1, _⟩ => rfl)

/-- The reciprocal square root of the variance plus epsilon. -/
theorem l2_rs (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) (x9 : FVec Ideal S128x128 .f32) (x10 : FVec Ideal S128 .f32) :
    val_main_v84 (F := Ideal) x0 x1 x3 x4 x5 x6 x7 x8 x9 x10
      = fun j => Ideal.rsqrt (GIN.varR (val_main_v68 (F := Ideal) x0 x1 x3 x4 x5 x6 x7 x8 x9 x10) j + GIN.cEps) := by
  funext j
  rw [val_main_v84_apply, val_main_v83_apply, val_main_v82_apply, val_main_cst_13_apply, l2_var]
  rfl

/-- The hidden activation: normalise, scale, shift, rectify. -/
theorem l2_hid (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) (x9 : FVec Ideal S128x128 .f32) (x10 : FVec Ideal S128 .f32) (x11 x12 : FVec Ideal S128 .f32) :
    val_main_v94 (F := Ideal) x0 x1 x3 x4 x5 x6 x7 x8 x9 x10 x11 x12
      = fun i => max (((val_main_v68 (F := Ideal) x0 x1 x3 x4 x5 x6 x7 x8 x9 x10) i - GIN.mean (val_main_v68 (F := Ideal) x0 x1 x3 x4 x5 x6 x7 x8 x9 x10) (ix1 (i 1)))
          * Ideal.rsqrt (GIN.varR (val_main_v68 (F := Ideal) x0 x1 x3 x4 x5 x6 x7 x8 x9 x10) (ix1 (i 1)) + GIN.cEps) * x11 (ix1 (i 1)) + x12 (ix1 (i 1))) 0 := by
  funext i
  rw [val_main_v94_apply, val_main_v93_apply, val_main_v90_apply, val_main_v87_apply, val_main_v81_apply,
    val_main_v80_apply, val_main_v79_apply, val_main_v86_apply, val_main_v85_apply, val_main_v89_apply, val_main_v88_apply,
    val_main_v92_apply, val_main_v91_apply, val_main_call2_v0_apply, val_main_call2_cst_apply,
    l2_mean, l2_rs, bidx80, bidx86, bidx89, bidx92]
  generalize (val_main_v68 (F := Ideal) x0 x1 x3 x4 x5 x6 x7 x8 x9 x10) = h
  simp only [Ideal.maximumf_def, Ideal.addf_def, Ideal.mulf_def, Ideal.subf_def, Ideal.ofBits_def, Ideal.ofBits_zero_f32]
  rfl

/-- The layer's output over the pre-activation. -/
theorem l2_out (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) (x9 : FVec Ideal S128x128 .f32) (x10 : FVec Ideal S128 .f32) (x11 x12 : FVec Ideal S128 .f32) (x13 : FVec Ideal S128x128 .f32) (x14 : FVec Ideal S128 .f32) :
    val_main_v99 (F := Ideal) x0 x1 x3 x4 x5 x6 x7 x8 x9 x10 x11 x12 x13 x14
      = GIN.act (val_main_v68 (F := Ideal) x0 x1 x3 x4 x5 x6 x7 x8 x9 x10) (GIN.row (GIN.mean (val_main_v68 (F := Ideal) x0 x1 x3 x4 x5 x6 x7 x8 x9 x10))) (GIN.row (GIN.varR (val_main_v68 (F := Ideal) x0 x1 x3 x4 x5 x6 x7 x8 x9 x10)))
          (GIN.row x11) (GIN.row x12) x13 (GIN.row x14) := by
  funext i
  rw [val_main_v99_apply, val_main_v98_apply, val_main_v95_apply, val_main_v97_apply, val_main_v96_apply,
    val_main_call3_v0_apply, val_main_call3_cst_apply, l2_hid, bidx97]
  generalize (val_main_v68 (F := Ideal) x0 x1 x3 x4 x5 x6 x7 x8 x9 x10) = h
  simp only [lidx95, ridx95, Ideal.maximumf_def, Ideal.addf_def, Ideal.ofBits_def, Ideal.ofBits_zero_f32]
  rfl

/-- The second layer's output, over the first layer's. -/
theorem ref_layer2 (x0 : FVec Ideal S100000x128 .f32) (x1 : IVec S2x1600000 32) (x3 : FVec Ideal S128x128 .f32) (x4 x5 x6 : FVec Ideal S128 .f32) (x7 : FVec Ideal S128x128 .f32) (x8 : FVec Ideal S128 .f32) (x9 : FVec Ideal S128x128 .f32) (x10 x11 x12 : FVec Ideal S128 .f32) (x13 : FVec Ideal S128x128 .f32) (x14 : FVec Ideal S128 .f32) :
    val_main_v99 (F := Ideal) x0 x1 x3 x4 x5 x6 x7 x8 x9 x10 x11 x12 x13 x14
      = GIN.layerR (val_main_v49 (F := Ideal) x0 x1 x3 x4 x5 x6 x7 x8)
          (agg (val_main_v49 (F := Ideal) x0 x1 x3 x4 x5 x6 x7 x8) (srcOf x1) (dstOf x1)) x9 x10 x11 x12 x13 x14 := by
  rw [l2_out, l2_pre]
  generalize val_main_v49 (F := Ideal) x0 x1 x3 x4 x5 x6 x7 x8 = H
  generalize agg H (srcOf x1) (dstOf x1) = A
  unfold GIN.layerR
  rfl

end Cert.ReferenceIdeal.RefV

end
-- ==== Proof.IsR.lean ====
/-
  Extended reals that are real numbers: closed under the ring operations, finite sums and maxima.
-/
import proofs.«403490_j83820581749192_2_alg».proof.Proof.Spec

noncomputable section

namespace GIN

theorem IsR.coe (r : ℝ) : IsR (r : EReal) := ⟨r, rfl⟩

theorem IsR.zero : IsR 0 := ⟨0, rfl⟩

theorem IsR.one : IsR 1 := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases le_total x y with h | h
  · rw [max_eq_right h]; exact hy
  · rw [max_eq_left h]; exact hx

theorem IsR.sum {ι : Type*} (s : Finset ι) (f : ι → EReal) (hf : ∀ i ∈ s, IsR (f i)) : IsR (∑ i ∈ s, f i) := by
  classical
  induction s using Finset.induction_on with
  | empty => simpa using IsR.zero
  | insert a s ha ih =>
    rw [Finset.sum_insert ha]
    exact (hf a (Finset.mem_insert_self a s)).add (ih fun i hi => hf i (Finset.mem_insert_of_mem hi))

/-- A finite sum of real numbers, as an extended real, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end GIN

end
-- ==== Proof.PoolAgg.lean ====
/-
  Two facts about the host's scatter-add at the ideal values. Summing node rows into the row of their graph is the
  sum, over all nodes, of a zero-one membership factor times the node's row: a node whose graph index is outside
  0 … 511 lands nowhere and adds nothing on either side. And the neighbour aggregation of real-valued features is
  real-valued: every entry is zero plus a finite sum of gathered entries.
-/
import proofs.«403490_j83820581749192_2_alg».proof.Proof.Gen.ReferenceIdeal
import proofs.«403490_j83820581749192_2_alg».proof.Proof.KShared
import proofs.«403490_j83820581749192_2_alg».proof.Proof.IsR
import Idealize.ShloMosaic.PureOps.Ideal.Laws
import Idealize.ShloMosaic.Lib.ValueIdx

set_option maxRecDepth 16384

noncomputable section

namespace Cert.ReferenceIdeal.RefV

open Idealize.ShloMosaic Idealize.ShloMosaic.ValueIdx

/-! ## Where an update element of the per-graph scatter lands -/

/-- On the row axis the window starts at the signed value of the update row's index. -/
theorem scat_start0 (j : Cert.ReferenceIdeal.S100000x128.Idx) (idx : IVec Cert.ReferenceIdeal.S100000x1 32) :
    Cert.ReferenceIdeal.scatter_S512x128_S100000x1_S100000x128_1_0_0_1.start j idx 0 = (idx (ix2 (j 0) 0)).toInt := by
  unfold ScatterDims.start
  rw [dif_pos (show (0 : Fin 2) ∈ Cert.ReferenceIdeal.scatter_S512x128_S100000x1_S100000x128_1_0_0_1.scatterDimsToOperandDims from List.mem_singleton.mpr rfl)]
  congr 2
  funext b; refine Fin.ext ?_
  match b with
  | ⟨0, _⟩ => rfl
  | ⟨1, _⟩ => rfl

/-- On the feature axis the window starts at zero. -/
theorem scat_start1 (j : Cert.ReferenceIdeal.S100000x128.Idx) (idx : IVec Cert.ReferenceIdeal.S100000x1 32) :
    Cert.ReferenceIdeal.scatter_S512x128_S100000x1_S100000x128_1_0_0_1.start j idx 1 = 0 := by
  unfold ScatterDims.start
  rw [dif_neg]
  intro h
  have : (1 : Fin 2) = 0 := List.mem_singleton.mp h
  exact absurd this (by decide)

/-- The row axis is inserted: no window coordinate on it. -/
theorem scat_window0 (j : Cert.ReferenceIdeal.S100000x128.Idx) :
    Cert.ReferenceIdeal.scatter_S512x128_S100000x1_S100000x128_1_0_0_1.window j 0 = 0 := by
  unfold ScatterDims.window
  rw [dif_neg]
  intro h
  revert h
  decide

/-- The window coordinate on the feature axis is the update's feature. -/
theorem scat_window1 (j : Cert.ReferenceIdeal.S100000x128.Idx) :
    Cert.ReferenceIdeal.scatter_S512x128_S100000x1_S100000x128_1_0_0_1.window j 1 = (j 1).val := by
  unfold ScatterDims.window
  rw [dif_pos (by decide)]
  rfl

/-- A 32-bit word read as a signed integer is a natural number below 512 exactly when it is that number's word. -/
theorem toInt_eq_small_iff (w : BitVec 32) (g : Nat) (hg : g < 512) :
    w.toInt = (g : Int) ↔ w = BitVec.ofNat 32 g := by
  constructor
  · intro e
    apply BitVec.eq_of_toNat_eq
    rw [BitVec.toNat_ofNat]
    rw [BitVec.toInt_eq_toNat_cond] at e
    have := w.isLt
    split at e <;> omega
  · rintro rfl
    rw [BitVec.toInt_eq_toNat_cond, BitVec.toNat_ofNat]
    split <;> omega

/-- The graph indices as a column, read at row `n`. -/
theorem col_bcast_apply (b : IVec Cert.ReferenceIdeal.S100000 32) (n : Fin 100000) :
    broadcastInDim Cert.ReferenceIdeal.S100000x1 ![0] Cert.ReferenceIdeal.Facts₀.bcast_S100000_S100000x1_0 b (ix2 n 0)
      = b (ix1 n) := by
  simp only [broadcastInDim]
  congr 1
  funext a
  have ha : a = 0 := Subsingleton.elim _ _
  subst ha
  apply Fin.ext
  split
  · next h1 => exact absurd h1 (by decide)
  · rfl

/-- Where an update element lands: element `(n, f)` lands on `(g, f)` when the signed value of row `n`'s index is `g`,
    and nowhere when that value is outside the operand's rows. -/
theorem scat_resultIdx_iff (n : Fin 100000) (f : Fin 128) (idx : IVec Cert.ReferenceIdeal.S100000x1 32)
    (i : Cert.ReferenceIdeal.S512x128.Idx) :
    Cert.ReferenceIdeal.scatter_S512x128_S100000x1_S100000x128_1_0_0_1.resultIdx? (ix2 n f) idx = some i
      ↔ (idx (ix2 n 0)).toInt = ((i 0).val : Int) ∧ f = i 1 := by
  have hs0 := scat_start0 (ix2 n f) idx
  have hs1 := scat_start1 (ix2 n f) idx
  have hw0 := scat_window0 (ix2 n f)
  have hw1 := scat_window1 (ix2 n f)
  have hi0 : (i 0).val < 512 := idx2_lt0 i
  have hi1 : (i 1).val < 128 := idx2_lt1 i
  have hf : f.val < 128 := f.isLt
  have hn0 : (ix2 n f : Cert.ReferenceIdeal.S100000x128.Idx) 0 = n := rfl
  have hn1 : ((ix2 n f : Cert.ReferenceIdeal.S100000x128.Idx) 1).val = f.val := rfl
  rw [hn0] at hs0
  rw [hn1] at hw1
  unfold ScatterDims.resultIdx?
  split
  · next h =>
    rw [Option.some.injEq]
    have h0 := h 0
    have h1 := h 1
    rw [hs0, hw0] at h0
    constructor
    · intro e
      have e0 : (Cert.ReferenceIdeal.scatter_S512x128_S100000x1_S100000x128_1_0_0_1.start (ix2 n f) idx 0
          + Cert.ReferenceIdeal.scatter_S512x128_S100000x1_S100000x128_1_0_0_1.window (ix2 n f) 0).toNat = (i 0).val :=
        congrArg (fun g => (g 0).val) e
      have e1 : (Cert.ReferenceIdeal.scatter_S512x128_S100000x1_S100000x128_1_0_0_1.start (ix2 n f) idx 1
          + Cert.ReferenceIdeal.scatter_S512x128_S100000x1_S100000x128_1_0_0_1.window (ix2 n f) 1).toNat = (i 1).val :=
        congrArg (fun g => (g 1).val) e
      rw [hs0, hw0] at e0
      rw [hs1, hw1] at e1
      refine ⟨by omega, Fin.ext (by omega)⟩
    · rintro ⟨e0, e1⟩
      funext a
      refine Fin.ext ?_
      match a with
      | ⟨0, _⟩ =>
        show (Cert.ReferenceIdeal.scatter_S512x128_S100000x1_S100000x128_1_0_0_1.start (ix2 n f) idx 0
          + Cert.ReferenceIdeal.scatter_S512x128_S100000x1_S100000x128_1_0_0_1.window (ix2 n f) 0).toNat = (i 0).val
        rw [hs0, hw0]; omega
      | ⟨1, _⟩ =>
        show (Cert.ReferenceIdeal.scatter_S512x128_S100000x1_S100000x128_1_0_0_1.start (ix2 n f) idx 1
          + Cert.ReferenceIdeal.scatter_S512x128_S100000x1_S100000x128_1_0_0_1.window (ix2 n f) 1).toNat = (i 1).val
        rw [hs1, hw1, e1]; omega
  · next h =>
    constructor
    · intro e; exact absurd e (by simp)
    · rintro ⟨e0, e1⟩
      exfalso
      apply h
      intro a
      match a with
      | ⟨0, _⟩ =>
        show 0 ≤ Cert.ReferenceIdeal.scatter_S512x128_S100000x1_S100000x128_1_0_0_1.start (ix2 n f) idx 0
            + Cert.ReferenceIdeal.scatter_S512x128_S100000x1_S100000x128_1_0_0_1.window (ix2 n f) 0
          ∧ Cert.ReferenceIdeal.scatter_S512x128_S100000x1_S100000x128_1_0_0_1.start (ix2 n f) idx 0
            + Cert.ReferenceIdeal.scatter_S512x128_S100000x1_S100000x128_1_0_0_1.window (ix2 n f) 0 < (512 : Nat)
        rw [hs0, hw0]; omega
      | ⟨1, _⟩ =>
        show 0 ≤ Cert.ReferenceIdeal.scatter_S512x128_S100000x1_S100000x128_1_0_0_1.start (ix2 n f) idx 1
            + Cert.ReferenceIdeal.scatter_S512x128_S100000x1_S100000x128_1_0_0_1.window (ix2 n f) 1
          ∧ Cert.ReferenceIdeal.scatter_S512x128_S100000x1_S100000x128_1_0_0_1.start (ix2 n f) idx 1
            + Cert.ReferenceIdeal.scatter_S512x128_S100000x1_S100000x128_1_0_0_1.window (ix2 n f) 1 < (128 : Nat)
        rw [hs1, hw1]; omega

/-! ## The per-graph pooling -/

/-- The reference's per-graph pooling is the membership-weighted sum over all nodes. -/
theorem poolR_eq (h : FVec Ideal Cert.ReferenceIdeal.S100000x128 .f32) (b : IVec Cert.ReferenceIdeal.S100000 32) :
    Host.scatterAdd Cert.ReferenceIdeal.scatter_S512x128_S100000x1_S100000x128_1_0_0_1
      (broadcastInDim Cert.ReferenceIdeal.S512x128 ![] Cert.ReferenceIdeal.Facts₀.bcast_S_S512x128 (constant (F := Ideal) Cert.ReferenceIdeal.S_ .f32 0x00000000#32))
      (broadcastInDim Cert.ReferenceIdeal.S100000x1 ![0] Cert.ReferenceIdeal.Facts₀.bcast_S100000_S100000x1_0 b) h
    = GIN.pool h (Cert.KernelIdeal.Val.col b) := by
  funext i
  obtain ⟨g, q, rfl⟩ : ∃ (g : Fin 512) (q : Fin 128), i = ix2 g q := ⟨i 0, i 1, eq_ix2 i⟩
  have hg : g.val < 512 := g.isLt
  show Ideal.hostScatterAdd _ _ _ _ _ = _
  unfold Ideal.hostScatterAdd
  have hx : (broadcastInDim Cert.ReferenceIdeal.S512x128 ![] Cert.ReferenceIdeal.Facts₀.bcast_S_S512x128
      (constant (F := Ideal) Cert.ReferenceIdeal.S_ .f32 0x00000000#32)) (ix2 g q) = (0 : EReal) := by
    show Ideal.ofBits .f32 0x00000000#32 = 0
    exact Ideal.ofBits_zero_f32
  rw [hx, zero_add, Finset.sum_filter, sum_idx2]
  show _ = ∑ n : Fin 100000, GIN.member (b (ix1 n)) g.val * h (ix2 n q)
  refine Finset.sum_congr rfl (fun n _ => ?_)
  trans ∑ f : Fin 128, if f = q then GIN.member (b (ix1 n)) g.val * h (ix2 n f) else 0
  · refine Finset.sum_congr rfl (fun f _ => ?_)
    have key : Cert.ReferenceIdeal.scatter_S512x128_S100000x1_S100000x128_1_0_0_1.resultIdx? (ix2 n f)
          (broadcastInDim Cert.ReferenceIdeal.S100000x1 ![0] Cert.ReferenceIdeal.Facts₀.bcast_S100000_S100000x1_0 b)
          = some (ix2 g q)
        ↔ ((broadcastInDim Cert.ReferenceIdeal.S100000x1 ![0] Cert.ReferenceIdeal.Facts₀.bcast_S100000_S100000x1_0 b)
            (ix2 n 0)).toInt = (g.val : Int) ∧ f = q :=
      scat_resultIdx_iff n f _ (ix2 g q)
    rw [col_bcast_apply, toInt_eq_small_iff _ _ hg] at key
    by_cases hf : f = q
    · by_cases hb : b (ix1 n) = BitVec.ofNat 32 g.val
      · rw [if_pos (key.mpr ⟨hb, hf⟩), if_pos hf]
        unfold GIN.member
        rw [if_pos hb, one_mul]
      · rw [if_neg (fun hc => hb (key.mp hc).1), if_pos hf]
        unfold GIN.member
        rw [if_neg hb, zero_mul]
    · rw [if_neg (fun hc => hf (key.mp hc).2), if_neg hf]
  · rw [Finset.sum_ite_eq', if_pos (Finset.mem_univ _)]

/-! ## The neighbour aggregation is real-valued -/

/-- A scatter-add of real-valued updates into a real-valued operand is real-valued: every entry is an operand entry
    plus a finite sum of update entries. -/
theorem scatterAdd_isR {s si su : Shape} {w : Nat} (d : ScatterDims s si su) (x : FVec Ideal s .f32) (idx : IVec si w)
    (upd : FVec Ideal su .f32) (hx : ∀ i, GIN.IsR (x i)) (hu : ∀ j, GIN.IsR (upd j)) :
    ∀ i, GIN.IsR (Host.scatterAdd d x idx upd i) := by
  intro i
  show GIN.IsR (Ideal.hostScatterAdd d x idx upd i)
  unfold Ideal.hostScatterAdd
  exact (hx i).add (GIN.IsR.sum _ _ (fun j _ => hu j))

/-- Every entry of a gathered array is an entry of the operand. -/
theorem gather_isR {s si t : Shape} {w : Nat} (d : GatherDims s si t) (x : FVec Ideal s .f32) (idx : IVec si w)
    (hx : ∀ i, GIN.IsR (x i)) : ∀ j, GIN.IsR (Host.gather d x idx j) := by
  intro j
  unfold Host.gather
  exact hx _

/-- The broadcast zero constant is zero at every index. -/
theorem bcast_zero_apply {t : Shape} (dims : Fin Cert.KernelIdeal.S_.rank → Fin t.rank)
    (hb : Cert.KernelIdeal.S_.BroadcastsInDim t dims) (i : t.Idx) :
    broadcastInDim t dims hb (constant (F := Ideal) Cert.KernelIdeal.S_ .f32 0x00000000#32) i = (0 : EReal) := by
  show Ideal.ofBits .f32 0x00000000#32 = 0
  exact Ideal.ofBits_zero_f32

/-- The neighbour aggregation of real-valued features is real-valued. -/
theorem agg_isR (h : FVec Ideal Cert.KernelIdeal.S100000x128 .f32) (src dst : IVec Cert.KernelIdeal.S1600000 32)
    (hh : ∀ i, GIN.IsR (h i)) : ∀ i, GIN.IsR (Cert.KernelIdeal.Val.agg h src dst i) := by
  unfold Cert.KernelIdeal.Val.agg
  refine scatterAdd_isR _ _ _ _ (fun i => ?_) (gather_isR _ _ _ hh)
  rw [bcast_zero_apply]
  exact GIN.IsR.zero

end Cert.ReferenceIdeal.RefV

end
-- ==== Proof.RefVal.lean ====
/-
  The reference program's result, read one operation at a time: the two layers, the per-graph pooling as a
  membership-weighted sum over all nodes, and the final linear head.
-/
import proofs.«403490_j83820581749192_2_alg».proof.Proof.RefL1
import proofs.«403490_j83820581749192_2_alg».proof.Proof.RefL2
import proofs.«403490_j83820581749192_2_alg».proof.Proof.PoolAgg

set_option maxRecDepth 16384

noncomputable section

namespace Cert.ReferenceIdeal.RefV

open Cert.ReferenceIdeal Cert.ReferenceIdeal.Read Idealize.ShloMosaic Idealize.ShloMosaic.ValueIdx
open Cert.KernelIdeal.Val (agg srcOf dstOf head col netR)

/-- The reference's result is the network function with the reference's variance. -/
theorem rval (x0 : FVec Ideal S100000x128 .f32) (x1 : IVec S2x1600000 32) (x2 : IVec S100000 32) (x3 : FVec Ideal S128x128 .f32) (x4 : FVec Ideal S128 .f32) (x5 : FVec Ideal S128 .f32) (x6 : FVec Ideal S128 .f32) (x7 : FVec Ideal S128x128 .f32) (x8 : FVec Ideal S128 .f32) (x9 : FVec Ideal S128x128 .f32) (x10 : FVec Ideal S128 .f32) (x11 : FVec Ideal S128 .f32) (x12 : FVec Ideal S128 .f32) (x13 : FVec Ideal S128x128 .f32) (x14 : FVec Ideal S128 .f32) (x15 : FVec Ideal S128x10 .f32) (x16 : FVec Ideal S10 .f32) :
    val_main_v106 (F := Ideal) x0 x1 x2 x3 x4 x5 x6 x7 x8 x9 x10 x11 x12 x13 x14 x15 x16 = netR x0 x1 x2 x3 x4 x5 x6 x7 x8 x9 x10 x11 x12 x13 x14 x15 x16 := by
  -- the result is the linear head applied to the per-graph sums of the second layer's output
  unfold val_main_v106 val_main_v105 val_main_v104 val_main_v103 val_main_v102 val_main_v101 val_main_v100 val_main_cst_14
  -- the per-graph sums are the membership-weighted sums over all nodes; each layer is the layer function with the
  -- variance taken as the mean of the squared deviations, the second layer over the first layer's output
  rw [poolR_eq, ref_layer2, ref_layer1]
  unfold netR head
  rfl

end Cert.ReferenceIdeal.RefV

end
-- ==== Proof.Alg.lean ====
/-
  The one place where the two programs differ as functions: the variance. On real numbers the mean of the squares
  minus the square of the mean is the mean of the squared deviations, and is not negative, so the clamp at zero does
  nothing. With it, a layer computed with either variance is the same function, and its values stay real numbers
  (the normalisation divides by the square root of a variance plus a positive epsilon).
-/
import proofs.«403490_j83820581749192_2_alg».proof.Proof.IsR

noncomputable section

namespace GIN

open Idealize.ShloMosaic Idealize.ShloMosaic.ValueIdx

/-- The node count's word denotes the real number 100000. -/
theorem cN_eq : cN = ((100000 : ℝ) : EReal) := by
  simp [Ideal.ofBits, Ideal.ieee, -EReal.coe_mul]; norm_num

/-- The epsilon's word is the real number 10995116 · 2⁻⁴⁰. -/
theorem cEps_eq : cEps = (((10995116 : ℝ) * (2 : ℝ) ^ (-40 : Int) : ℝ) : EReal) := by
  simp [Ideal.ofBits, Ideal.ieee, -EReal.coe_mul]

/-- The epsilon's word denotes a positive real number. -/
theorem cEps_pos : ∃ e : ℝ, 0 < e ∧ cEps = (e : EReal) :=
  ⟨_, by positivity, cEps_eq⟩

theorem row_isR {b : TF.Idx → EReal} (hb : ∀ i, IsR (b i)) : ∀ i, IsR (row b i) := fun _ => hb _

theorem add2_isR {x a : TNF.Idx → EReal} (hx : ∀ i, IsR (x i)) (ha : ∀ i, IsR (a i)) : ∀ i, IsR (add2 x a i) :=
  fun i => (hx i).add (ha i)

theorem lin_isR {z : TNF.Idx → EReal} {W : TFF.Idx → EReal} {b : TRow.Idx → EReal}
    (hz : ∀ i, IsR (z i)) (hW : ∀ i, IsR (W i)) (hb : ∀ i, IsR (b i)) : ∀ i, IsR (lin z W b i) :=
  fun _ => (IsR.sum _ _ fun _ _ => (hz _).mul (hW _)).add (hb _)

/-- Division by the node count is multiplication by the real number 1/100000. -/
theorem div_cN (x : EReal) : Ideal.div x cN = x * (((1 / 100000 : ℝ) : ℝ) : EReal) := by
  rw [cN_eq, Ideal.div_coe (by norm_num)]

/-! ### The variance identity on real numbers -/

/-- For real numbers `a` over a finite index set and a weight `c` with `card · c = 1`: the sum of the squared
    deviations from the weighted mean `μ = c Σ a` is `Σ a² − 2 μ Σ a + card μ²`, so times `c` it is the weighted
    mean of the squares minus `μ²`. -/
theorem real_dev {ι : Type} [Fintype ι] (a : ι → ℝ) (c : ℝ) (hc : (Fintype.card ι : ℝ) * c = 1) :
    (∑ n, (a n - (∑ n, a n) * c) * (a n - (∑ n, a n) * c)) * c
      = (∑ n, a n * a n) * c - ((∑ n, a n) * c) * ((∑ n, a n) * c) := by
  have hexp : ∀ n, (a n - (∑ n, a n) * c) * (a n - (∑ n, a n) * c)
      = a n * a n - 2 * ((∑ n, a n) * c) * a n + ((∑ n, a n) * c) * ((∑ n, a n) * c) := fun n => by ring
  simp only [hexp]
  rw [Finset.sum_add_distrib, Finset.sum_sub_distrib, ← Finset.mul_sum, Finset.sum_const, Finset.card_univ,
    nsmul_eq_mul]
  linear_combination ((∑ n, a n) * (∑ n, a n) * c * c) * hc

/-- The mean of the squares minus the square of the mean is not negative, so clamping it below at zero does
    nothing: it is the mean of the squared deviations. -/
theorem real_var {ι : Type} [Fintype ι] (a : ι → ℝ) (c : ℝ) (hc : (Fintype.card ι : ℝ) * c = 1) (hc0 : 0 ≤ c) :
    max ((∑ n, a n * a n) * c - ((∑ n, a n) * c) * ((∑ n, a n) * c)) 0
      = (∑ n, (a n - (∑ n, a n) * c) * (a n - (∑ n, a n) * c)) * c := by
  rw [← real_dev a c hc]
  exact max_eq_left (mul_nonneg (Finset.sum_nonneg fun n _ => mul_self_nonneg _) hc0)

/-- The maximum of two real numbers, as an extended real. -/
theorem coe_max (x y : ℝ) : ((max x y : ℝ) : EReal) = max (x : EReal) (y : EReal) := by
  rcases le_total x y with h | h
  · rw [max_eq_right h, max_eq_right (EReal.coe_le_coe_iff.mpr h)]
  · rw [max_eq_left h, max_eq_left (EReal.coe_le_coe_iff.mpr h)]

/-! ### The three column statistics of an array of real numbers -/

theorem mean_coe (r : TNF.Idx → ℝ) (j : TF.Idx) :
    mean (fun i => (r i : EReal)) j = (((∑ n : Fin 100000, r (ix2 n (j 0))) * (1 / 100000 : ℝ) : ℝ) : EReal) := by
  unfold mean colsum
  rw [div_cN, ← coe_sum, ← EReal.coe_mul]

theorem varK_coe (r : TNF.Idx → ℝ) (j : TF.Idx) :
    varK (fun i => (r i : EReal)) j
      = ((max ((∑ n : Fin 100000, r (ix2 n (j 0)) * r (ix2 n (j 0))) * (1 / 100000 : ℝ)
          - ((∑ n : Fin 100000, r (ix2 n (j 0))) * (1 / 100000 : ℝ))
            * ((∑ n : Fin 100000, r (ix2 n (j 0))) * (1 / 100000 : ℝ))) 0 : ℝ) : EReal) := by
  unfold varK
  rw [mean_coe, div_cN]
  unfold colsum sq
  simp only [← EReal.coe_mul]
  rw [← coe_sum, ← EReal.coe_mul, ← EReal.coe_sub, coe_max, EReal.coe_zero]

theorem varR_coe (r : TNF.Idx → ℝ) (j : TF.Idx) :
    varR (fun i => (r i : EReal)) j
      = (((∑ n : Fin 100000, (r (ix2 n (j 0)) - (∑ n : Fin 100000, r (ix2 n (j 0))) * (1 / 100000 : ℝ))
          * (r (ix2 n (j 0)) - (∑ n : Fin 100000, r (ix2 n (j 0))) * (1 / 100000 : ℝ))) * (1 / 100000 : ℝ) : ℝ) : EReal) := by
  unfold varR
  rw [mean_coe, div_cN]
  simp only [← EReal.coe_sub, ← EReal.coe_mul]
  rw [← coe_sum, ← EReal.coe_mul]

theorem mean_isR {h : TNF.Idx → EReal} (hh : ∀ i, IsR (h i)) : ∀ j, IsR (mean h j) := by
  choose r hr using hh
  obtain rfl : h = fun i => (r i : EReal) := funext hr
  exact fun j => ⟨_, mean_coe r j⟩

/-- On real values the two variances agree. -/
theorem varK_eq_varR {h : TNF.Idx → EReal} (hh : ∀ i, IsR (h i)) : varK h = varR h := by
  choose r hr using hh
  obtain rfl : h = fun i => (r i : EReal) := funext hr
  funext j
  rw [varK_coe, varR_coe, real_var _ _ (by rw [Fintype.card_fin]; norm_num) (by norm_num)]

/-- The variance of real values is a real number and is not negative. -/
theorem varK_isR_nonneg {h : TNF.Idx → EReal} (hh : ∀ i, IsR (h i)) : ∀ j, IsR (varK h j) ∧ 0 ≤ varK h j := by
  choose r hr using hh
  obtain rfl : h = fun i => (r i : EReal) := funext hr
  exact fun j => ⟨⟨_, varK_coe r j⟩, le_max_right _ _⟩

/-- The reciprocal square root of a non-negative real number plus the epsilon is a real number. -/
theorem rsqrt_isR {x : EReal} (hx : IsR x) (h0 : 0 ≤ x) : IsR (Ideal.rsqrt (x + cEps)) := by
  obtain ⟨v, rfl⟩ := hx
  obtain ⟨e, he, hE⟩ := cEps_pos
  have hv : 0 ≤ v := EReal.coe_nonneg.mp h0
  rw [hE, ← EReal.coe_add, Ideal.rsqrt_coe, if_neg (by linarith), if_neg (by linarith)]
  exact ⟨_, rfl⟩

theorem act_isR {h : TNF.Idx → EReal} {mu var g bt : TRow.Idx → EReal} {W : TFF.Idx → EReal} {b : TRow.Idx → EReal}
    (hh : ∀ i, IsR (h i)) (hmu : ∀ i, IsR (mu i)) (hvar : ∀ i, IsR (var i) ∧ 0 ≤ var i) (hg : ∀ i, IsR (g i))
    (hbt : ∀ i, IsR (bt i)) (hW : ∀ i, IsR (W i)) (hb : ∀ i, IsR (b i)) : ∀ i, IsR (act h mu var g bt W b i) :=
  fun _ => IsR.max ((IsR.sum _ _ fun _ _ =>
    (IsR.max (((((hh _).sub (hmu _)).mul (rsqrt_isR (hvar _).1 (hvar _).2)).mul (hg _)).add (hbt _)) IsR.zero).mul
      (hW _)).add (hb _)) IsR.zero

/-- A layer is the same function with either variance, on real inputs. -/
theorem layerK_eq_layerR {x agg : TNF.Idx → EReal} {Wa : TFF.Idx → EReal} {ba g bt : TF.Idx → EReal} {Wb : TFF.Idx → EReal}
    {bb : TF.Idx → EReal} (hx : ∀ i, IsR (x i)) (hagg : ∀ i, IsR (agg i)) (hWa : ∀ i, IsR (Wa i)) (hba : ∀ i, IsR (ba i)) :
    layerK x agg Wa ba g bt Wb bb = layerR x agg Wa ba g bt Wb bb := by
  unfold layerK layerR
  rw [varK_eq_varR (lin_isR (add2_isR hx hagg) hWa (row_isR hba))]

/-- A layer's values are real numbers, on real inputs. -/
theorem layerK_isR {x agg : TNF.Idx → EReal} {Wa : TFF.Idx → EReal} {ba g bt : TF.Idx → EReal} {Wb : TFF.Idx → EReal}
    {bb : TF.Idx → EReal} (hx : ∀ i, IsR (x i)) (hagg : ∀ i, IsR (agg i)) (hWa : ∀ i, IsR (Wa i)) (hba : ∀ i, IsR (ba i))
    (hg : ∀ i, IsR (g i)) (hbt : ∀ i, IsR (bt i)) (hWb : ∀ i, IsR (Wb i)) (hbb : ∀ i, IsR (bb i)) :
    ∀ i, IsR (layerK x agg Wa ba g bt Wb bb i) := by
  have hl := lin_isR (add2_isR hx hagg) hWa (row_isR hba)
  unfold layerK
  exact act_isR hl (row_isR (mean_isR hl)) (fun i => varK_isR_nonneg hl (ix1 (i 1))) (row_isR hg) (row_isR hbt) hWb
    (row_isR hbb)

end GIN

end
-- ==== Proof.NetEq.lean ====
/-
  With either variance the whole network is the same function of real-valued arguments: the first layer's two
  forms agree on real inputs, its output and its neighbour aggregation are then real-valued, so the second layer's
  two forms agree as well.
-/
import proofs.«403490_j83820581749192_2_alg».proof.Proof.KShared
import proofs.«403490_j83820581749192_2_alg».proof.Proof.Alg
import proofs.«403490_j83820581749192_2_alg».proof.Proof.PoolAgg

set_option maxRecDepth 16384

noncomputable section

namespace Cert.KernelIdeal.Val

open Cert.KernelIdeal Idealize.ShloMosaic Idealize.ShloMosaic.ValueIdx

/-- The network with the kernel's variance is the network with the reference's variance, on real-valued arguments. -/
theorem netK_eq_netR (x0 : FVec Ideal S100000x128 .f32) (x1 : IVec S2x1600000 32) (x2 : IVec S100000 32) (x3 : FVec Ideal S128x128 .f32) (x4 : FVec Ideal S128 .f32) (x5 : FVec Ideal S128 .f32) (x6 : FVec Ideal S128 .f32) (x7 : FVec Ideal S128x128 .f32) (x8 : FVec Ideal S128 .f32) (x9 : FVec Ideal S128x128 .f32) (x10 : FVec Ideal S128 .f32) (x11 : FVec Ideal S128 .f32) (x12 : FVec Ideal S128 .f32) (x13 : FVec Ideal S128x128 .f32) (x14 : FVec Ideal S128 .f32) (x15 : FVec Ideal S128x10 .f32) (x16 : FVec Ideal S10 .f32)
    (h0 : ∀ i, GIN.IsR (x0 i)) (h3 : ∀ i, GIN.IsR (x3 i)) (h4 : ∀ i, GIN.IsR (x4 i)) (h5 : ∀ i, GIN.IsR (x5 i)) (h6 : ∀ i, GIN.IsR (x6 i)) (h7 : ∀ i, GIN.IsR (x7 i)) (h8 : ∀ i, GIN.IsR (x8 i)) (h9 : ∀ i, GIN.IsR (x9 i)) (h10 : ∀ i, GIN.IsR (x10 i)) (h11 : ∀ i, GIN.IsR (x11 i)) (h12 : ∀ i, GIN.IsR (x12 i)) (h13 : ∀ i, GIN.IsR (x13 i)) (h14 : ∀ i, GIN.IsR (x14 i)) (h15 : ∀ i, GIN.IsR (x15 i)) (h16 : ∀ i, GIN.IsR (x16 i)) :
    netK x0 x1 x2 x3 x4 x5 x6 x7 x8 x9 x10 x11 x12 x13 x14 x15 x16 = netR x0 x1 x2 x3 x4 x5 x6 x7 x8 x9 x10 x11 x12 x13 x14 x15 x16 := by
  -- the first layer: its inputs and its neighbour aggregation are real-valued, so its two forms agree and it is real-valued
  have ha0 := Cert.ReferenceIdeal.RefV.agg_isR x0 (srcOf x1) (dstOf x1) h0
  have e1 : GIN.layerK x0 (agg x0 (srcOf x1) (dstOf x1)) x3 x4 x5 x6 x7 x8
      = GIN.layerR x0 (agg x0 (srcOf x1) (dstOf x1)) x3 x4 x5 x6 x7 x8 :=
    GIN.layerK_eq_layerR h0 ha0 h3 h4
  have r1 : ∀ i, GIN.IsR (GIN.layerK x0 (agg x0 (srcOf x1) (dstOf x1)) x3 x4 x5 x6 x7 x8 i) :=
    GIN.layerK_isR h0 ha0 h3 h4 h5 h6 h7 h8
  -- the second layer: fed by the first layer and its aggregation, both real-valued
  have ha1 := Cert.ReferenceIdeal.RefV.agg_isR
    (GIN.layerK x0 (agg x0 (srcOf x1) (dstOf x1)) x3 x4 x5 x6 x7 x8) (srcOf x1) (dstOf x1) r1
  have e2 : GIN.layerK (GIN.layerK x0 (agg x0 (srcOf x1) (dstOf x1)) x3 x4 x5 x6 x7 x8)
        (agg (GIN.layerK x0 (agg x0 (srcOf x1) (dstOf x1)) x3 x4 x5 x6 x7 x8) (srcOf x1) (dstOf x1)) x9 x10 x11 x12 x13 x14
      = GIN.layerR (GIN.layerK x0 (agg x0 (srcOf x1) (dstOf x1)) x3 x4 x5 x6 x7 x8)
        (agg (GIN.layerK x0 (agg x0 (srcOf x1) (dstOf x1)) x3 x4 x5 x6 x7 x8) (srcOf x1) (dstOf x1)) x9 x10 x11 x12 x13 x14 :=
    GIN.layerK_eq_layerR r1 ha1 h9 h10
  unfold netK netR
  rw [← e1, e2]

end Cert.KernelIdeal.Val

end
-- ==== Proof.PreFin.lean ====
/-
  The precondition says every float argument's absolute value is below infinity, entry by entry; so every entry is a
  real number.
-/
import proofs.«403490_j83820581749192_2_alg».proof.Proof.Gen.Pre_finite_inputs
import proofs.«403490_j83820581749192_2_alg».proof.Proof.IsR
import Idealize.ShloMosaic.Lib.ReduceAll
import Idealize.ShloMosaic.Lib.ValueIdx
import Idealize.ShloMosaic.Lib.IdealHost

set_option maxRecDepth 16384

noncomputable section

namespace Cert.Pre_finite_inputs.Fin

open Cert.Pre_finite_inputs Cert.Pre_finite_inputs.Facts Idealize.ShloMosaic Idealize.ShloMosaic.ValueIdx

/-- A scalar has exactly one index. -/
instance scalarIdx : Subsingleton S_.Idx := ⟨fun a b => funext fun d => d.elim0⟩

/-- The single-precision word 0x7F800000 denotes plus infinity. -/
theorem word_top : Ideal.ofBits .f32 0x7F800000#32 = (⊤ : EReal) := by simp [Ideal.ofBits, Ideal.ieee]

/-- An extended real whose absolute value max(x, -x) lies strictly below plus infinity is a real number: the two
    infinities both have absolute value plus infinity. -/
theorem isR_of_abs_lt_top (x : EReal) (h : Ideal.cmp .olt (max x (-x)) ⊤ = 1#1) : GIN.IsR x := by
  induction x using EReal.rec with
  | bot => exfalso; simp [Ideal.cmp] at h
  | coe r => exact ⟨r, rfl⟩
  | top => exfalso; simp [Ideal.cmp] at h

/-- One argument: if the conjunction over all entries of |x| < +inf holds, every entry of x is a real number. -/
theorem all_real {T : Shape} {axes : List (Fin T.rank)} (hb : S_.BroadcastsInDim T (![] : Fin 0 → Fin T.rank))
    (hr : T.ReducesTo axes S_) (hu : 0 < S_.numel) (x : FVec Ideal T .f32)
    (h : Host.reduce IntOp.andi (cmpf .olt (Host.absf x) (broadcastInDim T ![] hb (constant (F := Ideal) S_ .f32 0x7F800000#32)))
      (constantI S_ 1 1#1) hr hu ix0 = 1#1) : ∀ i, GIN.IsR (x i) := by
  intro i
  have e := Host.reduce_andi_all _ _ hr hu ix0 h i
  rw [cmpf_apply, broadcastInDim_scalar_apply, constant_apply, word_top] at e
  exact isR_of_abs_lt_top (x i) e

/-- A conjunction of two truth values that holds: both hold. -/
theorem both (a b : IVec S_ 1) (h : andi a b ix0 = 1#1) : a ix0 = 1#1 ∧ b ix0 = 1#1 := IntOp.andi_eq_one.1 h

/-- Under the precondition every entry of every float argument is a real number. -/
theorem finite_of_pre (x0 : FVec Ideal S100000x128 .f32) (x1 : IVec S2x1600000 32) (x2 : IVec S100000 32) (x3 : FVec Ideal S128x128 .f32) (x4 : FVec Ideal S128 .f32) (x5 : FVec Ideal S128 .f32) (x6 : FVec Ideal S128 .f32) (x7 : FVec Ideal S128x128 .f32) (x8 : FVec Ideal S128 .f32) (x9 : FVec Ideal S128x128 .f32) (x10 : FVec Ideal S128 .f32) (x11 : FVec Ideal S128 .f32) (x12 : FVec Ideal S128 .f32) (x13 : FVec Ideal S128x128 .f32) (x14 : FVec Ideal S128 .f32) (x15 : FVec Ideal S128x10 .f32) (x16 : FVec Ideal S10 .f32)
    (h : Cert.Pre_finite_inputs.fn (F := Ideal) x0 x1 x2 x3 x4 x5 x6 x7 x8 x9 x10 x11 x12 x13 x14 x15 x16 = fun _ => 1#1) :
    (∀ i, GIN.IsR (x0 i)) ∧ (∀ i, GIN.IsR (x3 i)) ∧ (∀ i, GIN.IsR (x4 i)) ∧ (∀ i, GIN.IsR (x5 i)) ∧ (∀ i, GIN.IsR (x6 i)) ∧ (∀ i, GIN.IsR (x7 i)) ∧ (∀ i, GIN.IsR (x8 i)) ∧ (∀ i, GIN.IsR (x9 i)) ∧ (∀ i, GIN.IsR (x10 i)) ∧ (∀ i, GIN.IsR (x11 i)) ∧ (∀ i, GIN.IsR (x12 i)) ∧ (∀ i, GIN.IsR (x13 i)) ∧ (∀ i, GIN.IsR (x14 i)) ∧ (∀ i, GIN.IsR (x15 i)) ∧ (∀ i, GIN.IsR (x16 i)) := by
  have h0 := congrFun h ix0
  dsimp only [fn, fn_part1, fn_part2, fn_part3, fn_part4] at h0
  obtain ⟨h1, c16⟩ := both _ _ h0
  obtain ⟨h2, c15⟩ := both _ _ h1
  obtain ⟨h3, c14⟩ := both _ _ h2
  obtain ⟨h4, c13⟩ := both _ _ h3
  obtain ⟨h5, c12⟩ := both _ _ h4
  obtain ⟨h6, c11⟩ := both _ _ h5
  obtain ⟨h7, c10⟩ := both _ _ h6
  obtain ⟨h8, c9⟩ := both _ _ h7
  obtain ⟨h9, c8⟩ := both _ _ h8
  obtain ⟨h10, c7⟩ := both _ _ h9
  obtain ⟨h11, c6⟩ := both _ _ h10
  obtain ⟨h12, c5⟩ := both _ _ h11
  obtain ⟨h13, c4⟩ := both _ _ h12
  obtain ⟨c0, c3⟩ := both _ _ h13
  exact ⟨all_real _ _ _ x0 c0, all_real _ _ _ x3 c3, all_real _ _ _ x4 c4, all_real _ _ _ x5 c5, all_real _ _ _ x6 c6,
    all_real _ _ _ x7 c7, all_real _ _ _ x8 c8, all_real _ _ _ x9 c9, all_real _ _ _ x10 c10, all_real _ _ _ x11 c11,
    all_real _ _ _ x12 c12, all_real _ _ _ x13 c13, all_real _ _ _ x14 c14, all_real _ _ _ x15 c15, all_real _ _ _ x16 c16⟩

end Cert.Pre_finite_inputs.Fin

end
-- ==== Proof.lean ====
/-
  The certificate. Both programs compute a two-layer graph isomorphism network followed by a per-graph sum and a
  linear head. The kernel program's result is read off its run boundary by boundary (the first pass of each layer
  leaves the linear map of the features plus their neighbour aggregation and per-tile column sums; the host turns those
  into the mean and the variance; the second pass normalises, rectifies and applies the second linear map; the last
  pass also sums each tile's rows per graph). The reference's result is read one operation at a time. Under the
  precondition every float argument is real-valued, and on real values the kernel's variance (mean of squares minus
  squared mean, clamped at zero) is the reference's (mean of squared deviations); everything else differs only in how
  sums are grouped. The three frames are the generated runs; nothing was rewritten by the ideal pass.
-/
import proofs.«403490_j83820581749192_2_alg».proof.Defs
import proofs.«403490_j83820581749192_2_alg».proof.Proof.Gen.Kernel.Frame
import proofs.«403490_j83820581749192_2_alg».proof.Proof.KRun
import proofs.«403490_j83820581749192_2_alg».proof.Proof.KThreadB
import proofs.«403490_j83820581749192_2_alg».proof.Proof.RefVal
import proofs.«403490_j83820581749192_2_alg».proof.Proof.NetEq
import proofs.«403490_j83820581749192_2_alg».proof.Proof.PreFin
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two idealized programs end with equal results: the kernel's run leaves the network function with its own
    variance, the reference's run the network function with the reference's variance, and on the real-valued
    arguments the precondition grants the two are one function. -/
theorem algebraic : Cert.algebraic_KernelIdeal_ReferenceIdeal := by
  intro m ρ m' ρ' hpre hagree
  refine ⟨fun c => Cert.KernelIdeal.Val.netK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Val.kval m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    obtain ⟨h0, h3, h4, h5, h6, h7, h8, h9, h10, h11, h12, h13, h14, h15, h16⟩ := Cert.Pre_finite_inputs.Fin.finite_of_pre _ _ _ _ _ _ _ _ _ _ _ _ _ _ _ _ _ (hpre c)
    rw [Cert.ReferenceIdeal.Read.val_main_v106_eq, Cert.ReferenceIdeal.RefV.rval, e0, e1, e2, e3, e4, e5, e6, e7, e8, e9, e10, e11, e12, e13, e14, e15, e16]
    exact (Cert.KernelIdeal.Val.netK_eq_netR _ _ _ _ _ _ _ _ _ _ _ _ _ _ _ _ _ h0 h3 h4 h5 h6 h7 h8 h9 h10 h11 h12 h13 h14 h15 h16).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
